-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x16x512x512 : Shape := ⟨4, ![32, 16, 512, 512]⟩
abbrev S_ : Shape := ⟨0, ![]⟩

class Facts : Prop where
  bcast_S_S32x16x512x512 : S_.BroadcastsInDim S32x16x512x512 (![] : Fin 0 → Fin S32x16x512x512.rank)
  reducesTo_S32x16x512x512_S_d0_1_2_3 : S32x16x512x512.ReducesTo [0, 1, 2, 3] S_
  h_S_ : 0 < S_.numel

variable [Facts]

def fn {F : FTy → Type} [FloatOps F] (main_arg0 : FVec F S32x16x512x512 .f32) : IVec S_ 1 :=
  let main_v0 : FVec F S32x16x512x512 .f32 := Host.absf main_arg0
  let main_cst : FVec F S_ .f32 := constant S_ .f32 0x7F800000#32
  let main_v1 : FVec F S32x16x512x512 .f32 := broadcastInDim S32x16x512x512 ![] bcast_S_S32x16x512x512 main_cst
  let main_v2 : IVec S32x16x512x512 1 := cmpf .olt main_v0 main_v1
  let main_c : IVec S_ 1 := constantI S_ 1 1#1
  let main_v3 : IVec S_ 1 := (fun x v => Host.reduce IntOp.andi x v reducesTo_S32x16x512x512_S_d0_1_2_3 h_S_) main_v2 main_c
  main_v3
-- ==== Kernel.lean ====
abbrev S32x16x512x512 : Shape := ⟨4, ![32, 16, 512, 512]⟩
abbrev S32x16 : Shape := ⟨2, ![32, 16]⟩
abbrev S8x16x64x512 : Shape := ⟨4, ![8, 16, 64, 512]⟩
abbrev S8x16 : Shape := ⟨2, ![8, 16]⟩
abbrev S32x64 : Shape := ⟨2, ![32, 64]⟩

abbrev nBuf : Space → Nat
  | .hbm => 6
  | .vmem => 14
  | .smem => 0
  | _ => 0

abbrev bufTy : (tb : Table) → Fin (tcTables nBuf tb) → BufTy
  | .hbm, ⟨0, _⟩ => ⟨S32x16x512x512, .f32⟩
  | .hbm, ⟨1, _⟩ => ⟨S32x16, .f32⟩
  | .hbm, ⟨2, _⟩ => ⟨S32x16, .f32⟩
  | .hbm, ⟨3, _⟩ => ⟨S32x16, .f32⟩
  | .hbm, ⟨4, _⟩ => ⟨S32x16, .f32⟩
  | .hbm, ⟨5, _⟩ => ⟨S32x64, .f32⟩
  | .local _ .vmem, ⟨0, _⟩ => ⟨S8x16x64x512, .f32⟩
  | .local _ .vmem, ⟨1, _⟩ => ⟨S8x16x64x512, .f32⟩
  | .local _ .vmem, ⟨2, _⟩ => ⟨S8x16, .f32⟩
  | .local _ .vmem, ⟨3, _⟩ => ⟨S8x16, .f32⟩
  | .local _ .vmem, ⟨4, _⟩ => ⟨S8x16, .f32⟩
  | .local _ .vmem, ⟨5, _⟩ => ⟨S8x16, .f32⟩
  | .local _ .vmem, ⟨6, _⟩ => ⟨S8x16, .f32⟩
  | .local _ .vmem, ⟨7, _⟩ => ⟨S8x16, .f32⟩
  | .local _ .vmem, ⟨8, _⟩ => ⟨S8x16, .f32⟩
  | .local _ .vmem, ⟨9, _⟩ => ⟨S8x16, .f32⟩
  | .local _ .vmem, ⟨10, _⟩ => ⟨S8x16, .f32⟩
  | .local _ .vmem, ⟨11, _⟩ => ⟨S8x16, .f32⟩
  | .local _ .vmem, ⟨12, _⟩ => ⟨S8x16, .f32⟩
  | .local _ .vmem, ⟨13, _⟩ => ⟨S8x16, .f32⟩
  | _, _ => ⟨S32x16x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_v0_0 : Ref sig .tc := ⟨.hbm, 1, rfl⟩
abbrev main_v0_1 : Ref sig .tc := ⟨.hbm, 2, rfl⟩
abbrev main_v0_2 : Ref sig .tc := ⟨.hbm, 3, rfl⟩
abbrev main_v0_3 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_scratch3 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![4, 8], ![false, false]⟩

def k0_cond2 (i : grid0.Coords) : BitVec 1 :=
  let arg1 : BitVec 32 := BitVec.ofNat 32 (i 1).val
  let c7_i32 : BitVec 32 := 7#32
  let v29 : BitVec 1 := Scalar.cmpi .eq arg1 c7_i32
  let v30 : BitVec 32 := Scalar.extui v29
  let c0_i32_23 : BitVec 32 := 0#32
  let v31 : BitVec 1 := Scalar.cmpi .ne v30 c0_i32_23
  v31

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S8x16x64x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x16 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S8x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S8x16 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S8x16 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  inb_S8x16_S8x16_0_0 : ∀ a, (![0, 0] : Fin 2 → Nat) a + S8x16.size a ≤ S8x16.size a
  h_S8x16 : 0 < S8x16.numel
  shapeCasts_S8x16_S8x16 : S8x16.ShapeCasts S8x16
  inb_S8x16x64x512_S8x16x64x512_0_0_0_0 : ∀ a, (![0, 0, 0, 0] : Fin 4 → Nat) a + S8x16x64x512.size a ≤ S8x16x64x512.size a
  h_S8x16x64x512 : 0 < S8x16x64x512.numel
  reduces_S8x16x64x512_S8x16 : S8x16x64x512.Reduces [2, 3] S8x16
  concatenates_S32x16_S32x16_S32x16_S32x16_S32x64_d1 : Shape.Concatenates [S32x16, S32x16, S32x16, S32x16] S32x64 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x16x64x512.size a ≤ S32x16x512x512.size a
  hwx0_0 : ∀ i : grid0.Coords, EltTy.bits .f32 = 32 ∨ (Rect.block (s := S32x16x512x512) S8x16x64x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x16.size a ≤ S32x16.size a
  hwx0_1 : ∀ i : grid0.Coords, EltTy.bits .f32 = 32 ∨ (Rect.block (s := S32x16) S8x16.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x16.size a ≤ S32x16.size a
  hwx0_2 : ∀ i : grid0.Coords, EltTy.bits .f32 = 32 ∨ (Rect.block (s := S32x16) S8x16.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8x16.size a ≤ S32x16.size a
  hwx0_3 : ∀ i : grid0.Coords, EltTy.bits .f32 = 32 ∨ (Rect.block (s := S32x16) S8x16.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S8x16.size a ≤ S32x16.size a
  hwx0_4 : ∀ i : grid0.Coords, EltTy.bits .f32 = 32 ∨ (Rect.block (s := S32x16) S8x16.size (cc0_transform_4 i) (hinb0_4 i)).WholeWords (EltTy.packing .f32)

variable [Facts₀]

abbrev win0_0 : Pipeline.Window sig grid0 :=
  Pipeline.Window.ofSpec (Memref.whole main_arg0) S8x16x64x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0_0) S8x16.size cc0_transform_1 reads0_1 true false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0_1) S8x16.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_2) S8x16.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0_3) S8x16.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun i => !(k0_cond2 i == 1#1) | 2 => fun i => !(k0_cond2 i == 1#1) | 3 => fun i => !(k0_cond2 i == 1#1) | 4 => fun i => !(k0_cond2 i == 1#1) | ⟨_ + 5, h⟩ => absurd h (Nat.not_lt.2 (Nat.le_add_left _ _))

class Facts : Prop extends Facts₀ where

variable [Facts]
-- ==== ReferenceIdeal.lean ====
abbrev S32x16x512x512 : Shape := ⟨4, ![32, 16, 512, 512]⟩
abbrev S_ : Shape := ⟨0, ![]⟩
abbrev S32x16 : Shape := ⟨2, ![32, 16]⟩
abbrev S32x16x1x1 : Shape := ⟨4, ![32, 16, 1, 1]⟩
abbrev S32x64 : Shape := ⟨2, ![32, 64]⟩

abbrev nBuf : Space → Nat
  | .hbm => 35
  | .vmem => 0
  | .smem => 0
  | _ => 0

abbrev bufTy : (tb : Table) → Fin (tcTables nBuf tb) → BufTy
  | .hbm, ⟨0, _⟩ => ⟨S32x16x512x512, .f32⟩
  | .hbm, ⟨1, _⟩ => ⟨S_, .f32⟩
  | .hbm, ⟨2, _⟩ => ⟨S32x16, .f32⟩
  | .hbm, ⟨3, _⟩ => ⟨S_, .f32⟩
  | .hbm, ⟨4, _⟩ => ⟨S32x16, .f32⟩
  | .hbm, ⟨5, _⟩ => ⟨S32x16, .f32⟩
  | .hbm, ⟨6, _⟩ => ⟨S_, .i32⟩
  | .hbm, ⟨7, _⟩ => ⟨S_, .f32⟩
  | .hbm, ⟨8, _⟩ => ⟨S32x16, .f32⟩
  | .hbm, ⟨9, _⟩ => ⟨S32x16x1x1, .f32⟩
  | .hbm, ⟨10, _⟩ => ⟨S_, .f32⟩
  | .hbm, ⟨11, _⟩ => ⟨S32x16x1x1, .f32⟩
  | .hbm, ⟨12, _⟩ => ⟨S32x16x1x1, .f32⟩
  | .hbm, ⟨13, _⟩ => ⟨S32x16x512x512, .f32⟩
  | .hbm, ⟨14, _⟩ => ⟨S32x16x512x512, .f32⟩
  | .hbm, ⟨15, _⟩ => ⟨S32x16x512x512, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S32x16, .f32⟩
  | .hbm, ⟨21, _⟩ => ⟨S32x16, .f32⟩
  | .hbm, ⟨22, _⟩ => ⟨S32x16, .f32⟩
  | .hbm, ⟨23, _⟩ => ⟨S_, .f32⟩
  | .hbm, ⟨24, _⟩ => ⟨S_, .i1⟩
  | .hbm, ⟨25, _⟩ => ⟨S_, .f32⟩
  | .hbm, ⟨26, _⟩ => ⟨S_, .f32⟩
  | .hbm, ⟨27, _⟩ => ⟨S32x16, .f32⟩
  | .hbm, ⟨28, _⟩ => ⟨S32x16, .f32⟩
  | .hbm, ⟨29, _⟩ => ⟨S32x16, .f32⟩
  | .hbm, ⟨30, _⟩ => ⟨S_, .f32⟩
  | .hbm, ⟨31, _⟩ => ⟨S32x16, .f32⟩
  | .hbm, ⟨32, _⟩ => ⟨S_, .f32⟩
  | .hbm, ⟨33, _⟩ => ⟨S32x16, .f32⟩
  | .hbm, ⟨34, _⟩ => ⟨S32x64, .f32⟩
  | _, _ => ⟨S32x16x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_cst_0 : Ref sig .tc := ⟨.hbm, 3, rfl⟩
abbrev main_v1 : Ref sig .tc := ⟨.hbm, 4, rfl⟩
abbrev main_v2 : Ref sig .tc := ⟨.hbm, 5, rfl⟩
abbrev main_c : Ref sig .tc := ⟨.hbm, 6, rfl⟩
abbrev main_call0_call0_cst : Ref sig .tc := ⟨.hbm, 7, rfl⟩
abbrev main_call0_call0_v0 : Ref sig .tc := ⟨.hbm, 8, rfl⟩
abbrev main_call0_call0_v1 : Ref sig .tc := ⟨.hbm, 9, rfl⟩
abbrev main_call0_call0_cst_0 : Ref sig .tc := ⟨.hbm, 10, rfl⟩
abbrev main_call0_call0_v2 : Ref sig .tc := ⟨.hbm, 11, rfl⟩
abbrev main_call0_call0_v3 : Ref sig .tc := ⟨.hbm, 12, rfl⟩
abbrev main_call0_call0_v4 : Ref sig .tc := ⟨.hbm, 13, rfl⟩
abbrev main_call0_call0_v5 : Ref sig .tc := ⟨.hbm, 14, rfl⟩
abbrev main_call0_call0_v6 : Ref sig .tc := ⟨.hbm, 15, rfl⟩
abbrev main_call0_call0_v7 : Ref sig .tc := ⟨.hbm, 16, rfl⟩
abbrev main_call0_call0_cst_1 : Ref sig .tc := ⟨.hbm, 17, rfl⟩
abbrev main_call0_call0_v8 : Ref sig .tc := ⟨.hbm, 18, rfl⟩
abbrev main_call0_call0_cst_2 : Ref sig .tc := ⟨.hbm, 19, rfl⟩
abbrev main_call0_call0_v9 : Ref sig .tc := ⟨.hbm, 20, rfl⟩
abbrev main_call0_call0_v10 : Ref sig .tc := ⟨.hbm, 21, rfl⟩
abbrev main_call0_call0_v11 : Ref sig .tc := ⟨.hbm, 22, rfl⟩
abbrev main_call0_call0_cst_3 : Ref sig .tc := ⟨.hbm, 23, rfl⟩
abbrev main_call0_call0_v12 : Ref sig .tc := ⟨.hbm, 24, rfl⟩
abbrev main_call0_call0_cst_4 : Ref sig .tc := ⟨.hbm, 25, rfl⟩
abbrev main_call0_call0_call0_v0 : Ref sig .tc := ⟨.hbm, 26, rfl⟩
abbrev main_call0_call0_call0_v1 : Ref sig .tc := ⟨.hbm, 27, rfl⟩
abbrev main_call0_v0 : Ref sig .tc := ⟨.hbm, 28, rfl⟩
abbrev main_v3 : Ref sig .tc := ⟨.hbm, 29, rfl⟩
abbrev main_cst_1 : Ref sig .tc := ⟨.hbm, 30, rfl⟩
abbrev main_v4 : Ref sig .tc := ⟨.hbm, 31, rfl⟩
abbrev main_cst_2 : Ref sig .tc := ⟨.hbm, 32, rfl⟩
abbrev main_v5 : Ref sig .tc := ⟨.hbm, 33, rfl⟩
abbrev main_v6 : Ref sig .tc := ⟨.hbm, 34, rfl⟩

abbrev nD : Nat := 1
abbrev τ : Topo := Topo.v7x

variable {F : FTy → Type} [FloatOps F]

class Facts₀ : Prop where
  reducesTo_S32x16x512x512_S32x16_d2_3 : S32x16x512x512.ReducesTo [2, 3] S32x16
  h_S_ : 0 < S_.numel
  bcast_S_S32x16 : S_.BroadcastsInDim S32x16 (![] : Fin 0 → Fin S32x16.rank)
  bcast_S32x16_S32x16x1x1_0_1 : S32x16.BroadcastsInDim S32x16x1x1 (![0, 1] : Fin 2 → Fin S32x16x1x1.rank)
  bcast_S_S32x16x1x1 : S_.BroadcastsInDim S32x16x1x1 (![] : Fin 0 → Fin S32x16x1x1.rank)
  bcast_S32x16x1x1_S32x16x512x512_0_1_2_3 : S32x16x1x1.BroadcastsInDim S32x16x512x512 (![0, 1, 2, 3] : Fin 4 → Fin S32x16x512x512.rank)
  concatenates_S32x16_S32x16_S32x16_S32x16_S32x64_d1 : Shape.Concatenates [S32x16, S32x16, S32x16, S32x16] S32x64 1

variable [Facts₀]

class Facts : Prop extends Facts₀ where

variable [Facts]
-- ==== Proof.BitsFrame.Kit.lean ====
/-
  The pooling kernel's run, first part: what every later part is stated over.

  The program is one pipelined region on a 4 × 8 grid — point t = 8 b + h handles batch band b (8 rows of the 32)
  and spatial band h (64 of the 512 rows) — followed by one host line that lays the four result tables side by
  side.  The body keeps four [8, 16] accumulators (sum, sum of squares, maximum, minimum) in scratch memory
  across the eight points of a batch band: it resets them where h = 0, folds the block in at every point, and
  where h = 7 turns them into the four output blocks, which the pipeline writes back at exactly those points.

  Here: the buffers' contents when the region is entered; the main function as "region, then the host line";
  the side facts of that line; each window's block at a point; the two conditions of the body in closed form
  over the grid; where each output window is idle; names for the staging and scratch memrefs.
-/
import proofs.«163916_j23227183136952_1_alg».proof.Proof.Gen.Kernel.Launch
import proofs.«163916_j23227183136952_1_alg».proof.Proof.Gen.Kernel.Skeleton
import proofs.«163916_j23227183136952_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

-- membership in a rectangle of these extents is decided structurally, one coordinate at a time
set_option maxRecDepth 16384

noncomputable section

namespace Cert.Kernel.Pool

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The main function around the region -/

/-- A core's buffer contents when the region is entered: as launched, no host line comes before the region. -/
abbrev V0 (c : Dev nD) : Valuation τ sig (Elt F) := StableHlo.after (List.flatten []) (fun b => m (c, b))
/-- The same read at a reference. -/
abbrev V (c : Dev nD) (b : Ref sig .tc) : Buf (Elt F) ((c : Thread nD τ).loc b) := V0 m c (Proc.devRef .tc b)

/-- The host line after the region allocates nothing. -/
theorem tail_fresh : (hostOps1 : List (HloOp τ sig (Elt F))).Forall fun op => op.fresh = ∅ := by
  simp only [List.Forall]; repeat' constructor

/-- The main function is the region continued by the host line. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [] [hostOps1] (by simp only [List.Forall])
    (by simp only [List.Forall]) main_chain

/-- The host line touches only the region's arrays and the result buffer, -/
theorem tail_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  exact Pipeline.sub_ucRefs op ((List.forall_iff_forall_mem.mp hostOps1_sub) op hop)
/-- allocates nothing, -/
theorem tail_noalloc : ∀ ops ∈ ([hostOps1] : List (List (HloOp τ sig (Elt F)))), ∀ op ∈ ops, op.fresh = ∅ := by
  intro ops hops op hop
  simp only [List.mem_cons, List.mem_nil_iff, or_false] at hops
  rcases hops with rfl
  exact (List.forall_iff_forall_mem.mp tail_fresh) op hop
/-- and writes none of the region's arrays: only the result buffer. -/
theorem tail_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  simp only [hostOps1, List.mem_cons, List.mem_nil_iff, or_false] at hop
  rcases hop with rfl
  intro w; fin_cases w <;> simp only [StableHlo.nary_writes, Finset.mem_singleton] <;> exact StableHlo.devRef_ne_of_ne (by decide)

theorem V_main_arg0 (c : Dev nD) : V m c main_arg0 = m ((c : Thread nD τ).loc main_arg0) := rfl

/-! ## The windows' blocks -/

/-- Window w's block at point t, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The input window's current staging buffer holds its block at every point (it is fetched at every point),
    for any proof data over the entry contents whose body leaves the block in place. -/
theorem before_in_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-! ## The frame statement from a run that names the arrays -/

/-- A run that ends with every array of the region at what the proof data computes leaves the input array as launched:
    the input window is never written back, so its array after the run is its array at entry. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)) :=
  (θ_run defs _ _).mono (fun _ h c => ((h c).1 0).trans (((dats 0 c).arrAt_in 0 rfl _).trans ((hA c 0).trans (V_main_arg0 m c)))) h

/-! ## The body's two conditions -/

/-- "This is the first spatial band": grid coordinate 1 is 0. -/
abbrev isFirst (i : grid0.Coords) : Prop := (Scalar.cmpi .ne (Scalar.extui (Scalar.cmpi .eq (BitVec.ofNat 32 (i 1).val) 0#32)) 0#32) = 1#1
/-- It holds at the points 8 b. -/
theorem isFirst_iff : ∀ t : Fin cfg0.N, isFirst (grid0.coords t) ↔ t.val % 8 = 0 :=
  (by decide +kernel : ∀ t : Fin grid0.N, isFirst (grid0.coords t) ↔ t.val % 8 = 0)

/-- "This is the last spatial band": grid coordinate 1 is 7. -/
abbrev isLast (i : grid0.Coords) : Prop := k0_cond2 i = 1#1
/-- It holds at the points 8 b + 7. -/
theorem isLast_iff : ∀ t : Fin cfg0.N, isLast (grid0.coords t) ↔ t.val % 8 = 7 :=
  (by decide +kernel : ∀ t : Fin grid0.N, isLast (grid0.coords t) ↔ t.val % 8 = 7)

/-! ## Where the windows are idle -/

/-- The input window is never idle. -/
theorem live_in : ∀ t : Fin cfg0.N, cfg0.idle 0 (grid0.coords t) = false := by decide +kernel
/-- Away from the last spatial band the body stores into no output window: each is idle there, and not written back. -/
theorem idle_out : ∀ (w : Fin cfg0.W), w ≠ 0 → ∀ t : Fin cfg0.N, ¬isLast (grid0.coords t) → cfg0.idle w (grid0.coords t) = true := by decide +kernel
theorem noFlush_out : ∀ (w : Fin cfg0.W), w ≠ 0 → ∀ t : Fin cfg0.N, ¬isLast (grid0.coords t) → (cfg0.win w).flush t = false := by decide +kernel
/-- At the last spatial band every output window is live. -/
theorem live_out : ∀ (w : Fin cfg0.W), ∀ t : Fin cfg0.N, isLast (grid0.coords t) → cfg0.idle w (grid0.coords t) = false := by decide +kernel

/-! ## Names for the memrefs -/

/-- One staging buffer of each output window, through which its contents are stated (which one does not matter). -/
abbrev VO1 : View sig .tc .vmem S8x16 .f32 := (Memref.whole cc0_stg1_0 : Memref sig .tc .vmem S8x16 .f32).view
abbrev VO2 : View sig .tc .vmem S8x16 .f32 := (Memref.whole cc0_stg2_0 : Memref sig .tc .vmem S8x16 .f32).view
abbrev VO3 : View sig .tc .vmem S8x16 .f32 := (Memref.whole cc0_stg3_0 : Memref sig .tc .vmem S8x16 .f32).view
abbrev VO4 : View sig .tc .vmem S8x16 .f32 := (Memref.whole cc0_stg4_0 : Memref sig .tc .vmem S8x16 .f32).view
/-- Each window's current staging memref at point t, as the pipeline passes it to the body, and its wholeness. -/
abbrev ms0 (t : Fin cfg0.N) : Memref sig .tc .vmem S8x16x64x512 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S8x16 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S8x16 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S8x16 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S8x16 .f32 := win0_4.stage (cfg0.slots t 4)
abbrev hs4 (t : Fin cfg0.N) : (ms4 t).IsWhole := hstage0_4 ((cfg0.slots t 4).cast nbuf0_4)
/-- The four accumulators: whole scratch buffers of the kernel's own, passed beside the windows
    (sum, sum of squares, maximum, minimum). -/
abbrev accS : Memref sig .tc .vmem S8x16 .f32 := Memref.whole cc0_scratch0
abbrev accQ : Memref sig .tc .vmem S8x16 .f32 := Memref.whole cc0_scratch1
abbrev accHi : Memref sig .tc .vmem S8x16 .f32 := Memref.whole cc0_scratch2
abbrev accLo : Memref sig .tc .vmem S8x16 .f32 := Memref.whole cc0_scratch3
/-- The accumulators as views: what they hold is stated through these. -/
abbrev VS : View sig .tc .vmem S8x16 .f32 := accS.view
abbrev VQ : View sig .tc .vmem S8x16 .f32 := accQ.view
abbrev VHi : View sig .tc .vmem S8x16 .f32 := accHi.view
abbrev VLo : View sig .tc .vmem S8x16 .f32 := accLo.view

/-- What the region may use without describing it: the four accumulators at some contents, and the generator register. -/
theorem PhiA_eq (c : Dev nD) :
    (Pipeline.ΦA spec0 c : sProp 𝕄)
      = iprop(iprop((∃ d, owns (c : Thread nD τ) accS fullShare d) ∗ (∃ d, owns (c : Thread nD τ) accQ fullShare d) ∗ (∃ d, owns (c : Thread nD τ) accHi fullShare d) ∗ (∃ d, owns (c : Thread nD τ) accLo fullShare d)) ∗ (∃ r, prngReg c r)) := by
  unfold Pipeline.ΦA; rw [scopedRest0_eq]; simp only [accS, accQ, accHi, accLo, owns_whole]; try rfl

end Cert.Kernel.Pool

end
-- ==== Proof.BitsFrame.RunFirst.lean ====
/-
  The body at a point of the FIRST spatial band (h = 0, not the last band).

  There the body resets the four accumulators (0, 0, −∞, +∞) and then folds the point's block in, so each
  accumulator is stored twice, the second store covering the first; the output buffers are not touched.
  The run is stated on any whole memrefs: the input block at its contents, the accumulators at anything; it
  ends with the input as it was and each accumulator with its stores written, which the run itself finds.
-/
import proofs.«163916_j23227183136952_1_alg».proof.Proof.BitsFrame.Kit

-- membership in a rectangle of these extents is decided structurally, one coordinate at a time
set_option maxRecDepth 16384

noncomputable section

namespace Cert.Kernel.Pool

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: closing the definition walks it past the default budget)
set_option maxHeartbeats 1000000 in
/-- What the body's stores leave in each accumulator, as pieces (last first), at a point of the first band,
    with the proof that the body runs there to any continuation that takes the input block back as it was and
    the accumulators with those pieces written. -/
noncomputable def runFirst (c : Dev nD) (i : grid0.Coords) (arg2 : Memref sig .tc .vmem S8x16x64x512 .f32) (harg2 : arg2.IsWhole) (arg3 : Memref sig .tc .vmem S8x16 .f32) (harg3 : arg3.IsWhole) (arg4 : Memref sig .tc .vmem S8x16 .f32) (harg4 : arg4.IsWhole) (arg5 : Memref sig .tc .vmem S8x16 .f32) (harg5 : arg5.IsWhole) (arg6 : Memref sig .tc .vmem S8x16 .f32) (harg6 : arg6.IsWhole) (arg7 : Memref sig .tc .vmem S8x16 .f32) (harg7 : arg7.IsWhole) (arg8 : Memref sig .tc .vmem S8x16 .f32) (harg8 : arg8.IsWhole) (arg9 : Memref sig .tc .vmem S8x16 .f32) (harg9 : arg9.IsWhole) (arg10 : Memref sig .tc .vmem S8x16 .f32) (harg10 : arg10.IsWhole) (hf : isFirst i) (hl : ¬isLast i)
    (x0 : Vec F S8x16x64x512 .f32) :
    Σ' (LS : List (View.Piece (Elt F) S8x16 .f32)), Σ' (LQ : List (View.Piece (Elt F) S8x16 .f32)), Σ' (LHi : List (View.Piece (Elt F) S8x16 .f32)), { LLo : List (View.Piece (Elt F) S8x16 .f32) //
      ∀ (E : Set ℕ) (K : PUnit → sProp 𝕄),
        iprop(owns (c : Thread nD τ) arg2 fullShare x0 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d)
            ∗ (iprop(owns (c : Thread nD τ) arg2 fullShare x0 ∗ (∃ f, arg7.view.loc (c : Thread nD τ) ↦[arg7.view.set]{fullShare} arg7.view.writes (Elt F) f LS) ∗ (∃ f, arg8.view.loc (c : Thread nD τ) ↦[arg8.view.set]{fullShare} arg8.view.writes (Elt F) f LQ) ∗ (∃ f, arg9.view.loc (c : Thread nD τ) ↦[arg9.view.set]{fullShare} arg9.view.writes (Elt F) f LHi) ∗ (∃ f, arg10.view.loc (c : Thread nD τ) ↦[arg10.view.set]{fullShare} arg10.view.writes (Elt F) f LLo)) -∗ K ⟨⟩))
          ⊢ wp frame (wpE (defs₀ (F := F)) Variants.none c none) E (cc0_kernel i arg2 harg2 arg3 harg3 arg4 harg4 arg5 harg5 arg6 harg6 arg7 harg7 arg8 harg8 arg9 harg9 arg10 harg10) K } := by
  refine ⟨?_, ?_, ?_, ?_, fun E K => ?run⟩
  case run =>
    simp only [cc0_kernel_eq_skeleton]; unfold cc0_kernel_skel
    simp only [k0_part1_eq_skeleton]
    unfold owns
    iintro ⟨⟨%f0, %hf0, H0⟩, ⟨%ds0, %fs0, -, HS0⟩, ⟨%ds1, %fs1, -, HS1⟩, ⟨%ds2, %fs2, -, HS2⟩, ⟨%ds3, %fs3, -, HS3⟩, Hk⟩
    obtain rfl := harg2.eq_unread hf0
    sl_exec (disch := first | exact hf | exact hl)
    sl_step
    iapply Hk
    isplitl [H0]
    · iexists _; isplitr; · ipureintro; exact harg2.read_unread _
      iexact H0
    isplitl [HS0]; · iexists _; iexact HS0
    isplitl [HS1]; · iexists _; iexact HS1
    isplitl [HS2]; · iexists _; iexact HS2
    iexists _; iexact HS3

end Cert.Kernel.Pool

end
-- ==== Proof.BitsFrame.RunMid.lean ====
/-
  The body at a point of a MIDDLE spatial band (neither the first nor the last, h = 1 … 6).

  There the body only folds the point's block into the four accumulators: each is loaded, combined with the
  block's partial result and stored back once; the output buffers are not touched.  The accumulators enter at
  the contents the point before left.
-/
import proofs.«163916_j23227183136952_1_alg».proof.Proof.BitsFrame.RunFirst

-- membership in a rectangle of these extents is decided structurally, one coordinate at a time
set_option maxRecDepth 16384

noncomputable section

namespace Cert.Kernel.Pool

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: closing the definition walks it past the default budget)
set_option maxHeartbeats 1000000 in
/-- What the body's stores leave in each accumulator, as pieces, at a point of a middle band, with the proof
    that the body runs there — the accumulators entering at `xs·` — to any continuation that takes the input
    block back as it was and the accumulators with those pieces written. -/
noncomputable def runMid (c : Dev nD) (i : grid0.Coords) (arg2 : Memref sig .tc .vmem S8x16x64x512 .f32) (harg2 : arg2.IsWhole) (arg3 : Memref sig .tc .vmem S8x16 .f32) (harg3 : arg3.IsWhole) (arg4 : Memref sig .tc .vmem S8x16 .f32) (harg4 : arg4.IsWhole) (arg5 : Memref sig .tc .vmem S8x16 .f32) (harg5 : arg5.IsWhole) (arg6 : Memref sig .tc .vmem S8x16 .f32) (harg6 : arg6.IsWhole) (arg7 : Memref sig .tc .vmem S8x16 .f32) (harg7 : arg7.IsWhole) (arg8 : Memref sig .tc .vmem S8x16 .f32) (harg8 : arg8.IsWhole) (arg9 : Memref sig .tc .vmem S8x16 .f32) (harg9 : arg9.IsWhole) (arg10 : Memref sig .tc .vmem S8x16 .f32) (harg10 : arg10.IsWhole) (hf : ¬isFirst i) (hl : ¬isLast i)
    (x0 : Vec F S8x16x64x512 .f32) (xs0 xs1 xs2 xs3 : Vec F S8x16 .f32) :
    Σ' (LS : List (View.Piece (Elt F) S8x16 .f32)), Σ' (LQ : List (View.Piece (Elt F) S8x16 .f32)), Σ' (LHi : List (View.Piece (Elt F) S8x16 .f32)), { LLo : List (View.Piece (Elt F) S8x16 .f32) //
      ∀ (E : Set ℕ) (K : PUnit → sProp 𝕄),
        iprop(owns (c : Thread nD τ) arg2 fullShare x0 ∗ owns (c : Thread nD τ) arg7 fullShare xs0 ∗ owns (c : Thread nD τ) arg8 fullShare xs1 ∗ owns (c : Thread nD τ) arg9 fullShare xs2 ∗ owns (c : Thread nD τ) arg10 fullShare xs3
            ∗ (iprop(owns (c : Thread nD τ) arg2 fullShare x0 ∗ (∃ f, arg7.view.loc (c : Thread nD τ) ↦[arg7.view.set]{fullShare} arg7.view.writes (Elt F) f LS) ∗ (∃ f, arg8.view.loc (c : Thread nD τ) ↦[arg8.view.set]{fullShare} arg8.view.writes (Elt F) f LQ) ∗ (∃ f, arg9.view.loc (c : Thread nD τ) ↦[arg9.view.set]{fullShare} arg9.view.writes (Elt F) f LHi) ∗ (∃ f, arg10.view.loc (c : Thread nD τ) ↦[arg10.view.set]{fullShare} arg10.view.writes (Elt F) f LLo)) -∗ K ⟨⟩))
          ⊢ wp frame (wpE (defs₀ (F := F)) Variants.none c none) E (cc0_kernel i arg2 harg2 arg3 harg3 arg4 harg4 arg5 harg5 arg6 harg6 arg7 harg7 arg8 harg8 arg9 harg9 arg10 harg10) K } := by
  refine ⟨?_, ?_, ?_, ?_, fun E K => ?run⟩
  case run =>
    simp only [cc0_kernel_eq_skeleton]; unfold cc0_kernel_skel
    simp only [k0_part1_eq_skeleton]
    unfold owns
    iintro ⟨⟨%f0, %hf0, H0⟩, ⟨%fs0, %hfs0, HS0⟩, ⟨%fs1, %hfs1, HS1⟩, ⟨%fs2, %hfs2, HS2⟩, ⟨%fs3, %hfs3, HS3⟩, Hk⟩
    obtain rfl := harg2.eq_unread hf0; obtain rfl := harg7.eq_unread hfs0; obtain rfl := harg8.eq_unread hfs1
    obtain rfl := harg9.eq_unread hfs2; obtain rfl := harg10.eq_unread hfs3
    sl_exec (disch := first | exact hf | exact hl)
    sl_step
    iapply Hk
    isplitl [H0]
    · iexists _; isplitr; · ipureintro; exact harg2.read_unread _
      iexact H0
    isplitl [HS0]; · iexists _; iexact HS0
    isplitl [HS1]; · iexists _; iexact HS1
    isplitl [HS2]; · iexists _; iexact HS2
    iexists _; iexact HS3

end Cert.Kernel.Pool

end
-- ==== Proof.BitsFrame.RunLast.lean ====
/-
  The body at a point of the LAST spatial band (h = 7).

  There the body folds the point's block into the four accumulators as at a middle band and then turns them
  into the four output blocks: the mean S / n, the deviation √((Q − S·S / n) / (n − 1)), the maximum and the
  minimum, each stored whole into its output buffer.  The accumulators enter at the contents the point before
  left, the output buffers at anything.
-/
import proofs.«163916_j23227183136952_1_alg».proof.Proof.BitsFrame.RunMid

-- membership in a rectangle of these extents is decided structurally, one coordinate at a time
set_option maxRecDepth 16384

noncomputable section

namespace Cert.Kernel.Pool

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: closing the definition walks it past the default budget)
set_option maxHeartbeats 1000000 in
/-- What the body's stores leave in each output buffer and in each accumulator, as pieces, at a point of the
    last band, with the proof that the body runs there — the accumulators entering at `xs·`, the output buffers
    at anything — to any continuation that takes the input block back as it was and every other buffer with
    those pieces written. -/
noncomputable def runLast (c : Dev nD) (i : grid0.Coords) (arg2 : Memref sig .tc .vmem S8x16x64x512 .f32) (harg2 : arg2.IsWhole) (arg3 : Memref sig .tc .vmem S8x16 .f32) (harg3 : arg3.IsWhole) (arg4 : Memref sig .tc .vmem S8x16 .f32) (harg4 : arg4.IsWhole) (arg5 : Memref sig .tc .vmem S8x16 .f32) (harg5 : arg5.IsWhole) (arg6 : Memref sig .tc .vmem S8x16 .f32) (harg6 : arg6.IsWhole) (arg7 : Memref sig .tc .vmem S8x16 .f32) (harg7 : arg7.IsWhole) (arg8 : Memref sig .tc .vmem S8x16 .f32) (harg8 : arg8.IsWhole) (arg9 : Memref sig .tc .vmem S8x16 .f32) (harg9 : arg9.IsWhole) (arg10 : Memref sig .tc .vmem S8x16 .f32) (harg10 : arg10.IsWhole) (hf : ¬isFirst i) (hl : isLast i)
    (x0 : Vec F S8x16x64x512 .f32) (xs0 xs1 xs2 xs3 : Vec F S8x16 .f32) :
    Σ' (L1 : List (View.Piece (Elt F) S8x16 .f32)), Σ' (L2 : List (View.Piece (Elt F) S8x16 .f32)), Σ' (L3 : List (View.Piece (Elt F) S8x16 .f32)), Σ' (L4 : List (View.Piece (Elt F) S8x16 .f32)),
    Σ' (LS : List (View.Piece (Elt F) S8x16 .f32)), Σ' (LQ : List (View.Piece (Elt F) S8x16 .f32)), Σ' (LHi : List (View.Piece (Elt F) S8x16 .f32)), { LLo : List (View.Piece (Elt F) S8x16 .f32) //
      ∀ (E : Set ℕ) (K : PUnit → sProp 𝕄),
        iprop(owns (c : Thread nD τ) arg2 fullShare x0 ∗ (∃ d, owns (c : Thread nD τ) arg3 fullShare d) ∗ (∃ d, owns (c : Thread nD τ) arg4 fullShare d) ∗ (∃ d, owns (c : Thread nD τ) arg5 fullShare d) ∗ (∃ d, owns (c : Thread nD τ) arg6 fullShare d)
            ∗ owns (c : Thread nD τ) arg7 fullShare xs0 ∗ owns (c : Thread nD τ) arg8 fullShare xs1 ∗ owns (c : Thread nD τ) arg9 fullShare xs2 ∗ owns (c : Thread nD τ) arg10 fullShare xs3
            ∗ (iprop(owns (c : Thread nD τ) arg2 fullShare x0 ∗ (∃ f, arg3.view.loc (c : Thread nD τ) ↦[arg3.view.set]{fullShare} arg3.view.writes (Elt F) f L1) ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f L4)
                ∗ (∃ f, arg7.view.loc (c : Thread nD τ) ↦[arg7.view.set]{fullShare} arg7.view.writes (Elt F) f LS) ∗ (∃ f, arg8.view.loc (c : Thread nD τ) ↦[arg8.view.set]{fullShare} arg8.view.writes (Elt F) f LQ) ∗ (∃ f, arg9.view.loc (c : Thread nD τ) ↦[arg9.view.set]{fullShare} arg9.view.writes (Elt F) f LHi) ∗ (∃ f, arg10.view.loc (c : Thread nD τ) ↦[arg10.view.set]{fullShare} arg10.view.writes (Elt F) f LLo)) -∗ K ⟨⟩))
          ⊢ wp frame (wpE (defs₀ (F := F)) Variants.none c none) E (cc0_kernel i arg2 harg2 arg3 harg3 arg4 harg4 arg5 harg5 arg6 harg6 arg7 harg7 arg8 harg8 arg9 harg9 arg10 harg10) K } := by
  refine ⟨?_, ?_, ?_, ?_, ?_, ?_, ?_, ?_, fun E K => ?run⟩
  case run =>
    simp only [cc0_kernel_eq_skeleton]; unfold cc0_kernel_skel
    simp only [k0_part1_eq_skeleton]
    unfold owns
    iintro ⟨⟨%f0, %hf0, H0⟩, ⟨%d1, %f1, -, H1⟩, ⟨%d2, %f2, -, H2⟩, ⟨%d3, %f3, -, H3⟩, ⟨%d4, %f4, -, H4⟩, ⟨%fs0, %hfs0, HS0⟩, ⟨%fs1, %hfs1, HS1⟩, ⟨%fs2, %hfs2, HS2⟩, ⟨%fs3, %hfs3, HS3⟩, Hk⟩
    obtain rfl := harg2.eq_unread hf0; obtain rfl := harg7.eq_unread hfs0; obtain rfl := harg8.eq_unread hfs1
    obtain rfl := harg9.eq_unread hfs2; obtain rfl := harg10.eq_unread hfs3
    sl_exec (disch := first | exact hf | exact hl)
    sl_step
    iapply Hk
    isplitl [H0]
    · iexists _; isplitr; · ipureintro; exact harg2.read_unread _
      iexact H0
    isplitl [H1]; · iexists _; iexact H1
    isplitl [H2]; · iexists _; iexact H2
    isplitl [H3]; · iexists _; iexact H3
    isplitl [H4]; · iexists _; iexact H4
    isplitl [HS0]; · iexists _; iexact HS0
    isplitl [HS1]; · iexists _; iexact HS1
    isplitl [HS2]; · iexists _; iexact HS2
    iexists _; iexact HS3

end Cert.Kernel.Pool

end
-- ==== Proof.BitsFrame.Frame.lean ====
/-
  The pooling kernel's run, last part: the region's proof data, the body at every point, the launch, the frame.

  After point t = 8 b + h the four accumulators hold the partial results of batch band b over the spatial bands
  0 … h: what the first band's run leaves where h = 0, and otherwise what a middle or last band's run leaves over
  the accumulators of point t − 1.  The four output buffers hold their finished blocks after a last-band point
  and nothing that is ever read after any other point (they are idle there and not written back).
  The region's invariant carries the accumulators at exactly those contents from one point to the next.
-/
import proofs.«163916_j23227183136952_1_alg».proof.Proof.BitsFrame.RunLast

-- membership in a rectangle of these extents is decided structurally, one coordinate at a time
set_option maxRecDepth 16384

noncomputable section

namespace Cert.Kernel.Pool

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the buffers hold after a point -/

/-- The contents of the four output buffers (mean, deviation, maximum, minimum) and of the four accumulators
    (sum, sum of squares, maximum, minimum) after a point. -/
structure After (F : FTy → Type) where
  o1 : Vec F S8x16 .f32
  o2 : Vec F S8x16 .f32
  o3 : Vec F S8x16 .f32
  o4 : Vec F S8x16 .f32
  s : Vec F S8x16 .f32
  q : Vec F S8x16 .f32
  mx : Vec F S8x16 .f32
  mn : Vec F S8x16 .f32

/-- An output buffer the body did not store into: contents nothing reads. -/
def unread : Vec F S8x16 .f32 := VO1.read (Elt F) (VO1.writes (Elt F) VO1.junk [])

/-- The body's runs at point t, on the memrefs the pipeline passes there. -/
abbrev firstAt (c : Dev nD) (t : Fin cfg0.N) (hf : isFirst (grid0.coords t)) (hl : ¬isLast (grid0.coords t)) (x0 : Vec F S8x16x64x512 .f32) :=
  runFirst (F := F) c (grid0.coords t) (ms0 t) (hs0 t) (ms1 t) (hs1 t) (ms2 t) (hs2 t) (ms3 t) (hs3 t) (ms4 t) (hs4 t) accS (Memref.isWhole_whole _) accQ (Memref.isWhole_whole _) accHi (Memref.isWhole_whole _) accLo (Memref.isWhole_whole _) hf hl x0
abbrev midAt (c : Dev nD) (t : Fin cfg0.N) (hf : ¬isFirst (grid0.coords t)) (hl : ¬isLast (grid0.coords t)) (x0 : Vec F S8x16x64x512 .f32) (p : After F) :=
  runMid (F := F) c (grid0.coords t) (ms0 t) (hs0 t) (ms1 t) (hs1 t) (ms2 t) (hs2 t) (ms3 t) (hs3 t) (ms4 t) (hs4 t) accS (Memref.isWhole_whole _) accQ (Memref.isWhole_whole _) accHi (Memref.isWhole_whole _) accLo (Memref.isWhole_whole _) hf hl x0 p.s p.q p.mx p.mn
abbrev lastAt (c : Dev nD) (t : Fin cfg0.N) (hf : ¬isFirst (grid0.coords t)) (hl : isLast (grid0.coords t)) (x0 : Vec F S8x16x64x512 .f32) (p : After F) :=
  runLast (F := F) c (grid0.coords t) (ms0 t) (hs0 t) (ms1 t) (hs1 t) (ms2 t) (hs2 t) (ms3 t) (hs3 t) (ms4 t) (hs4 t) accS (Memref.isWhole_whole _) accQ (Memref.isWhole_whole _) accHi (Memref.isWhole_whole _) accLo (Memref.isWhole_whole _) hf hl x0 p.s p.q p.mx p.mn

/-- After a first-band point: the accumulators at what the reset and the first fold leave. -/
def afterFirst (c : Dev nD) (t : Fin cfg0.N) (hf : isFirst (grid0.coords t)) (hl : ¬isLast (grid0.coords t)) (x0 : Vec F S8x16x64x512 .f32) : After F where
  o1 := unread
  o2 := unread
  o3 := unread
  o4 := unread
  s := VS.read (Elt F) (VS.writes (Elt F) VS.junk (firstAt c t hf hl x0).1)
  q := VQ.read (Elt F) (VQ.writes (Elt F) VQ.junk (firstAt c t hf hl x0).2.1)
  mx := VHi.read (Elt F) (VHi.writes (Elt F) VHi.junk (firstAt c t hf hl x0).2.2.1)
  mn := VLo.read (Elt F) (VLo.writes (Elt F) VLo.junk (firstAt c t hf hl x0).2.2.2.1)

/-- After a middle-band point: the accumulators of the point before with this block folded in. -/
def afterMid (c : Dev nD) (t : Fin cfg0.N) (hf : ¬isFirst (grid0.coords t)) (hl : ¬isLast (grid0.coords t)) (x0 : Vec F S8x16x64x512 .f32) (p : After F) : After F where
  o1 := unread
  o2 := unread
  o3 := unread
  o4 := unread
  s := VS.read (Elt F) (VS.writes (Elt F) VS.junk (midAt c t hf hl x0 p).1)
  q := VQ.read (Elt F) (VQ.writes (Elt F) VQ.junk (midAt c t hf hl x0 p).2.1)
  mx := VHi.read (Elt F) (VHi.writes (Elt F) VHi.junk (midAt c t hf hl x0 p).2.2.1)
  mn := VLo.read (Elt F) (VLo.writes (Elt F) VLo.junk (midAt c t hf hl x0 p).2.2.2.1)

/-- After a last-band point: the accumulators likewise, and the four finished output blocks. -/
def afterLast (c : Dev nD) (t : Fin cfg0.N) (hf : ¬isFirst (grid0.coords t)) (hl : isLast (grid0.coords t)) (x0 : Vec F S8x16x64x512 .f32) (p : After F) : After F where
  o1 := VO1.read (Elt F) (VO1.writes (Elt F) VO1.junk (lastAt c t hf hl x0 p).1)
  o2 := VO2.read (Elt F) (VO2.writes (Elt F) VO2.junk (lastAt c t hf hl x0 p).2.1)
  o3 := VO3.read (Elt F) (VO3.writes (Elt F) VO3.junk (lastAt c t hf hl x0 p).2.2.1)
  o4 := VO4.read (Elt F) (VO4.writes (Elt F) VO4.junk (lastAt c t hf hl x0 p).2.2.2.1)
  s := VS.read (Elt F) (VS.writes (Elt F) VS.junk (lastAt c t hf hl x0 p).2.2.2.2.1)
  q := VQ.read (Elt F) (VQ.writes (Elt F) VQ.junk (lastAt c t hf hl x0 p).2.2.2.2.2.1)
  mx := VHi.read (Elt F) (VHi.writes (Elt F) VHi.junk (lastAt c t hf hl x0 p).2.2.2.2.2.2.1)
  mn := VLo.read (Elt F) (VLo.writes (Elt F) VLo.junk (lastAt c t hf hl x0 p).2.2.2.2.2.2.2.1)

/-! ## Every store is a whole-buffer store, so each list of pieces covers its buffer -/

section covers
variable (c : Dev nD) (t : Fin cfg0.N) (x0 : Vec F S8x16x64x512 .f32) (p : After F) (y : S8x16.Idx)

theorem cover_first_s (hf : isFirst (grid0.coords t)) (hl : ¬isLast (grid0.coords t)) : ∃ pc ∈ (firstAt c t hf hl x0).1, y ∈ pc.1.set :=
  View.cover_of_tiledL _ S8x16.size (by sl_kernel_rfl) y
theorem cover_first_q (hf : isFirst (grid0.coords t)) (hl : ¬isLast (grid0.coords t)) : ∃ pc ∈ (firstAt c t hf hl x0).2.1, y ∈ pc.1.set :=
  View.cover_of_tiledL _ S8x16.size (by sl_kernel_rfl) y
theorem cover_first_mx (hf : isFirst (grid0.coords t)) (hl : ¬isLast (grid0.coords t)) : ∃ pc ∈ (firstAt c t hf hl x0).2.2.1, y ∈ pc.1.set :=
  View.cover_of_tiledL _ S8x16.size (by sl_kernel_rfl) y
theorem cover_first_mn (hf : isFirst (grid0.coords t)) (hl : ¬isLast (grid0.coords t)) : ∃ pc ∈ (firstAt c t hf hl x0).2.2.2.1, y ∈ pc.1.set :=
  View.cover_of_tiledL _ S8x16.size (by sl_kernel_rfl) y

theorem cover_mid_s (hf : ¬isFirst (grid0.coords t)) (hl : ¬isLast (grid0.coords t)) : ∃ pc ∈ (midAt c t hf hl x0 p).1, y ∈ pc.1.set :=
  View.cover_of_tiledL _ S8x16.size (by sl_kernel_rfl) y
theorem cover_mid_q (hf : ¬isFirst (grid0.coords t)) (hl : ¬isLast (grid0.coords t)) : ∃ pc ∈ (midAt c t hf hl x0 p).2.1, y ∈ pc.1.set :=
  View.cover_of_tiledL _ S8x16.size (by sl_kernel_rfl) y
theorem cover_mid_mx (hf : ¬isFirst (grid0.coords t)) (hl : ¬isLast (grid0.coords t)) : ∃ pc ∈ (midAt c t hf hl x0 p).2.2.1, y ∈ pc.1.set :=
  View.cover_of_tiledL _ S8x16.size (by sl_kernel_rfl) y
theorem cover_mid_mn (hf : ¬isFirst (grid0.coords t)) (hl : ¬isLast (grid0.coords t)) : ∃ pc ∈ (midAt c t hf hl x0 p).2.2.2.1, y ∈ pc.1.set :=
  View.cover_of_tiledL _ S8x16.size (by sl_kernel_rfl) y

theorem cover_last_o1 (hf : ¬isFirst (grid0.coords t)) (hl : isLast (grid0.coords t)) : ∃ pc ∈ (lastAt c t hf hl x0 p).1, y ∈ pc.1.set :=
  View.cover_of_tiledL _ S8x16.size (by sl_kernel_rfl) y
theorem cover_last_o2 (hf : ¬isFirst (grid0.coords t)) (hl : isLast (grid0.coords t)) : ∃ pc ∈ (lastAt c t hf hl x0 p).2.1, y ∈ pc.1.set :=
  View.cover_of_tiledL _ S8x16.size (by sl_kernel_rfl) y
theorem cover_last_o3 (hf : ¬isFirst (grid0.coords t)) (hl : isLast (grid0.coords t)) : ∃ pc ∈ (lastAt c t hf hl x0 p).2.2.1, y ∈ pc.1.set :=
  View.cover_of_tiledL _ S8x16.size (by sl_kernel_rfl) y
theorem cover_last_o4 (hf : ¬isFirst (grid0.coords t)) (hl : isLast (grid0.coords t)) : ∃ pc ∈ (lastAt c t hf hl x0 p).2.2.2.1, y ∈ pc.1.set :=
  View.cover_of_tiledL _ S8x16.size (by sl_kernel_rfl) y
theorem cover_last_s (hf : ¬isFirst (grid0.coords t)) (hl : isLast (grid0.coords t)) : ∃ pc ∈ (lastAt c t hf hl x0 p).2.2.2.2.1, y ∈ pc.1.set :=
  View.cover_of_tiledL _ S8x16.size (by sl_kernel_rfl) y
theorem cover_last_q (hf : ¬isFirst (grid0.coords t)) (hl : isLast (grid0.coords t)) : ∃ pc ∈ (lastAt c t hf hl x0 p).2.2.2.2.2.1, y ∈ pc.1.set :=
  View.cover_of_tiledL _ S8x16.size (by sl_kernel_rfl) y
theorem cover_last_mx (hf : ¬isFirst (grid0.coords t)) (hl : isLast (grid0.coords t)) : ∃ pc ∈ (lastAt c t hf hl x0 p).2.2.2.2.2.2.1, y ∈ pc.1.set :=
  View.cover_of_tiledL _ S8x16.size (by sl_kernel_rfl) y
theorem cover_last_mn (hf : ¬isFirst (grid0.coords t)) (hl : isLast (grid0.coords t)) : ∃ pc ∈ (lastAt c t hf hl x0 p).2.2.2.2.2.2.2.1, y ∈ pc.1.set :=
  View.cover_of_tiledL _ S8x16.size (by sl_kernel_rfl) y

end covers

/-! ## Point by point -/

theorem notFirst_of (t : Fin cfg0.N) (h : ¬t.val % 8 = 0) : ¬isFirst (grid0.coords t) := fun hh => h ((isFirst_iff t).mp hh)
theorem notLast_of (t : Fin cfg0.N) (h : ¬t.val % 8 = 7) : ¬isLast (grid0.coords t) := fun hh => h ((isLast_iff t).mp hh)

/-- THE ACCUMULATION: what the buffers hold after the point at position n. Position 8 b starts batch band b afresh;
    every other position continues from the position before. -/
def stateAt (c : Dev nD) : (n : ℕ) → n < cfg0.N → After F
  | 0, hn => afterFirst c ⟨0, hn⟩ ((isFirst_iff ⟨0, hn⟩).mpr (Nat.zero_mod _)) (notLast_of ⟨0, hn⟩ (by show ¬(0 % 8 = 7); decide)) (iblk m c 0 ⟨0, hn⟩)
  | n + 1, hn =>
    if h0 : (n + 1) % 8 = 0 then
      afterFirst c ⟨n + 1, hn⟩ ((isFirst_iff ⟨n + 1, hn⟩).mpr h0) (notLast_of ⟨n + 1, hn⟩ (by show ¬(n + 1) % 8 = 7; omega)) (iblk m c 0 ⟨n + 1, hn⟩)
    else if h7 : (n + 1) % 8 = 7 then
      afterLast c ⟨n + 1, hn⟩ (notFirst_of ⟨n + 1, hn⟩ h0) ((isLast_iff ⟨n + 1, hn⟩).mpr h7) (iblk m c 0 ⟨n + 1, hn⟩) (stateAt c n (Nat.lt_of_succ_lt hn))
    else
      afterMid c ⟨n + 1, hn⟩ (notFirst_of ⟨n + 1, hn⟩ h0) (notLast_of ⟨n + 1, hn⟩ h7) (iblk m c 0 ⟨n + 1, hn⟩) (stateAt c n (Nat.lt_of_succ_lt hn))

theorem stateAt_first (c : Dev nD) (t : Fin cfg0.N) (h0 : t.val % 8 = 0) :
    stateAt m c t.val t.isLt = afterFirst c t ((isFirst_iff t).mpr h0) (notLast_of t (by omega)) (iblk m c 0 t) := by
  obtain ⟨n, hn⟩ := t
  cases n with
  | zero => rfl
  | succ n => exact (dif_pos h0).trans rfl

theorem stateAt_mid (c : Dev nD) (t : Fin cfg0.N) (h0 : ¬t.val % 8 = 0) (h7 : ¬t.val % 8 = 7) :
    stateAt m c t.val t.isLt = afterMid c t (notFirst_of t h0) (notLast_of t h7) (iblk m c 0 t)
      (stateAt m c (t.val - 1) (Nat.lt_of_le_of_lt (Nat.sub_le _ _) t.isLt)) := by
  obtain ⟨n, hn⟩ := t
  cases n with
  | zero => exact absurd (Nat.zero_mod _) h0
  | succ n => exact (dif_neg h0).trans ((dif_neg h7).trans rfl)

theorem stateAt_last (c : Dev nD) (t : Fin cfg0.N) (h0 : ¬t.val % 8 = 0) (h7 : t.val % 8 = 7) :
    stateAt m c t.val t.isLt = afterLast c t (notFirst_of t h0) ((isLast_iff t).mpr h7) (iblk m c 0 t)
      (stateAt m c (t.val - 1) (Nat.lt_of_le_of_lt (Nat.sub_le _ _) t.isLt)) := by
  obtain ⟨n, hn⟩ := t
  cases n with
  | zero => exact absurd (Nat.zero_mod _) h0
  | succ n => exact (dif_neg h0).trans ((dif_pos h7).trans rfl)

/-! ## The region's invariant -/

/-- Before position n: at the start whatever the region is handed (the accumulators at anything); afterwards the four
    accumulators at what position n − 1 left, and the generator register at some state. -/
def PhiS (c : Dev nD) : (n : ℕ) → n ≤ cfg0.N → sProp 𝕄
  | 0, _ => Pipeline.ΦA spec0 c
  | n + 1, hn => iprop(iprop(owns (c : Thread nD τ) accS fullShare (stateAt m c n hn).s ∗ owns (c : Thread nD τ) accQ fullShare (stateAt m c n hn).q ∗ owns (c : Thread nD τ) accHi fullShare (stateAt m c n hn).mx ∗ owns (c : Thread nD τ) accLo fullShare (stateAt m c n hn).mn) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) accS fullShare (stateAt m c n hn).s ∗ owns (c : Thread nD τ) accQ fullShare (stateAt m c n hn).q ∗ owns (c : Thread nD τ) accHi fullShare (stateAt m c n hn).mx ∗ owns (c : Thread nD τ) accLo fullShare (stateAt m c n hn).mn) ∗ (∃ r, prngReg c r)) := rfl

theorem PhiS_pos (c : Dev nD) (n : ℕ) (h : n ≤ cfg0.N) (hz : n ≠ 0) :
    PhiS m c n h = iprop(iprop(owns (c : Thread nD τ) accS fullShare (stateAt m c (n - 1) (by omega)).s ∗ owns (c : Thread nD τ) accQ fullShare (stateAt m c (n - 1) (by omega)).q ∗ owns (c : Thread nD τ) accHi fullShare (stateAt m c (n - 1) (by omega)).mx ∗ owns (c : Thread nD τ) accLo fullShare (stateAt m c (n - 1) (by omega)).mn) ∗ (∃ r, prngReg c r)) := by
  cases n with
  | zero => exact absurd rfl hz
  | succ n => rfl

/-! ## The proof data -/

/-- The arrays as the region finds them; after the body at point t the input buffer at its block and the output buffers
    at `stateAt`'s; the invariant `PhiS`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => (stateAt m c t.val t.isLt).o1
    | ⟨2, _⟩ => (stateAt m c t.val t.isLt).o2
    | ⟨3, _⟩ => (stateAt m c t.val t.isLt).o3
    | ⟨4, _⟩ => (stateAt m c t.val t.isLt).o4
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after_in (c : Dev nD) (t : Fin cfg0.N) : (dats m 0 c).after 0 t = iblk m c 0 t := by dsimp only [dats]
theorem after_o1 (c : Dev nD) (t : Fin cfg0.N) : (dats m 0 c).after 1 t = (stateAt m c t.val t.isLt).o1 := by dsimp only [dats]
theorem after_o2 (c : Dev nD) (t : Fin cfg0.N) : (dats m 0 c).after 2 t = (stateAt m c t.val t.isLt).o2 := by dsimp only [dats]
theorem after_o3 (c : Dev nD) (t : Fin cfg0.N) : (dats m 0 c).after 3 t = (stateAt m c t.val t.isLt).o3 := by dsimp only [dats]
theorem after_o4 (c : Dev nD) (t : Fin cfg0.N) : (dats m 0 c).after 4 t = (stateAt m c t.val t.isLt).o4 := by dsimp only [dats]

/-- The input's current staging buffer holds its block at every point. -/
theorem before_in (c : Dev nD) (t : Fin cfg0.N) (d) : (dats m 0 c).before 0 t d = iblk m c 0 t :=
  before_in_of m (dats m 0 c) (A_eq m c 0) (after_in m c) t d

/-! ## The body at a generic point -/

/-- What the body is called with at point t, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t)

set_option maxHeartbeats 4800000 in
/-- The body at a first-band point. The input's buffer holds its block; the invariant hands the run the accumulators (at
    anything at the very first point, else at what the point before left: a new batch band overwrites them) and takes
    them back at this point's contents; the output buffers pass through untouched. -/
theorem sound_first (c : Dev nD) (t : Fin cfg0.N) (h0 : t.val % 8 = 0) :
    bodyPre m c t ⊢ wp frame (wpE (defs₀ (F := F)) Variants.none c none) Set.univ (bodyAt0 t) (fun _ => bodyPost m c t) := by
  unfold bodyPre bodyPost bodyAt0
  simp only [before_in]
  rw [show (dats m 0 c).owesAt () t.succ = (dats m 0 c).owesAt () t.castSucc from rfl]
  rw [show (dats m 0 c).Φ t.succ = PhiS m c (t.val + 1) t.isLt from rfl, PhiS_succ]
  rw [show (dats m 0 c).leavesExact 0 t = owns (c : Thread nD τ) (ms0 t) fullShare ((dats m 0 c).after 0 t) from by
    unfold Dat.leavesExact; rw [live_in t], after_in]
  have hf : isFirst (grid0.coords t) := (isFirst_iff t).mpr h0
  have hl : ¬isLast (grid0.coords t) := notLast_of t (by omega)
  rw [Dat.leavesExact_idle (dats m 0 c) 1 t (idle_out 1 (by decide) t hl) (noFlush_out 1 (by decide) t hl),
    Dat.leavesExact_idle (dats m 0 c) 2 t (idle_out 2 (by decide) t hl) (noFlush_out 2 (by decide) t hl),
    Dat.leavesExact_idle (dats m 0 c) 3 t (idle_out 3 (by decide) t hl) (noFlush_out 3 (by decide) t hl),
    Dat.leavesExact_idle (dats m 0 c) 4 t (idle_out 4 (by decide) t hl) (noFlush_out 4 (by decide) t hl)]
  rw [stateAt_first m c t h0]
  unfold afterFirst; (try dsimp only)
  by_cases hz : t.val = 0
  · rw [PhiS_castSucc m c t, PhiS_zero m c _ _ hz, PhiA_eq]
    iintro ⟨⟨⟨HS0, HS1, HS2, HS3⟩, Hg⟩, Ho, ⟨%d0, H0⟩, H1, H2, H3, H4⟩
    iapply ((firstAt c t hf hl (iblk m c 0 t)).2.2.2.2 Set.univ _)
    isplitl [H0]; · iexact H0
    isplitl [HS0]; · iexact HS0
    isplitl [HS1]; · iexact HS1
    isplitl [HS2]; · iexact HS2
    isplitl [HS3]; · iexact HS3
    iintro ⟨H0, ⟨%e0, HS0⟩, ⟨%e1, HS1⟩, ⟨%e2, HS2⟩, ⟨%e3, HS3⟩⟩
    isplitl [HS0 HS1 HS2 HS3 Hg]
    · isplitr [Hg]
      · isplitl [HS0]
        · unfold owns; iexists _; isplitr
          swap; · iexact HS0
          ipureintro; exact View.read_writes_of_cover _ _ _ _ _ (fun y => cover_first_s c t _ y hf hl)
        isplitl [HS1]
        · unfold owns; iexists _; isplitr
          swap; · iexact HS1
          ipureintro; exact View.read_writes_of_cover _ _ _ _ _ (fun y => cover_first_q c t _ y hf hl)
        isplitl [HS2]
        · unfold owns; iexists _; isplitr
          swap; · iexact HS2
          ipureintro; exact View.read_writes_of_cover _ _ _ _ _ (fun y => cover_first_mx c t _ y hf hl)
        unfold owns; iexists _; isplitr
        swap; · iexact HS3
        ipureintro; exact View.read_writes_of_cover _ _ _ _ _ (fun y => cover_first_mn c t _ y hf hl)
      iexact Hg
    isplitl [Ho]; · iexact Ho
    isplitl [H0]; · iexact H0
    isplitl [H1]; · iexact H1
    isplitl [H2]; · iexact H2
    isplitl [H3]; · iexact H3
    iexact H4
  · rw [PhiS_castSucc m c t, PhiS_pos m c _ _ hz]
    iintro ⟨⟨⟨HS0, HS1, HS2, HS3⟩, Hg⟩, Ho, ⟨%d0, H0⟩, H1, H2, H3, H4⟩
    iapply ((firstAt c t hf hl (iblk m c 0 t)).2.2.2.2 Set.univ _)
    isplitl [H0]; · iexact H0
    isplitl [HS0]; · iexists _; iexact HS0
    isplitl [HS1]; · iexists _; iexact HS1
    isplitl [HS2]; · iexists _; iexact HS2
    isplitl [HS3]; · iexists _; iexact HS3
    iintro ⟨H0, ⟨%e0, HS0⟩, ⟨%e1, HS1⟩, ⟨%e2, HS2⟩, ⟨%e3, HS3⟩⟩
    isplitl [HS0 HS1 HS2 HS3 Hg]
    · isplitr [Hg]
      · isplitl [HS0]
        · unfold owns; iexists _; isplitr
          swap; · iexact HS0
          ipureintro; exact View.read_writes_of_cover _ _ _ _ _ (fun y => cover_first_s c t _ y hf hl)
        isplitl [HS1]
        · unfold owns; iexists _; isplitr
          swap; · iexact HS1
          ipureintro; exact View.read_writes_of_cover _ _ _ _ _ (fun y => cover_first_q c t _ y hf hl)
        isplitl [HS2]
        · unfold owns; iexists _; isplitr
          swap; · iexact HS2
          ipureintro; exact View.read_writes_of_cover _ _ _ _ _ (fun y => cover_first_mx c t _ y hf hl)
        unfold owns; iexists _; isplitr
        swap; · iexact HS3
        ipureintro; exact View.read_writes_of_cover _ _ _ _ _ (fun y => cover_first_mn c t _ y hf hl)
      iexact Hg
    isplitl [Ho]; · iexact Ho
    isplitl [H0]; · iexact H0
    isplitl [H1]; · iexact H1
    isplitl [H2]; · iexact H2
    isplitl [H3]; · iexact H3
    iexact H4

set_option maxHeartbeats 4800000 in
/-- The body at a last-band point. The accumulators enter at what the point before left and leave at this point's
    contents; the four output buffers come back at their finished blocks. -/
theorem sound_last (c : Dev nD) (t : Fin cfg0.N) (h0 : ¬t.val % 8 = 0) (h7 : t.val % 8 = 7) :
    bodyPre m c t ⊢ wp frame (wpE (defs₀ (F := F)) Variants.none c none) Set.univ (bodyAt0 t) (fun _ => bodyPost m c t) := by
  unfold bodyPre bodyPost bodyAt0
  simp only [before_in]
  rw [show (dats m 0 c).owesAt () t.succ = (dats m 0 c).owesAt () t.castSucc from rfl]
  rw [show (dats m 0 c).Φ t.succ = PhiS m c (t.val + 1) t.isLt from rfl, PhiS_succ]
  rw [show (dats m 0 c).leavesExact 0 t = owns (c : Thread nD τ) (ms0 t) fullShare ((dats m 0 c).after 0 t) from by
    unfold Dat.leavesExact; rw [live_in t], after_in]
  have hf : ¬isFirst (grid0.coords t) := notFirst_of t h0
  have hz : t.val ≠ 0 := fun hz => h0 (by rw [hz])
  have hl : isLast (grid0.coords t) := (isLast_iff t).mpr h7
  rw [show (dats m 0 c).leavesExact 1 t = owns (c : Thread nD τ) (ms1 t) fullShare ((dats m 0 c).after 1 t) from by
      unfold Dat.leavesExact; rw [live_out 1 t hl], after_o1,
    show (dats m 0 c).leavesExact 2 t = owns (c : Thread nD τ) (ms2 t) fullShare ((dats m 0 c).after 2 t) from by
      unfold Dat.leavesExact; rw [live_out 2 t hl], after_o2,
    show (dats m 0 c).leavesExact 3 t = owns (c : Thread nD τ) (ms3 t) fullShare ((dats m 0 c).after 3 t) from by
      unfold Dat.leavesExact; rw [live_out 3 t hl], after_o3,
    show (dats m 0 c).leavesExact 4 t = owns (c : Thread nD τ) (ms4 t) fullShare ((dats m 0 c).after 4 t) from by
      unfold Dat.leavesExact; rw [live_out 4 t hl], after_o4]
  rw [PhiS_castSucc m c t, PhiS_pos m c _ _ hz]
  rw [stateAt_last m c t h0 h7]
  unfold afterLast; (try dsimp only)
  iintro ⟨⟨⟨HS0, HS1, HS2, HS3⟩, Hg⟩, Ho, ⟨%d0, H0⟩, ⟨%d1, H1⟩, ⟨%d2, H2⟩, ⟨%d3, H3⟩, ⟨%d4, H4⟩⟩
  iapply ((lastAt c t hf hl (iblk m c 0 t) (stateAt m c (t.val - 1) (Nat.lt_of_le_of_lt (Nat.sub_le _ _) t.isLt))).2.2.2.2.2.2.2.2 Set.univ _)
  isplitl [H0]; · iexact H0
  isplitl [H1]; · iexists _; iexact H1
  isplitl [H2]; · iexists _; iexact H2
  isplitl [H3]; · iexists _; iexact H3
  isplitl [H4]; · iexists _; iexact H4
  isplitl [HS0]; · iexact HS0
  isplitl [HS1]; · iexact HS1
  isplitl [HS2]; · iexact HS2
  isplitl [HS3]; · iexact HS3
  iintro ⟨H0, ⟨%g1, H1⟩, ⟨%g2, H2⟩, ⟨%g3, H3⟩, ⟨%g4, H4⟩, ⟨%e0, HS0⟩, ⟨%e1, HS1⟩, ⟨%e2, HS2⟩, ⟨%e3, HS3⟩⟩
  isplitl [HS0 HS1 HS2 HS3 Hg]
  · isplitr [Hg]
    · isplitl [HS0]
      · unfold owns; iexists _; isplitr
        swap; · iexact HS0
        ipureintro; exact View.read_writes_of_cover _ _ _ _ _ (fun y => cover_last_s c t _ _ y hf hl)
      isplitl [HS1]
      · unfold owns; iexists _; isplitr
        swap; · iexact HS1
        ipureintro; exact View.read_writes_of_cover _ _ _ _ _ (fun y => cover_last_q c t _ _ y hf hl)
      isplitl [HS2]
      · unfold owns; iexists _; isplitr
        swap; · iexact HS2
        ipureintro; exact View.read_writes_of_cover _ _ _ _ _ (fun y => cover_last_mx c t _ _ y hf hl)
      unfold owns; iexists _; isplitr
      swap; · iexact HS3
      ipureintro; exact View.read_writes_of_cover _ _ _ _ _ (fun y => cover_last_mn c t _ _ y hf hl)
    iexact Hg
  isplitl [Ho]; · iexact Ho
  isplitl [H0]; · iexact H0
  isplitl [H1]
  · unfold owns; iexists _; isplitr
    swap; · iexact H1
    ipureintro; exact View.read_writes_of_cover _ _ _ _ _ (fun y => cover_last_o1 c t _ _ y hf hl)
  isplitl [H2]
  · unfold owns; iexists _; isplitr
    swap; · iexact H2
    ipureintro; exact View.read_writes_of_cover _ _ _ _ _ (fun y => cover_last_o2 c t _ _ y hf hl)
  isplitl [H3]
  · unfold owns; iexists _; isplitr
    swap; · iexact H3
    ipureintro; exact View.read_writes_of_cover _ _ _ _ _ (fun y => cover_last_o3 c t _ _ y hf hl)
  unfold owns; iexists _; isplitr
  swap; · iexact H4
  ipureintro; exact View.read_writes_of_cover _ _ _ _ _ (fun y => cover_last_o4 c t _ _ y hf hl)

set_option maxHeartbeats 4800000 in
/-- The body at a middle-band point. The accumulators enter at what the point before left and leave at this point's
    contents; the output buffers pass through untouched. -/
theorem sound_mid (c : Dev nD) (t : Fin cfg0.N) (h0 : ¬t.val % 8 = 0) (h7 : ¬t.val % 8 = 7) :
    bodyPre m c t ⊢ wp frame (wpE (defs₀ (F := F)) Variants.none c none) Set.univ (bodyAt0 t) (fun _ => bodyPost m c t) := by
  unfold bodyPre bodyPost bodyAt0
  simp only [before_in]
  rw [show (dats m 0 c).owesAt () t.succ = (dats m 0 c).owesAt () t.castSucc from rfl]
  rw [show (dats m 0 c).Φ t.succ = PhiS m c (t.val + 1) t.isLt from rfl, PhiS_succ]
  rw [show (dats m 0 c).leavesExact 0 t = owns (c : Thread nD τ) (ms0 t) fullShare ((dats m 0 c).after 0 t) from by
    unfold Dat.leavesExact; rw [live_in t], after_in]
  have hf : ¬isFirst (grid0.coords t) := notFirst_of t h0
  have hz : t.val ≠ 0 := fun hz => h0 (by rw [hz])
  have hl : ¬isLast (grid0.coords t) := notLast_of t h7
  rw [Dat.leavesExact_idle (dats m 0 c) 1 t (idle_out 1 (by decide) t hl) (noFlush_out 1 (by decide) t hl),
    Dat.leavesExact_idle (dats m 0 c) 2 t (idle_out 2 (by decide) t hl) (noFlush_out 2 (by decide) t hl),
    Dat.leavesExact_idle (dats m 0 c) 3 t (idle_out 3 (by decide) t hl) (noFlush_out 3 (by decide) t hl),
    Dat.leavesExact_idle (dats m 0 c) 4 t (idle_out 4 (by decide) t hl) (noFlush_out 4 (by decide) t hl)]
  rw [PhiS_castSucc m c t, PhiS_pos m c _ _ hz]
  rw [stateAt_mid m c t h0 h7]
  unfold afterMid; (try dsimp only)
  iintro ⟨⟨⟨HS0, HS1, HS2, HS3⟩, Hg⟩, Ho, ⟨%d0, H0⟩, H1, H2, H3, H4⟩
  iapply ((midAt c t hf hl (iblk m c 0 t) (stateAt m c (t.val - 1) (Nat.lt_of_le_of_lt (Nat.sub_le _ _) t.isLt))).2.2.2.2 Set.univ _)
  isplitl [H0]; · iexact H0
  isplitl [HS0]; · iexact HS0
  isplitl [HS1]; · iexact HS1
  isplitl [HS2]; · iexact HS2
  isplitl [HS3]; · iexact HS3
  iintro ⟨H0, ⟨%e0, HS0⟩, ⟨%e1, HS1⟩, ⟨%e2, HS2⟩, ⟨%e3, HS3⟩⟩
  isplitl [HS0 HS1 HS2 HS3 Hg]
  · isplitr [Hg]
    · isplitl [HS0]
      · unfold owns; iexists _; isplitr
        swap; · iexact HS0
        ipureintro; exact View.read_writes_of_cover _ _ _ _ _ (fun y => cover_mid_s c t _ _ y hf hl)
      isplitl [HS1]
      · unfold owns; iexists _; isplitr
        swap; · iexact HS1
        ipureintro; exact View.read_writes_of_cover _ _ _ _ _ (fun y => cover_mid_q c t _ _ y hf hl)
      isplitl [HS2]
      · unfold owns; iexists _; isplitr
        swap; · iexact HS2
        ipureintro; exact View.read_writes_of_cover _ _ _ _ _ (fun y => cover_mid_mx c t _ _ y hf hl)
      unfold owns; iexists _; isplitr
      swap; · iexact HS3
      ipureintro; exact View.read_writes_of_cover _ _ _ _ _ (fun y => cover_mid_mn c t _ _ y hf hl)
    iexact Hg
  isplitl [Ho]; · iexact Ho
  isplitl [H0]; · iexact H0
  isplitl [H1]; · iexact H1
  isplitl [H2]; · iexact H2
  isplitl [H3]; · iexact H3
  iexact H4

/-- The body at any point: t mod 8 says which band the point is in. -/
theorem sound_body (c : Dev nD) (t : Fin cfg0.N) :
    bodyPre m c t ⊢ wp frame (wpE (defs₀ (F := F)) Variants.none c none) Set.univ (bodyAt0 t) (fun _ => bodyPost m c t) := by
  by_cases h0 : t.val % 8 = 0
  · exact sound_first m c t h0
  · by_cases h7 : t.val % 8 = 7
    · exact sound_last m c t h0 h7
    · exact sound_mid m c t h0 h7

/-- The body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After the last point the invariant gives it back: the accumulators' named contents are forgotten. -/
theorem hout (c : Dev nD) : (dats m 0 c).Φ (Fin.last cfg0.N) ⊢ Pipeline.ΦA spec0 c := by
  have hne : (Fin.last cfg0.N).val ≠ 0 := by rw [Fin.val_last]; have : cfg0.N = 32 := N_0; omega
  rw [show (dats m 0 c).Φ (Fin.last cfg0.N) = PhiS m c (Fin.last cfg0.N).val (Nat.le_of_lt_succ (Fin.last cfg0.N).isLt) from rfl,
    PhiS_pos m c _ _ hne, PhiA_eq]
  iintro ⟨⟨HS0, HS1, HS2, HS3⟩, Hg⟩
  isplitr [Hg]
  · isplitl [HS0]; · iexists _; iexact HS0
    isplitl [HS1]; · iexists _; iexact HS1
    isplitl [HS2]; · iexists _; iexact HS2
    iexists _; iexact HS3
  iexact Hg

/-! ## The run and the frame -/

set_option backward.isDefEq.respectTransparency.types false in
/-- From any memory with zero counters every weakly fair execution of the main function terminates, each array of the
    region ending at what the proof data computes and the result buffer at the host line's value of them. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := tail_sub) (hfresh := tail_noalloc) (hkeep := tail_keeps)
    (hmain := hmain m Variants.none) (hA := A_eq m) (hin := hin m) (hout := hout m)

/-- THE FRAME: the main function runs to the end, nothing faults, and the input array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  frame_of m ρ (dats m) (A_eq m) (run_main m ρ)

end Cert.Kernel.Pool

end
-- ==== Proof.IdealFrame.Kit.lean ====
/-
  The pooling kernel's run, first part: what every later part is stated over.

  The program is one pipelined region on a 4 × 8 grid — point t = 8 b + h handles batch band b (8 rows of the 32)
  and spatial band h (64 of the 512 rows) — followed by one host line that lays the four result tables side by
  side.  The body keeps four [8, 16] accumulators (sum, sum of squares, maximum, minimum) in scratch memory
  across the eight points of a batch band: it resets them where h = 0, folds the block in at every point, and
  where h = 7 turns them into the four output blocks, which the pipeline writes back at exactly those points.

  Here: the buffers' contents when the region is entered; the main function as "region, then the host line";
  the side facts of that line; each window's block at a point; the two conditions of the body in closed form
  over the grid; where each output window is idle; names for the staging and scratch memrefs.
-/
import proofs.«163916_j23227183136952_1_alg».proof.Proof.Gen.KernelIdeal.Launch
import proofs.«163916_j23227183136952_1_alg».proof.Proof.Gen.KernelIdeal.Skeleton
import proofs.«163916_j23227183136952_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

-- membership in a rectangle of these extents is decided structurally, one coordinate at a time
set_option maxRecDepth 16384

noncomputable section

namespace Cert.KernelIdeal.Pool

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The main function around the region -/

/-- A core's buffer contents when the region is entered: as launched, no host line comes before the region. -/
abbrev V0 (c : Dev nD) : Valuation τ sig (Elt F) := StableHlo.after (List.flatten []) (fun b => m (c, b))
/-- The same read at a reference. -/
abbrev V (c : Dev nD) (b : Ref sig .tc) : Buf (Elt F) ((c : Thread nD τ).loc b) := V0 m c (Proc.devRef .tc b)

/-- The host line after the region allocates nothing. -/
theorem tail_fresh : (hostOps1 : List (HloOp τ sig (Elt F))).Forall fun op => op.fresh = ∅ := by
  simp only [List.Forall]; repeat' constructor

/-- The main function is the region continued by the host line. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [] [hostOps1] (by simp only [List.Forall])
    (by simp only [List.Forall]) main_chain

/-- The host line touches only the region's arrays and the result buffer, -/
theorem tail_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  exact Pipeline.sub_ucRefs op ((List.forall_iff_forall_mem.mp hostOps1_sub) op hop)
/-- allocates nothing, -/
theorem tail_noalloc : ∀ ops ∈ ([hostOps1] : List (List (HloOp τ sig (Elt F)))), ∀ op ∈ ops, op.fresh = ∅ := by
  intro ops hops op hop
  simp only [List.mem_cons, List.mem_nil_iff, or_false] at hops
  rcases hops with rfl
  exact (List.forall_iff_forall_mem.mp tail_fresh) op hop
/-- and writes none of the region's arrays: only the result buffer. -/
theorem tail_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  simp only [hostOps1, List.mem_cons, List.mem_nil_iff, or_false] at hop
  rcases hop with rfl
  intro w; fin_cases w <;> simp only [StableHlo.nary_writes, Finset.mem_singleton] <;> exact StableHlo.devRef_ne_of_ne (by decide)

theorem V_main_arg0 (c : Dev nD) : V m c main_arg0 = m ((c : Thread nD τ).loc main_arg0) := rfl

/-! ## The windows' blocks -/

/-- Window w's block at point t, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The input window's current staging buffer holds its block at every point (it is fetched at every point),
    for any proof data over the entry contents whose body leaves the block in place. -/
theorem before_in_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-! ## The frame statement from a run that names the arrays -/

/-- A run that ends with every array of the region at what the proof data computes leaves the input array as launched:
    the input window is never written back, so its array after the run is its array at entry. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)) :=
  (θ_run defs _ _).mono (fun _ h c => ((h c).1 0).trans (((dats 0 c).arrAt_in 0 rfl _).trans ((hA c 0).trans (V_main_arg0 m c)))) h

/-! ## The body's two conditions -/

/-- "This is the first spatial band": grid coordinate 1 is 0. -/
abbrev isFirst (i : grid0.Coords) : Prop := (Scalar.cmpi .ne (Scalar.extui (Scalar.cmpi .eq (BitVec.ofNat 32 (i 1).val) 0#32)) 0#32) = 1#1
/-- It holds at the points 8 b. -/
theorem isFirst_iff : ∀ t : Fin cfg0.N, isFirst (grid0.coords t) ↔ t.val % 8 = 0 :=
  (by decide +kernel : ∀ t : Fin grid0.N, isFirst (grid0.coords t) ↔ t.val % 8 = 0)

/-- "This is the last spatial band": grid coordinate 1 is 7. -/
abbrev isLast (i : grid0.Coords) : Prop := k0_cond2 i = 1#1
/-- It holds at the points 8 b + 7. -/
theorem isLast_iff : ∀ t : Fin cfg0.N, isLast (grid0.coords t) ↔ t.val % 8 = 7 :=
  (by decide +kernel : ∀ t : Fin grid0.N, isLast (grid0.coords t) ↔ t.val % 8 = 7)

/-! ## Where the windows are idle -/

/-- The input window is never idle. -/
theorem live_in : ∀ t : Fin cfg0.N, cfg0.idle 0 (grid0.coords t) = false := by decide +kernel
/-- Away from the last spatial band the body stores into no output window: each is idle there, and not written back. -/
theorem idle_out : ∀ (w : Fin cfg0.W), w ≠ 0 → ∀ t : Fin cfg0.N, ¬isLast (grid0.coords t) → cfg0.idle w (grid0.coords t) = true := by decide +kernel
theorem noFlush_out : ∀ (w : Fin cfg0.W), w ≠ 0 → ∀ t : Fin cfg0.N, ¬isLast (grid0.coords t) → (cfg0.win w).flush t = false := by decide +kernel
/-- At the last spatial band every output window is live. -/
theorem live_out : ∀ (w : Fin cfg0.W), ∀ t : Fin cfg0.N, isLast (grid0.coords t) → cfg0.idle w (grid0.coords t) = false := by decide +kernel

/-! ## Names for the memrefs -/

/-- One staging buffer of each output window, through which its contents are stated (which one does not matter). -/
abbrev VO1 : View sig .tc .vmem S8x16 .f32 := (Memref.whole cc0_stg1_0 : Memref sig .tc .vmem S8x16 .f32).view
abbrev VO2 : View sig .tc .vmem S8x16 .f32 := (Memref.whole cc0_stg2_0 : Memref sig .tc .vmem S8x16 .f32).view
abbrev VO3 : View sig .tc .vmem S8x16 .f32 := (Memref.whole cc0_stg3_0 : Memref sig .tc .vmem S8x16 .f32).view
abbrev VO4 : View sig .tc .vmem S8x16 .f32 := (Memref.whole cc0_stg4_0 : Memref sig .tc .vmem S8x16 .f32).view
/-- Each window's current staging memref at point t, as the pipeline passes it to the body, and its wholeness. -/
abbrev ms0 (t : Fin cfg0.N) : Memref sig .tc .vmem S8x16x64x512 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S8x16 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S8x16 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S8x16 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S8x16 .f32 := win0_4.stage (cfg0.slots t 4)
abbrev hs4 (t : Fin cfg0.N) : (ms4 t).IsWhole := hstage0_4 ((cfg0.slots t 4).cast nbuf0_4)
/-- The four accumulators: whole scratch buffers of the kernel's own, passed beside the windows
    (sum, sum of squares, maximum, minimum). -/
abbrev accS : Memref sig .tc .vmem S8x16 .f32 := Memref.whole cc0_scratch0
abbrev accQ : Memref sig .tc .vmem S8x16 .f32 := Memref.whole cc0_scratch1
abbrev accHi : Memref sig .tc .vmem S8x16 .f32 := Memref.whole cc0_scratch2
abbrev accLo : Memref sig .tc .vmem S8x16 .f32 := Memref.whole cc0_scratch3
/-- The accumulators as views: what they hold is stated through these. -/
abbrev VS : View sig .tc .vmem S8x16 .f32 := accS.view
abbrev VQ : View sig .tc .vmem S8x16 .f32 := accQ.view
abbrev VHi : View sig .tc .vmem S8x16 .f32 := accHi.view
abbrev VLo : View sig .tc .vmem S8x16 .f32 := accLo.view

/-- What the region may use without describing it: the four accumulators at some contents, and the generator register. -/
theorem PhiA_eq (c : Dev nD) :
    (Pipeline.ΦA spec0 c : sProp 𝕄)
      = iprop(iprop((∃ d, owns (c : Thread nD τ) accS fullShare d) ∗ (∃ d, owns (c : Thread nD τ) accQ fullShare d) ∗ (∃ d, owns (c : Thread nD τ) accHi fullShare d) ∗ (∃ d, owns (c : Thread nD τ) accLo fullShare d)) ∗ (∃ r, prngReg c r)) := by
  unfold Pipeline.ΦA; rw [scopedRest0_eq]; simp only [accS, accQ, accHi, accLo, owns_whole]; try rfl

end Cert.KernelIdeal.Pool

end
-- ==== Proof.IdealFrame.RunFirst.lean ====
/-
  The body at a point of the FIRST spatial band (h = 0, not the last band).

  There the body resets the four accumulators (0, 0, −∞, +∞) and then folds the point's block in, so each
  accumulator is stored twice, the second store covering the first; the output buffers are not touched.
  The run is stated on any whole memrefs: the input block at its contents, the accumulators at anything; it
  ends with the input as it was and each accumulator with its stores written, which the run itself finds.
-/
import proofs.«163916_j23227183136952_1_alg».proof.Proof.IdealFrame.Kit

-- membership in a rectangle of these extents is decided structurally, one coordinate at a time
set_option maxRecDepth 16384

noncomputable section

namespace Cert.KernelIdeal.Pool

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: closing the definition walks it past the default budget)
set_option maxHeartbeats 1000000 in
/-- What the body's stores leave in each accumulator, as pieces (last first), at a point of the first band,
    with the proof that the body runs there to any continuation that takes the input block back as it was and
    the accumulators with those pieces written. -/
noncomputable def runFirst (c : Dev nD) (i : grid0.Coords) (arg2 : Memref sig .tc .vmem S8x16x64x512 .f32) (harg2 : arg2.IsWhole) (arg3 : Memref sig .tc .vmem S8x16 .f32) (harg3 : arg3.IsWhole) (arg4 : Memref sig .tc .vmem S8x16 .f32) (harg4 : arg4.IsWhole) (arg5 : Memref sig .tc .vmem S8x16 .f32) (harg5 : arg5.IsWhole) (arg6 : Memref sig .tc .vmem S8x16 .f32) (harg6 : arg6.IsWhole) (arg7 : Memref sig .tc .vmem S8x16 .f32) (harg7 : arg7.IsWhole) (arg8 : Memref sig .tc .vmem S8x16 .f32) (harg8 : arg8.IsWhole) (arg9 : Memref sig .tc .vmem S8x16 .f32) (harg9 : arg9.IsWhole) (arg10 : Memref sig .tc .vmem S8x16 .f32) (harg10 : arg10.IsWhole) (hf : isFirst i) (hl : ¬isLast i)
    (x0 : Vec F S8x16x64x512 .f32) :
    Σ' (LS : List (View.Piece (Elt F) S8x16 .f32)), Σ' (LQ : List (View.Piece (Elt F) S8x16 .f32)), Σ' (LHi : List (View.Piece (Elt F) S8x16 .f32)), { LLo : List (View.Piece (Elt F) S8x16 .f32) //
      ∀ (E : Set ℕ) (K : PUnit → sProp 𝕄),
        iprop(owns (c : Thread nD τ) arg2 fullShare x0 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d)
            ∗ (iprop(owns (c : Thread nD τ) arg2 fullShare x0 ∗ (∃ f, arg7.view.loc (c : Thread nD τ) ↦[arg7.view.set]{fullShare} arg7.view.writes (Elt F) f LS) ∗ (∃ f, arg8.view.loc (c : Thread nD τ) ↦[arg8.view.set]{fullShare} arg8.view.writes (Elt F) f LQ) ∗ (∃ f, arg9.view.loc (c : Thread nD τ) ↦[arg9.view.set]{fullShare} arg9.view.writes (Elt F) f LHi) ∗ (∃ f, arg10.view.loc (c : Thread nD τ) ↦[arg10.view.set]{fullShare} arg10.view.writes (Elt F) f LLo)) -∗ K ⟨⟩))
          ⊢ wp frame (wpE (defs₀ (F := F)) Variants.none c none) E (cc0_kernel i arg2 harg2 arg3 harg3 arg4 harg4 arg5 harg5 arg6 harg6 arg7 harg7 arg8 harg8 arg9 harg9 arg10 harg10) K } := by
  refine ⟨?_, ?_, ?_, ?_, fun E K => ?run⟩
  case run =>
    simp only [cc0_kernel_eq_skeleton]; unfold cc0_kernel_skel
    simp only [k0_part1_eq_skeleton]
    unfold owns
    iintro ⟨⟨%f0, %hf0, H0⟩, ⟨%ds0, %fs0, -, HS0⟩, ⟨%ds1, %fs1, -, HS1⟩, ⟨%ds2, %fs2, -, HS2⟩, ⟨%ds3, %fs3, -, HS3⟩, Hk⟩
    obtain rfl := harg2.eq_unread hf0
    sl_exec (disch := first | exact hf | exact hl)
    sl_step
    iapply Hk
    isplitl [H0]
    · iexists _; isplitr; · ipureintro; exact harg2.read_unread _
      iexact H0
    isplitl [HS0]; · iexists _; iexact HS0
    isplitl [HS1]; · iexists _; iexact HS1
    isplitl [HS2]; · iexists _; iexact HS2
    iexists _; iexact HS3

end Cert.KernelIdeal.Pool

end
-- ==== Proof.IdealFrame.RunMid.lean ====
/-
  The body at a point of a MIDDLE spatial band (neither the first nor the last, h = 1 … 6).

  There the body only folds the point's block into the four accumulators: each is loaded, combined with the
  block's partial result and stored back once; the output buffers are not touched.  The accumulators enter at
  the contents the point before left.
-/
import proofs.«163916_j23227183136952_1_alg».proof.Proof.IdealFrame.RunFirst

-- membership in a rectangle of these extents is decided structurally, one coordinate at a time
set_option maxRecDepth 16384

noncomputable section

namespace Cert.KernelIdeal.Pool

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: closing the definition walks it past the default budget)
set_option maxHeartbeats 1000000 in
/-- What the body's stores leave in each accumulator, as pieces, at a point of a middle band, with the proof
    that the body runs there — the accumulators entering at `xs·` — to any continuation that takes the input
    block back as it was and the accumulators with those pieces written. -/
noncomputable def runMid (c : Dev nD) (i : grid0.Coords) (arg2 : Memref sig .tc .vmem S8x16x64x512 .f32) (harg2 : arg2.IsWhole) (arg3 : Memref sig .tc .vmem S8x16 .f32) (harg3 : arg3.IsWhole) (arg4 : Memref sig .tc .vmem S8x16 .f32) (harg4 : arg4.IsWhole) (arg5 : Memref sig .tc .vmem S8x16 .f32) (harg5 : arg5.IsWhole) (arg6 : Memref sig .tc .vmem S8x16 .f32) (harg6 : arg6.IsWhole) (arg7 : Memref sig .tc .vmem S8x16 .f32) (harg7 : arg7.IsWhole) (arg8 : Memref sig .tc .vmem S8x16 .f32) (harg8 : arg8.IsWhole) (arg9 : Memref sig .tc .vmem S8x16 .f32) (harg9 : arg9.IsWhole) (arg10 : Memref sig .tc .vmem S8x16 .f32) (harg10 : arg10.IsWhole) (hf : ¬isFirst i) (hl : ¬isLast i)
    (x0 : Vec F S8x16x64x512 .f32) (xs0 xs1 xs2 xs3 : Vec F S8x16 .f32) :
    Σ' (LS : List (View.Piece (Elt F) S8x16 .f32)), Σ' (LQ : List (View.Piece (Elt F) S8x16 .f32)), Σ' (LHi : List (View.Piece (Elt F) S8x16 .f32)), { LLo : List (View.Piece (Elt F) S8x16 .f32) //
      ∀ (E : Set ℕ) (K : PUnit → sProp 𝕄),
        iprop(owns (c : Thread nD τ) arg2 fullShare x0 ∗ owns (c : Thread nD τ) arg7 fullShare xs0 ∗ owns (c : Thread nD τ) arg8 fullShare xs1 ∗ owns (c : Thread nD τ) arg9 fullShare xs2 ∗ owns (c : Thread nD τ) arg10 fullShare xs3
            ∗ (iprop(owns (c : Thread nD τ) arg2 fullShare x0 ∗ (∃ f, arg7.view.loc (c : Thread nD τ) ↦[arg7.view.set]{fullShare} arg7.view.writes (Elt F) f LS) ∗ (∃ f, arg8.view.loc (c : Thread nD τ) ↦[arg8.view.set]{fullShare} arg8.view.writes (Elt F) f LQ) ∗ (∃ f, arg9.view.loc (c : Thread nD τ) ↦[arg9.view.set]{fullShare} arg9.view.writes (Elt F) f LHi) ∗ (∃ f, arg10.view.loc (c : Thread nD τ) ↦[arg10.view.set]{fullShare} arg10.view.writes (Elt F) f LLo)) -∗ K ⟨⟩))
          ⊢ wp frame (wpE (defs₀ (F := F)) Variants.none c none) E (cc0_kernel i arg2 harg2 arg3 harg3 arg4 harg4 arg5 harg5 arg6 harg6 arg7 harg7 arg8 harg8 arg9 harg9 arg10 harg10) K } := by
  refine ⟨?_, ?_, ?_, ?_, fun E K => ?run⟩
  case run =>
    simp only [cc0_kernel_eq_skeleton]; unfold cc0_kernel_skel
    simp only [k0_part1_eq_skeleton]
    unfold owns
    iintro ⟨⟨%f0, %hf0, H0⟩, ⟨%fs0, %hfs0, HS0⟩, ⟨%fs1, %hfs1, HS1⟩, ⟨%fs2, %hfs2, HS2⟩, ⟨%fs3, %hfs3, HS3⟩, Hk⟩
    obtain rfl := harg2.eq_unread hf0; obtain rfl := harg7.eq_unread hfs0; obtain rfl := harg8.eq_unread hfs1
    obtain rfl := harg9.eq_unread hfs2; obtain rfl := harg10.eq_unread hfs3
    sl_exec (disch := first | exact hf | exact hl)
    sl_step
    iapply Hk
    isplitl [H0]
    · iexists _; isplitr; · ipureintro; exact harg2.read_unread _
      iexact H0
    isplitl [HS0]; · iexists _; iexact HS0
    isplitl [HS1]; · iexists _; iexact HS1
    isplitl [HS2]; · iexists _; iexact HS2
    iexists _; iexact HS3

end Cert.KernelIdeal.Pool

end
-- ==== Proof.IdealFrame.RunLast.lean ====
/-
  The body at a point of the LAST spatial band (h = 7).

  There the body folds the point's block into the four accumulators as at a middle band and then turns them
  into the four output blocks: the mean S / n, the deviation √((Q − S·S / n) / (n − 1)), the maximum and the
  minimum, each stored whole into its output buffer.  The accumulators enter at the contents the point before
  left, the output buffers at anything.
-/
import proofs.«163916_j23227183136952_1_alg».proof.Proof.IdealFrame.RunMid

-- membership in a rectangle of these extents is decided structurally, one coordinate at a time
set_option maxRecDepth 16384

noncomputable section

namespace Cert.KernelIdeal.Pool

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: closing the definition walks it past the default budget)
set_option maxHeartbeats 1000000 in
/-- What the body's stores leave in each output buffer and in each accumulator, as pieces, at a point of the
    last band, with the proof that the body runs there — the accumulators entering at `xs·`, the output buffers
    at anything — to any continuation that takes the input block back as it was and every other buffer with
    those pieces written. -/
noncomputable def runLast (c : Dev nD) (i : grid0.Coords) (arg2 : Memref sig .tc .vmem S8x16x64x512 .f32) (harg2 : arg2.IsWhole) (arg3 : Memref sig .tc .vmem S8x16 .f32) (harg3 : arg3.IsWhole) (arg4 : Memref sig .tc .vmem S8x16 .f32) (harg4 : arg4.IsWhole) (arg5 : Memref sig .tc .vmem S8x16 .f32) (harg5 : arg5.IsWhole) (arg6 : Memref sig .tc .vmem S8x16 .f32) (harg6 : arg6.IsWhole) (arg7 : Memref sig .tc .vmem S8x16 .f32) (harg7 : arg7.IsWhole) (arg8 : Memref sig .tc .vmem S8x16 .f32) (harg8 : arg8.IsWhole) (arg9 : Memref sig .tc .vmem S8x16 .f32) (harg9 : arg9.IsWhole) (arg10 : Memref sig .tc .vmem S8x16 .f32) (harg10 : arg10.IsWhole) (hf : ¬isFirst i) (hl : isLast i)
    (x0 : Vec F S8x16x64x512 .f32) (xs0 xs1 xs2 xs3 : Vec F S8x16 .f32) :
    Σ' (L1 : List (View.Piece (Elt F) S8x16 .f32)), Σ' (L2 : List (View.Piece (Elt F) S8x16 .f32)), Σ' (L3 : List (View.Piece (Elt F) S8x16 .f32)), Σ' (L4 : List (View.Piece (Elt F) S8x16 .f32)),
    Σ' (LS : List (View.Piece (Elt F) S8x16 .f32)), Σ' (LQ : List (View.Piece (Elt F) S8x16 .f32)), Σ' (LHi : List (View.Piece (Elt F) S8x16 .f32)), { LLo : List (View.Piece (Elt F) S8x16 .f32) //
      ∀ (E : Set ℕ) (K : PUnit → sProp 𝕄),
        iprop(owns (c : Thread nD τ) arg2 fullShare x0 ∗ (∃ d, owns (c : Thread nD τ) arg3 fullShare d) ∗ (∃ d, owns (c : Thread nD τ) arg4 fullShare d) ∗ (∃ d, owns (c : Thread nD τ) arg5 fullShare d) ∗ (∃ d, owns (c : Thread nD τ) arg6 fullShare d)
            ∗ owns (c : Thread nD τ) arg7 fullShare xs0 ∗ owns (c : Thread nD τ) arg8 fullShare xs1 ∗ owns (c : Thread nD τ) arg9 fullShare xs2 ∗ owns (c : Thread nD τ) arg10 fullShare xs3
            ∗ (iprop(owns (c : Thread nD τ) arg2 fullShare x0 ∗ (∃ f, arg3.view.loc (c : Thread nD τ) ↦[arg3.view.set]{fullShare} arg3.view.writes (Elt F) f L1) ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f L4)
                ∗ (∃ f, arg7.view.loc (c : Thread nD τ) ↦[arg7.view.set]{fullShare} arg7.view.writes (Elt F) f LS) ∗ (∃ f, arg8.view.loc (c : Thread nD τ) ↦[arg8.view.set]{fullShare} arg8.view.writes (Elt F) f LQ) ∗ (∃ f, arg9.view.loc (c : Thread nD τ) ↦[arg9.view.set]{fullShare} arg9.view.writes (Elt F) f LHi) ∗ (∃ f, arg10.view.loc (c : Thread nD τ) ↦[arg10.view.set]{fullShare} arg10.view.writes (Elt F) f LLo)) -∗ K ⟨⟩))
          ⊢ wp frame (wpE (defs₀ (F := F)) Variants.none c none) E (cc0_kernel i arg2 harg2 arg3 harg3 arg4 harg4 arg5 harg5 arg6 harg6 arg7 harg7 arg8 harg8 arg9 harg9 arg10 harg10) K } := by
  refine ⟨?_, ?_, ?_, ?_, ?_, ?_, ?_, ?_, fun E K => ?run⟩
  case run =>
    simp only [cc0_kernel_eq_skeleton]; unfold cc0_kernel_skel
    simp only [k0_part1_eq_skeleton]
    unfold owns
    iintro ⟨⟨%f0, %hf0, H0⟩, ⟨%d1, %f1, -, H1⟩, ⟨%d2, %f2, -, H2⟩, ⟨%d3, %f3, -, H3⟩, ⟨%d4, %f4, -, H4⟩, ⟨%fs0, %hfs0, HS0⟩, ⟨%fs1, %hfs1, HS1⟩, ⟨%fs2, %hfs2, HS2⟩, ⟨%fs3, %hfs3, HS3⟩, Hk⟩
    obtain rfl := harg2.eq_unread hf0; obtain rfl := harg7.eq_unread hfs0; obtain rfl := harg8.eq_unread hfs1
    obtain rfl := harg9.eq_unread hfs2; obtain rfl := harg10.eq_unread hfs3
    sl_exec (disch := first | exact hf | exact hl)
    sl_step
    iapply Hk
    isplitl [H0]
    · iexists _; isplitr; · ipureintro; exact harg2.read_unread _
      iexact H0
    isplitl [H1]; · iexists _; iexact H1
    isplitl [H2]; · iexists _; iexact H2
    isplitl [H3]; · iexists _; iexact H3
    isplitl [H4]; · iexists _; iexact H4
    isplitl [HS0]; · iexists _; iexact HS0
    isplitl [HS1]; · iexists _; iexact HS1
    isplitl [HS2]; · iexists _; iexact HS2
    iexists _; iexact HS3

end Cert.KernelIdeal.Pool

end
-- ==== Proof.IdealFrame.Frame.lean ====
/-
  The pooling kernel's run, last part: the region's proof data, the body at every point, the launch, the frame.

  After point t = 8 b + h the four accumulators hold the partial results of batch band b over the spatial bands
  0 … h: what the first band's run leaves where h = 0, and otherwise what a middle or last band's run leaves over
  the accumulators of point t − 1.  The four output buffers hold their finished blocks after a last-band point
  and nothing that is ever read after any other point (they are idle there and not written back).
  The region's invariant carries the accumulators at exactly those contents from one point to the next.
-/
import proofs.«163916_j23227183136952_1_alg».proof.Proof.IdealFrame.RunLast

-- membership in a rectangle of these extents is decided structurally, one coordinate at a time
set_option maxRecDepth 16384

noncomputable section

namespace Cert.KernelIdeal.Pool

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the buffers hold after a point -/

/-- The contents of the four output buffers (mean, deviation, maximum, minimum) and of the four accumulators
    (sum, sum of squares, maximum, minimum) after a point. -/
structure After (F : FTy → Type) where
  o1 : Vec F S8x16 .f32
  o2 : Vec F S8x16 .f32
  o3 : Vec F S8x16 .f32
  o4 : Vec F S8x16 .f32
  s : Vec F S8x16 .f32
  q : Vec F S8x16 .f32
  mx : Vec F S8x16 .f32
  mn : Vec F S8x16 .f32

/-- An output buffer the body did not store into: contents nothing reads. -/
def unread : Vec F S8x16 .f32 := VO1.read (Elt F) (VO1.writes (Elt F) VO1.junk [])

/-- The body's runs at point t, on the memrefs the pipeline passes there. -/
abbrev firstAt (c : Dev nD) (t : Fin cfg0.N) (hf : isFirst (grid0.coords t)) (hl : ¬isLast (grid0.coords t)) (x0 : Vec F S8x16x64x512 .f32) :=
  runFirst (F := F) c (grid0.coords t) (ms0 t) (hs0 t) (ms1 t) (hs1 t) (ms2 t) (hs2 t) (ms3 t) (hs3 t) (ms4 t) (hs4 t) accS (Memref.isWhole_whole _) accQ (Memref.isWhole_whole _) accHi (Memref.isWhole_whole _) accLo (Memref.isWhole_whole _) hf hl x0
abbrev midAt (c : Dev nD) (t : Fin cfg0.N) (hf : ¬isFirst (grid0.coords t)) (hl : ¬isLast (grid0.coords t)) (x0 : Vec F S8x16x64x512 .f32) (p : After F) :=
  runMid (F := F) c (grid0.coords t) (ms0 t) (hs0 t) (ms1 t) (hs1 t) (ms2 t) (hs2 t) (ms3 t) (hs3 t) (ms4 t) (hs4 t) accS (Memref.isWhole_whole _) accQ (Memref.isWhole_whole _) accHi (Memref.isWhole_whole _) accLo (Memref.isWhole_whole _) hf hl x0 p.s p.q p.mx p.mn
abbrev lastAt (c : Dev nD) (t : Fin cfg0.N) (hf : ¬isFirst (grid0.coords t)) (hl : isLast (grid0.coords t)) (x0 : Vec F S8x16x64x512 .f32) (p : After F) :=
  runLast (F := F) c (grid0.coords t) (ms0 t) (hs0 t) (ms1 t) (hs1 t) (ms2 t) (hs2 t) (ms3 t) (hs3 t) (ms4 t) (hs4 t) accS (Memref.isWhole_whole _) accQ (Memref.isWhole_whole _) accHi (Memref.isWhole_whole _) accLo (Memref.isWhole_whole _) hf hl x0 p.s p.q p.mx p.mn

/-- After a first-band point: the accumulators at what the reset and the first fold leave. -/
def afterFirst (c : Dev nD) (t : Fin cfg0.N) (hf : isFirst (grid0.coords t)) (hl : ¬isLast (grid0.coords t)) (x0 : Vec F S8x16x64x512 .f32) : After F where
  o1 := unread
  o2 := unread
  o3 := unread
  o4 := unread
  s := VS.read (Elt F) (VS.writes (Elt F) VS.junk (firstAt c t hf hl x0).1)
  q := VQ.read (Elt F) (VQ.writes (Elt F) VQ.junk (firstAt c t hf hl x0).2.1)
  mx := VHi.read (Elt F) (VHi.writes (Elt F) VHi.junk (firstAt c t hf hl x0).2.2.1)
  mn := VLo.read (Elt F) (VLo.writes (Elt F) VLo.junk (firstAt c t hf hl x0).2.2.2.1)

/-- After a middle-band point: the accumulators of the point before with this block folded in. -/
def afterMid (c : Dev nD) (t : Fin cfg0.N) (hf : ¬isFirst (grid0.coords t)) (hl : ¬isLast (grid0.coords t)) (x0 : Vec F S8x16x64x512 .f32) (p : After F) : After F where
  o1 := unread
  o2 := unread
  o3 := unread
  o4 := unread
  s := VS.read (Elt F) (VS.writes (Elt F) VS.junk (midAt c t hf hl x0 p).1)
  q := VQ.read (Elt F) (VQ.writes (Elt F) VQ.junk (midAt c t hf hl x0 p).2.1)
  mx := VHi.read (Elt F) (VHi.writes (Elt F) VHi.junk (midAt c t hf hl x0 p).2.2.1)
  mn := VLo.read (Elt F) (VLo.writes (Elt F) VLo.junk (midAt c t hf hl x0 p).2.2.2.1)

/-- After a last-band point: the accumulators likewise, and the four finished output blocks. -/
def afterLast (c : Dev nD) (t : Fin cfg0.N) (hf : ¬isFirst (grid0.coords t)) (hl : isLast (grid0.coords t)) (x0 : Vec F S8x16x64x512 .f32) (p : After F) : After F where
  o1 := VO1.read (Elt F) (VO1.writes (Elt F) VO1.junk (lastAt c t hf hl x0 p).1)
  o2 := VO2.read (Elt F) (VO2.writes (Elt F) VO2.junk (lastAt c t hf hl x0 p).2.1)
  o3 := VO3.read (Elt F) (VO3.writes (Elt F) VO3.junk (lastAt c t hf hl x0 p).2.2.1)
  o4 := VO4.read (Elt F) (VO4.writes (Elt F) VO4.junk (lastAt c t hf hl x0 p).2.2.2.1)
  s := VS.read (Elt F) (VS.writes (Elt F) VS.junk (lastAt c t hf hl x0 p).2.2.2.2.1)
  q := VQ.read (Elt F) (VQ.writes (Elt F) VQ.junk (lastAt c t hf hl x0 p).2.2.2.2.2.1)
  mx := VHi.read (Elt F) (VHi.writes (Elt F) VHi.junk (lastAt c t hf hl x0 p).2.2.2.2.2.2.1)
  mn := VLo.read (Elt F) (VLo.writes (Elt F) VLo.junk (lastAt c t hf hl x0 p).2.2.2.2.2.2.2.1)

/-! ## Every store is a whole-buffer store, so each list of pieces covers its buffer -/

section covers
variable (c : Dev nD) (t : Fin cfg0.N) (x0 : Vec F S8x16x64x512 .f32) (p : After F) (y : S8x16.Idx)

theorem cover_first_s (hf : isFirst (grid0.coords t)) (hl : ¬isLast (grid0.coords t)) : ∃ pc ∈ (firstAt c t hf hl x0).1, y ∈ pc.1.set :=
  View.cover_of_tiledL _ S8x16.size (by sl_kernel_rfl) y
theorem cover_first_q (hf : isFirst (grid0.coords t)) (hl : ¬isLast (grid0.coords t)) : ∃ pc ∈ (firstAt c t hf hl x0).2.1, y ∈ pc.1.set :=
  View.cover_of_tiledL _ S8x16.size (by sl_kernel_rfl) y
theorem cover_first_mx (hf : isFirst (grid0.coords t)) (hl : ¬isLast (grid0.coords t)) : ∃ pc ∈ (firstAt c t hf hl x0).2.2.1, y ∈ pc.1.set :=
  View.cover_of_tiledL _ S8x16.size (by sl_kernel_rfl) y
theorem cover_first_mn (hf : isFirst (grid0.coords t)) (hl : ¬isLast (grid0.coords t)) : ∃ pc ∈ (firstAt c t hf hl x0).2.2.2.1, y ∈ pc.1.set :=
  View.cover_of_tiledL _ S8x16.size (by sl_kernel_rfl) y

theorem cover_mid_s (hf : ¬isFirst (grid0.coords t)) (hl : ¬isLast (grid0.coords t)) : ∃ pc ∈ (midAt c t hf hl x0 p).1, y ∈ pc.1.set :=
  View.cover_of_tiledL _ S8x16.size (by sl_kernel_rfl) y
theorem cover_mid_q (hf : ¬isFirst (grid0.coords t)) (hl : ¬isLast (grid0.coords t)) : ∃ pc ∈ (midAt c t hf hl x0 p).2.1, y ∈ pc.1.set :=
  View.cover_of_tiledL _ S8x16.size (by sl_kernel_rfl) y
theorem cover_mid_mx (hf : ¬isFirst (grid0.coords t)) (hl : ¬isLast (grid0.coords t)) : ∃ pc ∈ (midAt c t hf hl x0 p).2.2.1, y ∈ pc.1.set :=
  View.cover_of_tiledL _ S8x16.size (by sl_kernel_rfl) y
theorem cover_mid_mn (hf : ¬isFirst (grid0.coords t)) (hl : ¬isLast (grid0.coords t)) : ∃ pc ∈ (midAt c t hf hl x0 p).2.2.2.1, y ∈ pc.1.set :=
  View.cover_of_tiledL _ S8x16.size (by sl_kernel_rfl) y

theorem cover_last_o1 (hf : ¬isFirst (grid0.coords t)) (hl : isLast (grid0.coords t)) : ∃ pc ∈ (lastAt c t hf hl x0 p).1, y ∈ pc.1.set :=
  View.cover_of_tiledL _ S8x16.size (by sl_kernel_rfl) y
theorem cover_last_o2 (hf : ¬isFirst (grid0.coords t)) (hl : isLast (grid0.coords t)) : ∃ pc ∈ (lastAt c t hf hl x0 p).2.1, y ∈ pc.1.set :=
  View.cover_of_tiledL _ S8x16.size (by sl_kernel_rfl) y
theorem cover_last_o3 (hf : ¬isFirst (grid0.coords t)) (hl : isLast (grid0.coords t)) : ∃ pc ∈ (lastAt c t hf hl x0 p).2.2.1, y ∈ pc.1.set :=
  View.cover_of_tiledL _ S8x16.size (by sl_kernel_rfl) y
theorem cover_last_o4 (hf : ¬isFirst (grid0.coords t)) (hl : isLast (grid0.coords t)) : ∃ pc ∈ (lastAt c t hf hl x0 p).2.2.2.1, y ∈ pc.1.set :=
  View.cover_of_tiledL _ S8x16.size (by sl_kernel_rfl) y
theorem cover_last_s (hf : ¬isFirst (grid0.coords t)) (hl : isLast (grid0.coords t)) : ∃ pc ∈ (lastAt c t hf hl x0 p).2.2.2.2.1, y ∈ pc.1.set :=
  View.cover_of_tiledL _ S8x16.size (by sl_kernel_rfl) y
theorem cover_last_q (hf : ¬isFirst (grid0.coords t)) (hl : isLast (grid0.coords t)) : ∃ pc ∈ (lastAt c t hf hl x0 p).2.2.2.2.2.1, y ∈ pc.1.set :=
  View.cover_of_tiledL _ S8x16.size (by sl_kernel_rfl) y
theorem cover_last_mx (hf : ¬isFirst (grid0.coords t)) (hl : isLast (grid0.coords t)) : ∃ pc ∈ (lastAt c t hf hl x0 p).2.2.2.2.2.2.1, y ∈ pc.1.set :=
  View.cover_of_tiledL _ S8x16.size (by sl_kernel_rfl) y
theorem cover_last_mn (hf : ¬isFirst (grid0.coords t)) (hl : isLast (grid0.coords t)) : ∃ pc ∈ (lastAt c t hf hl x0 p).2.2.2.2.2.2.2.1, y ∈ pc.1.set :=
  View.cover_of_tiledL _ S8x16.size (by sl_kernel_rfl) y

end covers

/-! ## Point by point -/

theorem notFirst_of (t : Fin cfg0.N) (h : ¬t.val % 8 = 0) : ¬isFirst (grid0.coords t) := fun hh => h ((isFirst_iff t).mp hh)
theorem notLast_of (t : Fin cfg0.N) (h : ¬t.val % 8 = 7) : ¬isLast (grid0.coords t) := fun hh => h ((isLast_iff t).mp hh)

/-- THE ACCUMULATION: what the buffers hold after the point at position n. Position 8 b starts batch band b afresh;
    every other position continues from the position before. -/
def stateAt (c : Dev nD) : (n : ℕ) → n < cfg0.N → After F
  | 0, hn => afterFirst c ⟨0, hn⟩ ((isFirst_iff ⟨0, hn⟩).mpr (Nat.zero_mod _)) (notLast_of ⟨0, hn⟩ (by show ¬(0 % 8 = 7); decide)) (iblk m c 0 ⟨0, hn⟩)
  | n + 1, hn =>
    if h0 : (n + 1) % 8 = 0 then
      afterFirst c ⟨n + 1, hn⟩ ((isFirst_iff ⟨n + 1, hn⟩).mpr h0) (notLast_of ⟨n + 1, hn⟩ (by show ¬(n + 1) % 8 = 7; omega)) (iblk m c 0 ⟨n + 1, hn⟩)
    else if h7 : (n + 1) % 8 = 7 then
      afterLast c ⟨n + 1, hn⟩ (notFirst_of ⟨n + 1, hn⟩ h0) ((isLast_iff ⟨n + 1, hn⟩).mpr h7) (iblk m c 0 ⟨n + 1, hn⟩) (stateAt c n (Nat.lt_of_succ_lt hn))
    else
      afterMid c ⟨n + 1, hn⟩ (notFirst_of ⟨n + 1, hn⟩ h0) (notLast_of ⟨n + 1, hn⟩ h7) (iblk m c 0 ⟨n + 1, hn⟩) (stateAt c n (Nat.lt_of_succ_lt hn))

theorem stateAt_first (c : Dev nD) (t : Fin cfg0.N) (h0 : t.val % 8 = 0) :
    stateAt m c t.val t.isLt = afterFirst c t ((isFirst_iff t).mpr h0) (notLast_of t (by omega)) (iblk m c 0 t) := by
  obtain ⟨n, hn⟩ := t
  cases n with
  | zero => rfl
  | succ n => exact (dif_pos h0).trans rfl

theorem stateAt_mid (c : Dev nD) (t : Fin cfg0.N) (h0 : ¬t.val % 8 = 0) (h7 : ¬t.val % 8 = 7) :
    stateAt m c t.val t.isLt = afterMid c t (notFirst_of t h0) (notLast_of t h7) (iblk m c 0 t)
      (stateAt m c (t.val - 1) (Nat.lt_of_le_of_lt (Nat.sub_le _ _) t.isLt)) := by
  obtain ⟨n, hn⟩ := t
  cases n with
  | zero => exact absurd (Nat.zero_mod _) h0
  | succ n => exact (dif_neg h0).trans ((dif_neg h7).trans rfl)

theorem stateAt_last (c : Dev nD) (t : Fin cfg0.N) (h0 : ¬t.val % 8 = 0) (h7 : t.val % 8 = 7) :
    stateAt m c t.val t.isLt = afterLast c t (notFirst_of t h0) ((isLast_iff t).mpr h7) (iblk m c 0 t)
      (stateAt m c (t.val - 1) (Nat.lt_of_le_of_lt (Nat.sub_le _ _) t.isLt)) := by
  obtain ⟨n, hn⟩ := t
  cases n with
  | zero => exact absurd (Nat.zero_mod _) h0
  | succ n => exact (dif_neg h0).trans ((dif_pos h7).trans rfl)

/-! ## The region's invariant -/

/-- Before position n: at the start whatever the region is handed (the accumulators at anything); afterwards the four
    accumulators at what position n − 1 left, and the generator register at some state. -/
def PhiS (c : Dev nD) : (n : ℕ) → n ≤ cfg0.N → sProp 𝕄
  | 0, _ => Pipeline.ΦA spec0 c
  | n + 1, hn => iprop(iprop(owns (c : Thread nD τ) accS fullShare (stateAt m c n hn).s ∗ owns (c : Thread nD τ) accQ fullShare (stateAt m c n hn).q ∗ owns (c : Thread nD τ) accHi fullShare (stateAt m c n hn).mx ∗ owns (c : Thread nD τ) accLo fullShare (stateAt m c n hn).mn) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) accS fullShare (stateAt m c n hn).s ∗ owns (c : Thread nD τ) accQ fullShare (stateAt m c n hn).q ∗ owns (c : Thread nD τ) accHi fullShare (stateAt m c n hn).mx ∗ owns (c : Thread nD τ) accLo fullShare (stateAt m c n hn).mn) ∗ (∃ r, prngReg c r)) := rfl

theorem PhiS_pos (c : Dev nD) (n : ℕ) (h : n ≤ cfg0.N) (hz : n ≠ 0) :
    PhiS m c n h = iprop(iprop(owns (c : Thread nD τ) accS fullShare (stateAt m c (n - 1) (by omega)).s ∗ owns (c : Thread nD τ) accQ fullShare (stateAt m c (n - 1) (by omega)).q ∗ owns (c : Thread nD τ) accHi fullShare (stateAt m c (n - 1) (by omega)).mx ∗ owns (c : Thread nD τ) accLo fullShare (stateAt m c (n - 1) (by omega)).mn) ∗ (∃ r, prngReg c r)) := by
  cases n with
  | zero => exact absurd rfl hz
  | succ n => rfl

/-! ## The proof data -/

/-- The arrays as the region finds them; after the body at point t the input buffer at its block and the output buffers
    at `stateAt`'s; the invariant `PhiS`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => (stateAt m c t.val t.isLt).o1
    | ⟨2, _⟩ => (stateAt m c t.val t.isLt).o2
    | ⟨3, _⟩ => (stateAt m c t.val t.isLt).o3
    | ⟨4, _⟩ => (stateAt m c t.val t.isLt).o4
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after_in (c : Dev nD) (t : Fin cfg0.N) : (dats m 0 c).after 0 t = iblk m c 0 t := by dsimp only [dats]
theorem after_o1 (c : Dev nD) (t : Fin cfg0.N) : (dats m 0 c).after 1 t = (stateAt m c t.val t.isLt).o1 := by dsimp only [dats]
theorem after_o2 (c : Dev nD) (t : Fin cfg0.N) : (dats m 0 c).after 2 t = (stateAt m c t.val t.isLt).o2 := by dsimp only [dats]
theorem after_o3 (c : Dev nD) (t : Fin cfg0.N) : (dats m 0 c).after 3 t = (stateAt m c t.val t.isLt).o3 := by dsimp only [dats]
theorem after_o4 (c : Dev nD) (t : Fin cfg0.N) : (dats m 0 c).after 4 t = (stateAt m c t.val t.isLt).o4 := by dsimp only [dats]

/-- The input's current staging buffer holds its block at every point. -/
theorem before_in (c : Dev nD) (t : Fin cfg0.N) (d) : (dats m 0 c).before 0 t d = iblk m c 0 t :=
  before_in_of m (dats m 0 c) (A_eq m c 0) (after_in m c) t d

/-! ## The body at a generic point -/

/-- What the body is called with at point t, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t)

set_option maxHeartbeats 4800000 in
/-- The body at a first-band point. The input's buffer holds its block; the invariant hands the run the accumulators (at
    anything at the very first point, else at what the point before left: a new batch band overwrites them) and takes
    them back at this point's contents; the output buffers pass through untouched. -/
theorem sound_first (c : Dev nD) (t : Fin cfg0.N) (h0 : t.val % 8 = 0) :
    bodyPre m c t ⊢ wp frame (wpE (defs₀ (F := F)) Variants.none c none) Set.univ (bodyAt0 t) (fun _ => bodyPost m c t) := by
  unfold bodyPre bodyPost bodyAt0
  simp only [before_in]
  rw [show (dats m 0 c).owesAt () t.succ = (dats m 0 c).owesAt () t.castSucc from rfl]
  rw [show (dats m 0 c).Φ t.succ = PhiS m c (t.val + 1) t.isLt from rfl, PhiS_succ]
  rw [show (dats m 0 c).leavesExact 0 t = owns (c : Thread nD τ) (ms0 t) fullShare ((dats m 0 c).after 0 t) from by
    unfold Dat.leavesExact; rw [live_in t], after_in]
  have hf : isFirst (grid0.coords t) := (isFirst_iff t).mpr h0
  have hl : ¬isLast (grid0.coords t) := notLast_of t (by omega)
  rw [Dat.leavesExact_idle (dats m 0 c) 1 t (idle_out 1 (by decide) t hl) (noFlush_out 1 (by decide) t hl),
    Dat.leavesExact_idle (dats m 0 c) 2 t (idle_out 2 (by decide) t hl) (noFlush_out 2 (by decide) t hl),
    Dat.leavesExact_idle (dats m 0 c) 3 t (idle_out 3 (by decide) t hl) (noFlush_out 3 (by decide) t hl),
    Dat.leavesExact_idle (dats m 0 c) 4 t (idle_out 4 (by decide) t hl) (noFlush_out 4 (by decide) t hl)]
  rw [stateAt_first m c t h0]
  unfold afterFirst; (try dsimp only)
  by_cases hz : t.val = 0
  · rw [PhiS_castSucc m c t, PhiS_zero m c _ _ hz, PhiA_eq]
    iintro ⟨⟨⟨HS0, HS1, HS2, HS3⟩, Hg⟩, Ho, ⟨%d0, H0⟩, H1, H2, H3, H4⟩
    iapply ((firstAt c t hf hl (iblk m c 0 t)).2.2.2.2 Set.univ _)
    isplitl [H0]; · iexact H0
    isplitl [HS0]; · iexact HS0
    isplitl [HS1]; · iexact HS1
    isplitl [HS2]; · iexact HS2
    isplitl [HS3]; · iexact HS3
    iintro ⟨H0, ⟨%e0, HS0⟩, ⟨%e1, HS1⟩, ⟨%e2, HS2⟩, ⟨%e3, HS3⟩⟩
    isplitl [HS0 HS1 HS2 HS3 Hg]
    · isplitr [Hg]
      · isplitl [HS0]
        · unfold owns; iexists _; isplitr
          swap; · iexact HS0
          ipureintro; exact View.read_writes_of_cover _ _ _ _ _ (fun y => cover_first_s c t _ y hf hl)
        isplitl [HS1]
        · unfold owns; iexists _; isplitr
          swap; · iexact HS1
          ipureintro; exact View.read_writes_of_cover _ _ _ _ _ (fun y => cover_first_q c t _ y hf hl)
        isplitl [HS2]
        · unfold owns; iexists _; isplitr
          swap; · iexact HS2
          ipureintro; exact View.read_writes_of_cover _ _ _ _ _ (fun y => cover_first_mx c t _ y hf hl)
        unfold owns; iexists _; isplitr
        swap; · iexact HS3
        ipureintro; exact View.read_writes_of_cover _ _ _ _ _ (fun y => cover_first_mn c t _ y hf hl)
      iexact Hg
    isplitl [Ho]; · iexact Ho
    isplitl [H0]; · iexact H0
    isplitl [H1]; · iexact H1
    isplitl [H2]; · iexact H2
    isplitl [H3]; · iexact H3
    iexact H4
  · rw [PhiS_castSucc m c t, PhiS_pos m c _ _ hz]
    iintro ⟨⟨⟨HS0, HS1, HS2, HS3⟩, Hg⟩, Ho, ⟨%d0, H0⟩, H1, H2, H3, H4⟩
    iapply ((firstAt c t hf hl (iblk m c 0 t)).2.2.2.2 Set.univ _)
    isplitl [H0]; · iexact H0
    isplitl [HS0]; · iexists _; iexact HS0
    isplitl [HS1]; · iexists _; iexact HS1
    isplitl [HS2]; · iexists _; iexact HS2
    isplitl [HS3]; · iexists _; iexact HS3
    iintro ⟨H0, ⟨%e0, HS0⟩, ⟨%e1, HS1⟩, ⟨%e2, HS2⟩, ⟨%e3, HS3⟩⟩
    isplitl [HS0 HS1 HS2 HS3 Hg]
    · isplitr [Hg]
      · isplitl [HS0]
        · unfold owns; iexists _; isplitr
          swap; · iexact HS0
          ipureintro; exact View.read_writes_of_cover _ _ _ _ _ (fun y => cover_first_s c t _ y hf hl)
        isplitl [HS1]
        · unfold owns; iexists _; isplitr
          swap; · iexact HS1
          ipureintro; exact View.read_writes_of_cover _ _ _ _ _ (fun y => cover_first_q c t _ y hf hl)
        isplitl [HS2]
        · unfold owns; iexists _; isplitr
          swap; · iexact HS2
          ipureintro; exact View.read_writes_of_cover _ _ _ _ _ (fun y => cover_first_mx c t _ y hf hl)
        unfold owns; iexists _; isplitr
        swap; · iexact HS3
        ipureintro; exact View.read_writes_of_cover _ _ _ _ _ (fun y => cover_first_mn c t _ y hf hl)
      iexact Hg
    isplitl [Ho]; · iexact Ho
    isplitl [H0]; · iexact H0
    isplitl [H1]; · iexact H1
    isplitl [H2]; · iexact H2
    isplitl [H3]; · iexact H3
    iexact H4

set_option maxHeartbeats 4800000 in
/-- The body at a last-band point. The accumulators enter at what the point before left and leave at this point's
    contents; the four output buffers come back at their finished blocks. -/
theorem sound_last (c : Dev nD) (t : Fin cfg0.N) (h0 : ¬t.val % 8 = 0) (h7 : t.val % 8 = 7) :
    bodyPre m c t ⊢ wp frame (wpE (defs₀ (F := F)) Variants.none c none) Set.univ (bodyAt0 t) (fun _ => bodyPost m c t) := by
  unfold bodyPre bodyPost bodyAt0
  simp only [before_in]
  rw [show (dats m 0 c).owesAt () t.succ = (dats m 0 c).owesAt () t.castSucc from rfl]
  rw [show (dats m 0 c).Φ t.succ = PhiS m c (t.val + 1) t.isLt from rfl, PhiS_succ]
  rw [show (dats m 0 c).leavesExact 0 t = owns (c : Thread nD τ) (ms0 t) fullShare ((dats m 0 c).after 0 t) from by
    unfold Dat.leavesExact; rw [live_in t], after_in]
  have hf : ¬isFirst (grid0.coords t) := notFirst_of t h0
  have hz : t.val ≠ 0 := fun hz => h0 (by rw [hz])
  have hl : isLast (grid0.coords t) := (isLast_iff t).mpr h7
  rw [show (dats m 0 c).leavesExact 1 t = owns (c : Thread nD τ) (ms1 t) fullShare ((dats m 0 c).after 1 t) from by
      unfold Dat.leavesExact; rw [live_out 1 t hl], after_o1,
    show (dats m 0 c).leavesExact 2 t = owns (c : Thread nD τ) (ms2 t) fullShare ((dats m 0 c).after 2 t) from by
      unfold Dat.leavesExact; rw [live_out 2 t hl], after_o2,
    show (dats m 0 c).leavesExact 3 t = owns (c : Thread nD τ) (ms3 t) fullShare ((dats m 0 c).after 3 t) from by
      unfold Dat.leavesExact; rw [live_out 3 t hl], after_o3,
    show (dats m 0 c).leavesExact 4 t = owns (c : Thread nD τ) (ms4 t) fullShare ((dats m 0 c).after 4 t) from by
      unfold Dat.leavesExact; rw [live_out 4 t hl], after_o4]
  rw [PhiS_castSucc m c t, PhiS_pos m c _ _ hz]
  rw [stateAt_last m c t h0 h7]
  unfold afterLast; (try dsimp only)
  iintro ⟨⟨⟨HS0, HS1, HS2, HS3⟩, Hg⟩, Ho, ⟨%d0, H0⟩, ⟨%d1, H1⟩, ⟨%d2, H2⟩, ⟨%d3, H3⟩, ⟨%d4, H4⟩⟩
  iapply ((lastAt c t hf hl (iblk m c 0 t) (stateAt m c (t.val - 1) (Nat.lt_of_le_of_lt (Nat.sub_le _ _) t.isLt))).2.2.2.2.2.2.2.2 Set.univ _)
  isplitl [H0]; · iexact H0
  isplitl [H1]; · iexists _; iexact H1
  isplitl [H2]; · iexists _; iexact H2
  isplitl [H3]; · iexists _; iexact H3
  isplitl [H4]; · iexists _; iexact H4
  isplitl [HS0]; · iexact HS0
  isplitl [HS1]; · iexact HS1
  isplitl [HS2]; · iexact HS2
  isplitl [HS3]; · iexact HS3
  iintro ⟨H0, ⟨%g1, H1⟩, ⟨%g2, H2⟩, ⟨%g3, H3⟩, ⟨%g4, H4⟩, ⟨%e0, HS0⟩, ⟨%e1, HS1⟩, ⟨%e2, HS2⟩, ⟨%e3, HS3⟩⟩
  isplitl [HS0 HS1 HS2 HS3 Hg]
  · isplitr [Hg]
    · isplitl [HS0]
      · unfold owns; iexists _; isplitr
        swap; · iexact HS0
        ipureintro; exact View.read_writes_of_cover _ _ _ _ _ (fun y => cover_last_s c t _ _ y hf hl)
      isplitl [HS1]
      · unfold owns; iexists _; isplitr
        swap; · iexact HS1
        ipureintro; exact View.read_writes_of_cover _ _ _ _ _ (fun y => cover_last_q c t _ _ y hf hl)
      isplitl [HS2]
      · unfold owns; iexists _; isplitr
        swap; · iexact HS2
        ipureintro; exact View.read_writes_of_cover _ _ _ _ _ (fun y => cover_last_mx c t _ _ y hf hl)
      unfold owns; iexists _; isplitr
      swap; · iexact HS3
      ipureintro; exact View.read_writes_of_cover _ _ _ _ _ (fun y => cover_last_mn c t _ _ y hf hl)
    iexact Hg
  isplitl [Ho]; · iexact Ho
  isplitl [H0]; · iexact H0
  isplitl [H1]
  · unfold owns; iexists _; isplitr
    swap; · iexact H1
    ipureintro; exact View.read_writes_of_cover _ _ _ _ _ (fun y => cover_last_o1 c t _ _ y hf hl)
  isplitl [H2]
  · unfold owns; iexists _; isplitr
    swap; · iexact H2
    ipureintro; exact View.read_writes_of_cover _ _ _ _ _ (fun y => cover_last_o2 c t _ _ y hf hl)
  isplitl [H3]
  · unfold owns; iexists _; isplitr
    swap; · iexact H3
    ipureintro; exact View.read_writes_of_cover _ _ _ _ _ (fun y => cover_last_o3 c t _ _ y hf hl)
  unfold owns; iexists _; isplitr
  swap; · iexact H4
  ipureintro; exact View.read_writes_of_cover _ _ _ _ _ (fun y => cover_last_o4 c t _ _ y hf hl)

set_option maxHeartbeats 4800000 in
/-- The body at a middle-band point. The accumulators enter at what the point before left and leave at this point's
    contents; the output buffers pass through untouched. -/
theorem sound_mid (c : Dev nD) (t : Fin cfg0.N) (h0 : ¬t.val % 8 = 0) (h7 : ¬t.val % 8 = 7) :
    bodyPre m c t ⊢ wp frame (wpE (defs₀ (F := F)) Variants.none c none) Set.univ (bodyAt0 t) (fun _ => bodyPost m c t) := by
  unfold bodyPre bodyPost bodyAt0
  simp only [before_in]
  rw [show (dats m 0 c).owesAt () t.succ = (dats m 0 c).owesAt () t.castSucc from rfl]
  rw [show (dats m 0 c).Φ t.succ = PhiS m c (t.val + 1) t.isLt from rfl, PhiS_succ]
  rw [show (dats m 0 c).leavesExact 0 t = owns (c : Thread nD τ) (ms0 t) fullShare ((dats m 0 c).after 0 t) from by
    unfold Dat.leavesExact; rw [live_in t], after_in]
  have hf : ¬isFirst (grid0.coords t) := notFirst_of t h0
  have hz : t.val ≠ 0 := fun hz => h0 (by rw [hz])
  have hl : ¬isLast (grid0.coords t) := notLast_of t h7
  rw [Dat.leavesExact_idle (dats m 0 c) 1 t (idle_out 1 (by decide) t hl) (noFlush_out 1 (by decide) t hl),
    Dat.leavesExact_idle (dats m 0 c) 2 t (idle_out 2 (by decide) t hl) (noFlush_out 2 (by decide) t hl),
    Dat.leavesExact_idle (dats m 0 c) 3 t (idle_out 3 (by decide) t hl) (noFlush_out 3 (by decide) t hl),
    Dat.leavesExact_idle (dats m 0 c) 4 t (idle_out 4 (by decide) t hl) (noFlush_out 4 (by decide) t hl)]
  rw [PhiS_castSucc m c t, PhiS_pos m c _ _ hz]
  rw [stateAt_mid m c t h0 h7]
  unfold afterMid; (try dsimp only)
  iintro ⟨⟨⟨HS0, HS1, HS2, HS3⟩, Hg⟩, Ho, ⟨%d0, H0⟩, H1, H2, H3, H4⟩
  iapply ((midAt c t hf hl (iblk m c 0 t) (stateAt m c (t.val - 1) (Nat.lt_of_le_of_lt (Nat.sub_le _ _) t.isLt))).2.2.2.2 Set.univ _)
  isplitl [H0]; · iexact H0
  isplitl [HS0]; · iexact HS0
  isplitl [HS1]; · iexact HS1
  isplitl [HS2]; · iexact HS2
  isplitl [HS3]; · iexact HS3
  iintro ⟨H0, ⟨%e0, HS0⟩, ⟨%e1, HS1⟩, ⟨%e2, HS2⟩, ⟨%e3, HS3⟩⟩
  isplitl [HS0 HS1 HS2 HS3 Hg]
  · isplitr [Hg]
    · isplitl [HS0]
      · unfold owns; iexists _; isplitr
        swap; · iexact HS0
        ipureintro; exact View.read_writes_of_cover _ _ _ _ _ (fun y => cover_mid_s c t _ _ y hf hl)
      isplitl [HS1]
      · unfold owns; iexists _; isplitr
        swap; · iexact HS1
        ipureintro; exact View.read_writes_of_cover _ _ _ _ _ (fun y => cover_mid_q c t _ _ y hf hl)
      isplitl [HS2]
      · unfold owns; iexists _; isplitr
        swap; · iexact HS2
        ipureintro; exact View.read_writes_of_cover _ _ _ _ _ (fun y => cover_mid_mx c t _ _ y hf hl)
      unfold owns; iexists _; isplitr
      swap; · iexact HS3
      ipureintro; exact View.read_writes_of_cover _ _ _ _ _ (fun y => cover_mid_mn c t _ _ y hf hl)
    iexact Hg
  isplitl [Ho]; · iexact Ho
  isplitl [H0]; · iexact H0
  isplitl [H1]; · iexact H1
  isplitl [H2]; · iexact H2
  isplitl [H3]; · iexact H3
  iexact H4

/-- The body at any point: t mod 8 says which band the point is in. -/
theorem sound_body (c : Dev nD) (t : Fin cfg0.N) :
    bodyPre m c t ⊢ wp frame (wpE (defs₀ (F := F)) Variants.none c none) Set.univ (bodyAt0 t) (fun _ => bodyPost m c t) := by
  by_cases h0 : t.val % 8 = 0
  · exact sound_first m c t h0
  · by_cases h7 : t.val % 8 = 7
    · exact sound_last m c t h0 h7
    · exact sound_mid m c t h0 h7

/-- The body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After the last point the invariant gives it back: the accumulators' named contents are forgotten. -/
theorem hout (c : Dev nD) : (dats m 0 c).Φ (Fin.last cfg0.N) ⊢ Pipeline.ΦA spec0 c := by
  have hne : (Fin.last cfg0.N).val ≠ 0 := by rw [Fin.val_last]; have : cfg0.N = 32 := N_0; omega
  rw [show (dats m 0 c).Φ (Fin.last cfg0.N) = PhiS m c (Fin.last cfg0.N).val (Nat.le_of_lt_succ (Fin.last cfg0.N).isLt) from rfl,
    PhiS_pos m c _ _ hne, PhiA_eq]
  iintro ⟨⟨HS0, HS1, HS2, HS3⟩, Hg⟩
  isplitr [Hg]
  · isplitl [HS0]; · iexists _; iexact HS0
    isplitl [HS1]; · iexists _; iexact HS1
    isplitl [HS2]; · iexists _; iexact HS2
    iexists _; iexact HS3
  iexact Hg

/-! ## The run and the frame -/

set_option backward.isDefEq.respectTransparency.types false in
/-- From any memory with zero counters every weakly fair execution of the main function terminates, each array of the
    region ending at what the proof data computes and the result buffer at the host line's value of them. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := tail_sub) (hfresh := tail_noalloc) (hkeep := tail_keeps)
    (hmain := hmain m Variants.none) (hA := A_eq m) (hin := hin m) (hout := hout m)

/-- THE FRAME: the main function runs to the end, nothing faults, and the input array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  frame_of m ρ (dats m) (A_eq m) (run_main m ρ)

end Cert.KernelIdeal.Pool

end
-- ==== Proof.IdealFrame.Pieces.lean ====
/-
  What each run leaves, in terms of the body's arithmetic.

  Every store of the body writes a whole [8, 16] buffer, so what a buffer holds after a run is the value of its last
  store; a load after a store reads that value back.  So after a first-band point each accumulator is its fold of the
  block over the reset value, after a middle or last band its fold of the block over what the point before left, and
  after a last band the output blocks are the body's final expressions of the NEW accumulators.
-/
import proofs.«163916_j23227183136952_1_alg».proof.Proof.IdealFrame.Frame
import Idealize.ShloMosaic.Lib.Pipeline.Value

-- membership in a rectangle of these extents is decided structurally, one coordinate at a time
set_option maxRecDepth 16384

noncomputable section

namespace Cert.KernelIdeal.Pool

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Every store and load of the body is at offset zero of its buffer -/

/-- The two offsets of a store or load of an [8, 16] buffer are zero. -/
private theorem offs2_zero : (![0, 0] : Fin 2 → Nat) = fun _ => 0 := funext fun a => by fin_cases a <;> rfl
/-- The four offsets of the load of the input block are zero. -/
private theorem offs4_zero : (![0, 0, 0, 0] : Fin 4 → Nat) = fun _ => 0 := funext fun a => by fin_cases a <;> rfl

/-! ## After a first-band point -/

theorem afterFirst_s (c : Dev nD) (t : Fin cfg0.N) (hf : isFirst (grid0.coords t)) (hl : ¬isLast (grid0.coords t)) (x0 : Vec F S8x16x64x512 .f32) : (afterFirst (F := F) c t hf hl x0).s = k0_pay8 x0 (k0_pay4 (F := F)) := by
  show VS.read (Elt F) (VS.writes (Elt F) VS.junk (firstAt c t hf hl x0).1) = _
  rw [View.read_writes_eq_canon _ _ _ (fun y => cover_first_s c t x0 y hf hl)]
  unfold firstAt runFirst
  dsimp only
  sl_unfold_words
  rw [View.canon_cons_unit_zero (S := S8x16) offs2_zero]
  simp only [View.readAt_eq_ld, (hs0 t).read_unread, (Memref.isWhole_whole cc0_scratch0).read_unread,
    (Memref.isWhole_whole cc0_scratch1).read_unread, (Memref.isWhole_whole cc0_scratch2).read_unread,
    (Memref.isWhole_whole cc0_scratch3).read_unread, View.readCov_unit_zero (S := S8x16) _ offs2_zero,
    View.ld_unit_zero (S := S8x16) offs2_zero, View.ld_unit_zero (S := S8x16x64x512) offs4_zero]
theorem afterFirst_q (c : Dev nD) (t : Fin cfg0.N) (hf : isFirst (grid0.coords t)) (hl : ¬isLast (grid0.coords t)) (x0 : Vec F S8x16x64x512 .f32) : (afterFirst (F := F) c t hf hl x0).q = k0_pay9 x0 (k0_pay5 (F := F)) := by
  show VQ.read (Elt F) (VQ.writes (Elt F) VQ.junk (firstAt c t hf hl x0).2.1) = _
  rw [View.read_writes_eq_canon _ _ _ (fun y => cover_first_q c t x0 y hf hl)]
  unfold firstAt runFirst
  dsimp only
  sl_unfold_words
  rw [View.canon_cons_unit_zero (S := S8x16) offs2_zero]
  simp only [View.readAt_eq_ld, (hs0 t).read_unread, (Memref.isWhole_whole cc0_scratch0).read_unread,
    (Memref.isWhole_whole cc0_scratch1).read_unread, (Memref.isWhole_whole cc0_scratch2).read_unread,
    (Memref.isWhole_whole cc0_scratch3).read_unread, View.readCov_unit_zero (S := S8x16) _ offs2_zero,
    View.ld_unit_zero (S := S8x16) offs2_zero, View.ld_unit_zero (S := S8x16x64x512) offs4_zero]
theorem afterFirst_mx (c : Dev nD) (t : Fin cfg0.N) (hf : isFirst (grid0.coords t)) (hl : ¬isLast (grid0.coords t)) (x0 : Vec F S8x16x64x512 .f32) : (afterFirst (F := F) c t hf hl x0).mx = k0_pay10 x0 (k0_pay6 (F := F)) := by
  show VHi.read (Elt F) (VHi.writes (Elt F) VHi.junk (firstAt c t hf hl x0).2.2.1) = _
  rw [View.read_writes_eq_canon _ _ _ (fun y => cover_first_mx c t x0 y hf hl)]
  unfold firstAt runFirst
  dsimp only
  sl_unfold_words
  rw [View.canon_cons_unit_zero (S := S8x16) offs2_zero]
  simp only [View.readAt_eq_ld, (hs0 t).read_unread, (Memref.isWhole_whole cc0_scratch0).read_unread,
    (Memref.isWhole_whole cc0_scratch1).read_unread, (Memref.isWhole_whole cc0_scratch2).read_unread,
    (Memref.isWhole_whole cc0_scratch3).read_unread, View.readCov_unit_zero (S := S8x16) _ offs2_zero,
    View.ld_unit_zero (S := S8x16) offs2_zero, View.ld_unit_zero (S := S8x16x64x512) offs4_zero]
theorem afterFirst_mn (c : Dev nD) (t : Fin cfg0.N) (hf : isFirst (grid0.coords t)) (hl : ¬isLast (grid0.coords t)) (x0 : Vec F S8x16x64x512 .f32) : (afterFirst (F := F) c t hf hl x0).mn = k0_pay1 (k0_pay11 x0 (k0_pay7 (F := F))) := by
  show VLo.read (Elt F) (VLo.writes (Elt F) VLo.junk (firstAt c t hf hl x0).2.2.2.1) = _
  rw [View.read_writes_eq_canon _ _ _ (fun y => cover_first_mn c t x0 y hf hl)]
  unfold firstAt runFirst
  dsimp only
  sl_unfold_words
  rw [View.canon_cons_unit_zero (S := S8x16) offs2_zero]
  simp only [View.readAt_eq_ld, (hs0 t).read_unread, (Memref.isWhole_whole cc0_scratch0).read_unread,
    (Memref.isWhole_whole cc0_scratch1).read_unread, (Memref.isWhole_whole cc0_scratch2).read_unread,
    (Memref.isWhole_whole cc0_scratch3).read_unread, View.readCov_unit_zero (S := S8x16) _ offs2_zero,
    View.ld_unit_zero (S := S8x16) offs2_zero, View.ld_unit_zero (S := S8x16x64x512) offs4_zero]

/-! ## After a middle-band point -/

theorem afterMid_s (c : Dev nD) (t : Fin cfg0.N) (hf : ¬isFirst (grid0.coords t)) (hl : ¬isLast (grid0.coords t)) (x0 : Vec F S8x16x64x512 .f32) (p : After F) : (afterMid c t hf hl x0 p).s = k0_pay8 x0 p.s := by
  show VS.read (Elt F) (VS.writes (Elt F) VS.junk (midAt c t hf hl x0 p).1) = _
  rw [View.read_writes_eq_canon _ _ _ (fun y => cover_mid_s c t x0 p y hf hl)]
  unfold midAt runMid
  dsimp only
  sl_unfold_words
  rw [View.canon_cons_unit_zero (S := S8x16) offs2_zero]
  simp only [View.readAt_eq_ld, (hs0 t).read_unread, (Memref.isWhole_whole cc0_scratch0).read_unread,
    (Memref.isWhole_whole cc0_scratch1).read_unread, (Memref.isWhole_whole cc0_scratch2).read_unread,
    (Memref.isWhole_whole cc0_scratch3).read_unread, View.readCov_unit_zero (S := S8x16) _ offs2_zero,
    View.ld_unit_zero (S := S8x16) offs2_zero, View.ld_unit_zero (S := S8x16x64x512) offs4_zero]
theorem afterMid_q (c : Dev nD) (t : Fin cfg0.N) (hf : ¬isFirst (grid0.coords t)) (hl : ¬isLast (grid0.coords t)) (x0 : Vec F S8x16x64x512 .f32) (p : After F) : (afterMid c t hf hl x0 p).q = k0_pay9 x0 p.q := by
  show VQ.read (Elt F) (VQ.writes (Elt F) VQ.junk (midAt c t hf hl x0 p).2.1) = _
  rw [View.read_writes_eq_canon _ _ _ (fun y => cover_mid_q c t x0 p y hf hl)]
  unfold midAt runMid
  dsimp only
  sl_unfold_words
  rw [View.canon_cons_unit_zero (S := S8x16) offs2_zero]
  simp only [View.readAt_eq_ld, (hs0 t).read_unread, (Memref.isWhole_whole cc0_scratch0).read_unread,
    (Memref.isWhole_whole cc0_scratch1).read_unread, (Memref.isWhole_whole cc0_scratch2).read_unread,
    (Memref.isWhole_whole cc0_scratch3).read_unread, View.readCov_unit_zero (S := S8x16) _ offs2_zero,
    View.ld_unit_zero (S := S8x16) offs2_zero, View.ld_unit_zero (S := S8x16x64x512) offs4_zero]
theorem afterMid_mx (c : Dev nD) (t : Fin cfg0.N) (hf : ¬isFirst (grid0.coords t)) (hl : ¬isLast (grid0.coords t)) (x0 : Vec F S8x16x64x512 .f32) (p : After F) : (afterMid c t hf hl x0 p).mx = k0_pay10 x0 p.mx := by
  show VHi.read (Elt F) (VHi.writes (Elt F) VHi.junk (midAt c t hf hl x0 p).2.2.1) = _
  rw [View.read_writes_eq_canon _ _ _ (fun y => cover_mid_mx c t x0 p y hf hl)]
  unfold midAt runMid
  dsimp only
  sl_unfold_words
  rw [View.canon_cons_unit_zero (S := S8x16) offs2_zero]
  simp only [View.readAt_eq_ld, (hs0 t).read_unread, (Memref.isWhole_whole cc0_scratch0).read_unread,
    (Memref.isWhole_whole cc0_scratch1).read_unread, (Memref.isWhole_whole cc0_scratch2).read_unread,
    (Memref.isWhole_whole cc0_scratch3).read_unread, View.readCov_unit_zero (S := S8x16) _ offs2_zero,
    View.ld_unit_zero (S := S8x16) offs2_zero, View.ld_unit_zero (S := S8x16x64x512) offs4_zero]
theorem afterMid_mn (c : Dev nD) (t : Fin cfg0.N) (hf : ¬isFirst (grid0.coords t)) (hl : ¬isLast (grid0.coords t)) (x0 : Vec F S8x16x64x512 .f32) (p : After F) : (afterMid c t hf hl x0 p).mn = k0_pay1 (k0_pay11 x0 p.mn) := by
  show VLo.read (Elt F) (VLo.writes (Elt F) VLo.junk (midAt c t hf hl x0 p).2.2.2.1) = _
  rw [View.read_writes_eq_canon _ _ _ (fun y => cover_mid_mn c t x0 p y hf hl)]
  unfold midAt runMid
  dsimp only
  sl_unfold_words
  rw [View.canon_cons_unit_zero (S := S8x16) offs2_zero]
  simp only [View.readAt_eq_ld, (hs0 t).read_unread, (Memref.isWhole_whole cc0_scratch0).read_unread,
    (Memref.isWhole_whole cc0_scratch1).read_unread, (Memref.isWhole_whole cc0_scratch2).read_unread,
    (Memref.isWhole_whole cc0_scratch3).read_unread, View.readCov_unit_zero (S := S8x16) _ offs2_zero,
    View.ld_unit_zero (S := S8x16) offs2_zero, View.ld_unit_zero (S := S8x16x64x512) offs4_zero]

/-! ## After a last-band point -/

theorem afterLast_s (c : Dev nD) (t : Fin cfg0.N) (hf : ¬isFirst (grid0.coords t)) (hl : isLast (grid0.coords t)) (x0 : Vec F S8x16x64x512 .f32) (p : After F) : (afterLast c t hf hl x0 p).s = k0_pay8 x0 p.s := by
  show VS.read (Elt F) (VS.writes (Elt F) VS.junk (lastAt c t hf hl x0 p).2.2.2.2.1) = _
  rw [View.read_writes_eq_canon _ _ _ (fun y => cover_last_s c t x0 p y hf hl)]
  unfold lastAt runLast
  dsimp only
  sl_unfold_words
  rw [View.canon_cons_unit_zero (S := S8x16) offs2_zero]
  simp only [View.readAt_eq_ld, (hs0 t).read_unread, (Memref.isWhole_whole cc0_scratch0).read_unread,
    (Memref.isWhole_whole cc0_scratch1).read_unread, (Memref.isWhole_whole cc0_scratch2).read_unread,
    (Memref.isWhole_whole cc0_scratch3).read_unread, View.readCov_unit_zero (S := S8x16) _ offs2_zero,
    View.ld_unit_zero (S := S8x16) offs2_zero, View.ld_unit_zero (S := S8x16x64x512) offs4_zero]
theorem afterLast_q (c : Dev nD) (t : Fin cfg0.N) (hf : ¬isFirst (grid0.coords t)) (hl : isLast (grid0.coords t)) (x0 : Vec F S8x16x64x512 .f32) (p : After F) : (afterLast c t hf hl x0 p).q = k0_pay9 x0 p.q := by
  show VQ.read (Elt F) (VQ.writes (Elt F) VQ.junk (lastAt c t hf hl x0 p).2.2.2.2.2.1) = _
  rw [View.read_writes_eq_canon _ _ _ (fun y => cover_last_q c t x0 p y hf hl)]
  unfold lastAt runLast
  dsimp only
  sl_unfold_words
  rw [View.canon_cons_unit_zero (S := S8x16) offs2_zero]
  simp only [View.readAt_eq_ld, (hs0 t).read_unread, (Memref.isWhole_whole cc0_scratch0).read_unread,
    (Memref.isWhole_whole cc0_scratch1).read_unread, (Memref.isWhole_whole cc0_scratch2).read_unread,
    (Memref.isWhole_whole cc0_scratch3).read_unread, View.readCov_unit_zero (S := S8x16) _ offs2_zero,
    View.ld_unit_zero (S := S8x16) offs2_zero, View.ld_unit_zero (S := S8x16x64x512) offs4_zero]
theorem afterLast_mx (c : Dev nD) (t : Fin cfg0.N) (hf : ¬isFirst (grid0.coords t)) (hl : isLast (grid0.coords t)) (x0 : Vec F S8x16x64x512 .f32) (p : After F) : (afterLast c t hf hl x0 p).mx = k0_pay10 x0 p.mx := by
  show VHi.read (Elt F) (VHi.writes (Elt F) VHi.junk (lastAt c t hf hl x0 p).2.2.2.2.2.2.1) = _
  rw [View.read_writes_eq_canon _ _ _ (fun y => cover_last_mx c t x0 p y hf hl)]
  unfold lastAt runLast
  dsimp only
  sl_unfold_words
  rw [View.canon_cons_unit_zero (S := S8x16) offs2_zero]
  simp only [View.readAt_eq_ld, (hs0 t).read_unread, (Memref.isWhole_whole cc0_scratch0).read_unread,
    (Memref.isWhole_whole cc0_scratch1).read_unread, (Memref.isWhole_whole cc0_scratch2).read_unread,
    (Memref.isWhole_whole cc0_scratch3).read_unread, View.readCov_unit_zero (S := S8x16) _ offs2_zero,
    View.ld_unit_zero (S := S8x16) offs2_zero, View.ld_unit_zero (S := S8x16x64x512) offs4_zero]
theorem afterLast_mn (c : Dev nD) (t : Fin cfg0.N) (hf : ¬isFirst (grid0.coords t)) (hl : isLast (grid0.coords t)) (x0 : Vec F S8x16x64x512 .f32) (p : After F) : (afterLast c t hf hl x0 p).mn = k0_pay1 (k0_pay11 x0 p.mn) := by
  show VLo.read (Elt F) (VLo.writes (Elt F) VLo.junk (lastAt c t hf hl x0 p).2.2.2.2.2.2.2.1) = _
  rw [View.read_writes_eq_canon _ _ _ (fun y => cover_last_mn c t x0 p y hf hl)]
  unfold lastAt runLast
  dsimp only
  sl_unfold_words
  rw [View.canon_cons_unit_zero (S := S8x16) offs2_zero]
  simp only [View.readAt_eq_ld, (hs0 t).read_unread, (Memref.isWhole_whole cc0_scratch0).read_unread,
    (Memref.isWhole_whole cc0_scratch1).read_unread, (Memref.isWhole_whole cc0_scratch2).read_unread,
    (Memref.isWhole_whole cc0_scratch3).read_unread, View.readCov_unit_zero (S := S8x16) _ offs2_zero,
    View.ld_unit_zero (S := S8x16) offs2_zero, View.ld_unit_zero (S := S8x16x64x512) offs4_zero]
theorem afterLast_o1 (c : Dev nD) (t : Fin cfg0.N) (hf : ¬isFirst (grid0.coords t)) (hl : isLast (grid0.coords t)) (x0 : Vec F S8x16x64x512 .f32) (p : After F) : (afterLast c t hf hl x0 p).o1 = k0_pay2 (k0_pay8 x0 p.s) := by
  show VO1.read (Elt F) (VO1.writes (Elt F) VO1.junk (lastAt c t hf hl x0 p).1) = _
  rw [View.read_writes_eq_canon _ _ _ (fun y => cover_last_o1 c t x0 p y hf hl)]
  unfold lastAt runLast
  dsimp only
  sl_unfold_words
  rw [View.canon_cons_unit_zero (S := S8x16) offs2_zero]
  simp only [View.readAt_eq_ld, (hs0 t).read_unread, (Memref.isWhole_whole cc0_scratch0).read_unread,
    (Memref.isWhole_whole cc0_scratch1).read_unread, (Memref.isWhole_whole cc0_scratch2).read_unread,
    (Memref.isWhole_whole cc0_scratch3).read_unread, View.readCov_unit_zero (S := S8x16) _ offs2_zero,
    View.ld_unit_zero (S := S8x16) offs2_zero, View.ld_unit_zero (S := S8x16x64x512) offs4_zero]
theorem afterLast_o2 (c : Dev nD) (t : Fin cfg0.N) (hf : ¬isFirst (grid0.coords t)) (hl : isLast (grid0.coords t)) (x0 : Vec F S8x16x64x512 .f32) (p : After F) : (afterLast c t hf hl x0 p).o2 = k0_pay3 (k0_pay9 x0 p.q) (k0_pay8 x0 p.s) := by
  show VO2.read (Elt F) (VO2.writes (Elt F) VO2.junk (lastAt c t hf hl x0 p).2.1) = _
  rw [View.read_writes_eq_canon _ _ _ (fun y => cover_last_o2 c t x0 p y hf hl)]
  unfold lastAt runLast
  dsimp only
  sl_unfold_words
  rw [View.canon_cons_unit_zero (S := S8x16) offs2_zero]
  simp only [View.readAt_eq_ld, (hs0 t).read_unread, (Memref.isWhole_whole cc0_scratch0).read_unread,
    (Memref.isWhole_whole cc0_scratch1).read_unread, (Memref.isWhole_whole cc0_scratch2).read_unread,
    (Memref.isWhole_whole cc0_scratch3).read_unread, View.readCov_unit_zero (S := S8x16) _ offs2_zero,
    View.ld_unit_zero (S := S8x16) offs2_zero, View.ld_unit_zero (S := S8x16x64x512) offs4_zero]
theorem afterLast_o3 (c : Dev nD) (t : Fin cfg0.N) (hf : ¬isFirst (grid0.coords t)) (hl : isLast (grid0.coords t)) (x0 : Vec F S8x16x64x512 .f32) (p : After F) : (afterLast c t hf hl x0 p).o3 = k0_pay10 x0 p.mx := by
  show VO3.read (Elt F) (VO3.writes (Elt F) VO3.junk (lastAt c t hf hl x0 p).2.2.1) = _
  rw [View.read_writes_eq_canon _ _ _ (fun y => cover_last_o3 c t x0 p y hf hl)]
  unfold lastAt runLast
  dsimp only
  sl_unfold_words
  rw [View.canon_cons_unit_zero (S := S8x16) offs2_zero]
  simp only [View.readAt_eq_ld, (hs0 t).read_unread, (Memref.isWhole_whole cc0_scratch0).read_unread,
    (Memref.isWhole_whole cc0_scratch1).read_unread, (Memref.isWhole_whole cc0_scratch2).read_unread,
    (Memref.isWhole_whole cc0_scratch3).read_unread, View.readCov_unit_zero (S := S8x16) _ offs2_zero,
    View.ld_unit_zero (S := S8x16) offs2_zero, View.ld_unit_zero (S := S8x16x64x512) offs4_zero]
theorem afterLast_o4 (c : Dev nD) (t : Fin cfg0.N) (hf : ¬isFirst (grid0.coords t)) (hl : isLast (grid0.coords t)) (x0 : Vec F S8x16x64x512 .f32) (p : After F) : (afterLast c t hf hl x0 p).o4 = k0_pay1 (k0_pay11 x0 p.mn) := by
  show VO4.read (Elt F) (VO4.writes (Elt F) VO4.junk (lastAt c t hf hl x0 p).2.2.2.1) = _
  rw [View.read_writes_eq_canon _ _ _ (fun y => cover_last_o4 c t x0 p y hf hl)]
  unfold lastAt runLast
  dsimp only
  sl_unfold_words
  rw [View.canon_cons_unit_zero (S := S8x16) offs2_zero]
  simp only [View.readAt_eq_ld, (hs0 t).read_unread, (Memref.isWhole_whole cc0_scratch0).read_unread,
    (Memref.isWhole_whole cc0_scratch1).read_unread, (Memref.isWhole_whole cc0_scratch2).read_unread,
    (Memref.isWhole_whole cc0_scratch3).read_unread, View.readCov_unit_zero (S := S8x16) _ offs2_zero,
    View.ld_unit_zero (S := S8x16) offs2_zero, View.ld_unit_zero (S := S8x16x64x512) offs4_zero]

end Cert.KernelIdeal.Pool

end
-- ==== Proof.Spec.lean ====
/-
  What both programs compute, as functions of the input array x : [32, 16, 512, 512].

  For each batch row b and channel c the 512 × 512 spatial positions of x[b, c] are summarised by four
  numbers: their mean, their unbiased standard deviation, their maximum and their minimum.  With
  S = Σ x, Q = Σ x², n = 512·512 = 262144, the mean is S / n and the deviation is
  √((Q − S·S / n) / (n − 1)); over finite reals Q − S·S / n = Σ (x − S / n)², the centred sum of squares.
  The four [32, 16] tables stand side by side in the [32, 64] result.

  The divisors enter as the f32 words the programs carry (2^18 and 2^18 − 1, both exact in f32), the
  extrema start from the words of −∞ and +∞.
-/
import Idealize.ShloMosaic.PureOps.Ideal
import Idealize.ShloMosaic.PureOps
import Idealize.ShloMosaic.Lib.ValueIdx

noncomputable section

namespace Cert.Stats

open Idealize.ShloMosaic Idealize.ShloMosaic.ValueIdx

/-- The input's shape, the shape of one table of statistics, and the result's. -/
abbrev SX : Shape := ⟨4, ![32, 16, 512, 512]⟩
abbrev ST : Shape := ⟨2, ![32, 16]⟩
abbrev SO : Shape := ⟨2, ![32, 64]⟩

/-- n = 262144, the number of spatial positions, as its f32 word. -/
def cnt : EReal := Ideal.ofBits .f32 0x48800000#32
/-- n − 1 = 262143, the unbiased divisor, as its f32 word. -/
def cntPred : EReal := Ideal.ofBits .f32 0x487FFFC0#32

/-- S: the sum of x[b, c] over its spatial positions. -/
def total (x : SX.Idx → EReal) (b : Fin 32) (c : Fin 16) : EReal :=
  ∑ h : Fin 512, ∑ w : Fin 512, x (ix4 b c h w)

/-- Q: the sum of the squares. -/
def totalSq (x : SX.Idx → EReal) (b : Fin 32) (c : Fin 16) : EReal :=
  ∑ h : Fin 512, ∑ w : Fin 512, x (ix4 b c h w) * x (ix4 b c h w)

/-- The largest entry of x[b, c], folded from −∞. -/
def top (x : SX.Idx → EReal) (b : Fin 32) (c : Fin 16) : EReal :=
  (Finset.univ : Finset (Fin 512 × Fin 512)).fold max (Ideal.ofBits .f32 0xFF800000#32) fun p => x (ix4 b c p.1 p.2)

/-- The smallest entry of x[b, c], folded from +∞. -/
def bot (x : SX.Idx → EReal) (b : Fin 32) (c : Fin 16) : EReal :=
  (Finset.univ : Finset (Fin 512 × Fin 512)).fold min (Ideal.ofBits .f32 0x7F800000#32) fun p => x (ix4 b c p.1 p.2)

/-- The table of means, S / n. -/
def meanT (x : SX.Idx → EReal) : ST.Idx → EReal := fun j =>
  Ideal.div (total x (j 0) (j 1)) cnt

/-- The table of unbiased deviations, √((Q − S·S / n) / (n − 1)). -/
def stdT (x : SX.Idx → EReal) : ST.Idx → EReal := fun j =>
  Ideal.sqrt (Ideal.div (totalSq x (j 0) (j 1) - Ideal.div (total x (j 0) (j 1) * total x (j 0) (j 1)) cnt) cntPred)

/-- The tables of maxima and of minima. -/
def topT (x : SX.Idx → EReal) : ST.Idx → EReal := fun j => top x (j 0) (j 1)
def botT (x : SX.Idx → EReal) : ST.Idx → EReal := fun j => bot x (j 0) (j 1)

/-- The four tables side by side: the [32, 64] result. -/
def sideBySide (hc : Shape.Concatenates [ST, ST, ST, ST] SO 1) (t0 t1 t2 t3 : ST.Idx → EReal) : SO.Idx → EReal :=
  concatenate SO 1 [⟨ST, t0⟩, ⟨ST, t1⟩, ⟨ST, t2⟩, ⟨ST, t3⟩] hc

/-- What both programs compute. -/
def stats (hc : Shape.Concatenates [ST, ST, ST, ST] SO 1) (x : SX.Idx → EReal) : SO.Idx → EReal :=
  sideBySide hc (meanT x) (stdT x) (topT x) (botT x)

end Cert.Stats

end
-- ==== Proof.LibReduce2.lean ====
/-
  Reductions of a rank-four array over its last two axes, read at an index, at the extended reals.

  For x : [A, B, H, W] and a result index (a, b):
  * the sum over axes 2 and 3 is the double sum  Σ_p Σ_q x[a, b, p, q]  (from the start value, for the host form);
  * the maximum / minimum over axes 2 and 3 is the fold of max / min over the pairs (p, q) from the start value.
  Both hold for the vector unit's multi-reduction and for the host's reduce, at any extents.

  And a sum or an extremum over 512 rows taken 64 rows at a time: the part over the first 64 (k + 1) rows is the
  part over the first 64 k rows combined with the k-th band of 64 rows.
-/
import Idealize.ShloMosaic.PureOps.Ideal.Laws
import Idealize.ShloMosaic.PureOps.Reduce
import Idealize.ShloMosaic.Lib.IdealHost
import Idealize.ShloMosaic.Lib.ValueIdx

noncomputable section

namespace Cert.LibReduce2

open Idealize.ShloMosaic Idealize.ShloMosaic.ValueIdx

variable {A B H W : Nat} {φ : FTy}

/-! ## The indices over a result index, when axes 2 and 3 of four are dropped -/

section Fibre

variable {M : Type}

/-- Of four axes, the ones other than 2 and 3 are 0 and 1, whatever the extents. -/
theorem kept_last2 (sz : Fin 4 → Nat) : (⟨4, sz⟩ : Shape).kept [2, 3] = [0, 1] := by
  show (List.finRange 4).filter (fun x => decide (x ∉ ([2, 3] : List (Fin 4)))) = [0, 1]
  decide

/-- Dropping axes 2 and 3 of a rank-four index keeps its first two coordinates. -/
theorem drop_last2 (h : (⟨4, ![A, B, H, W]⟩ : Shape).Reduces [2, 3] ⟨2, ![A, B]⟩)
    (i : (⟨4, ![A, B, H, W]⟩ : Shape).Idx) : h.drop i = ix2 (n0 := A) (n1 := B) (i 0) (i 1) := by
  funext c
  match c with
  | ⟨0, _⟩ =>
    exact Fin.ext (h.drop_apply_val_of_eq i 0 0 (by rw [kept_last2]; exact Nat.zero_lt_two)
      ((List.getElem_of_eq (kept_last2 _) _).trans rfl))
  | ⟨1, _⟩ =>
    exact Fin.ext (h.drop_apply_val_of_eq i 1 1 (by rw [kept_last2]; exact Nat.one_lt_two)
      ((List.getElem_of_eq (kept_last2 _) _).trans rfl))

/-- The host's shape condition gives the vector unit's at these shapes: the result has two axes. -/
theorem reduces_of_reducesTo (h : (⟨4, ![A, B, H, W]⟩ : Shape).ReducesTo [2, 3] ⟨2, ![A, B]⟩) :
    (⟨4, ![A, B, H, W]⟩ : Shape).Reduces [2, 3] ⟨2, ![A, B]⟩ := ⟨h.1, Nat.zero_lt_two, h.2⟩

/-- Two rank-two indices agree exactly when their coordinates do. -/
theorem ix2_eq_iff {a a' : Fin A} {b b' : Fin B} : ix2 a b = ix2 a' b' ↔ a = a' ∧ b = b' := by
  constructor
  · intro e
    exact ⟨congrFun e 0, congrFun e 1⟩
  · rintro ⟨rfl, rfl⟩; rfl

/-- An index drops to (a, b) exactly when its first two coordinates are a and b. -/
theorem mem_filter_drop_last2 (h : (⟨4, ![A, B, H, W]⟩ : Shape).Reduces [2, 3] ⟨2, ![A, B]⟩) (a : Fin A) (b : Fin B)
    [DecidablePred fun i : (⟨4, ![A, B, H, W]⟩ : Shape).Idx => h.drop i = ix2 a b] (i : (⟨4, ![A, B, H, W]⟩ : Shape).Idx) :
    i ∈ Finset.univ.filter (fun i => h.drop i = ix2 a b) ↔ (i 0 : Fin A) = a ∧ (i 1 : Fin B) = b := by
  rw [Finset.mem_filter, drop_last2 h i]
  exact (and_iff_right (Finset.mem_univ _)).trans ix2_eq_iff

/-- A sum over the indices whose first two coordinates are (a, b) is the double sum over the last two coordinates. -/
theorem sum_fibre_last2 [AddCommMonoid M] (S : Finset (⟨4, ![A, B, H, W]⟩ : Shape).Idx) (a : Fin A) (b : Fin B)
    (hS : ∀ i, i ∈ S ↔ (i 0 : Fin A) = a ∧ (i 1 : Fin B) = b) (x : (⟨4, ![A, B, H, W]⟩ : Shape).Idx → M) :
    ∑ i ∈ S, x i = ∑ p : Fin H, ∑ q : Fin W, x (ix4 a b p q) := by
  rw [← Fintype.sum_prod_type' (f := fun p q => x (ix4 a b p q))]
  refine Finset.sum_nbij' (fun i => ((i 2 : Fin H), (i 3 : Fin W))) (fun p => ix4 a b p.1 p.2) ?_ ?_ ?_ ?_ ?_
  · intro i _; exact Finset.mem_univ _
  · intro p _; exact (hS _).2 ⟨rfl, rfl⟩
  · intro i hi
    obtain ⟨h0, h1⟩ := (hS i).1 hi
    rw [← h0, ← h1]; exact (eq_ix4 i).symm
  · intro p _; rfl
  · intro i hi
    obtain ⟨h0, h1⟩ := (hS i).1 hi
    rw [← h0, ← h1]; exact congrArg x (eq_ix4 i)

/-- A fold of a commutative, associative operation over those indices is the fold over the pairs of last two
    coordinates. -/
theorem fold_fibre_last2 (op : M → M → M) [Std.Commutative op] [Std.Associative op]
    (S : Finset (⟨4, ![A, B, H, W]⟩ : Shape).Idx) (a : Fin A) (b : Fin B)
    (hS : ∀ i, i ∈ S ↔ (i 0 : Fin A) = a ∧ (i 1 : Fin B) = b) (init : M) (x : (⟨4, ![A, B, H, W]⟩ : Shape).Idx → M) :
    S.fold op init x = (Finset.univ : Finset (Fin H × Fin W)).fold op init fun p => x (ix4 a b p.1 p.2) := by
  classical
  have hSimg : S = Finset.univ.image (fun p : Fin H × Fin W => ix4 a b p.1 p.2) := by
    ext i
    rw [hS, Finset.mem_image]
    constructor
    · rintro ⟨h0, h1⟩
      exact ⟨((i 2 : Fin H), (i 3 : Fin W)), Finset.mem_univ _, by rw [← h0, ← h1]; exact (eq_ix4 i).symm⟩
    · rintro ⟨p, _, rfl⟩; exact ⟨rfl, rfl⟩
  rw [hSimg, Finset.fold_image (fun p _ p' _ e => Prod.ext (congrFun e 2) (congrFun e 3))]
  rfl

end Fibre

/-! ## Sums over the last two axes -/

theorem multiReduction_add_last2 (src : FVec Ideal ⟨4, ![A, B, H, W]⟩ φ) (acc : BitVec φ.bits)
    (h : (⟨4, ![A, B, H, W]⟩ : Shape).Reduces [2, 3] ⟨2, ![A, B]⟩) (hφ : FKind.Formats φ)
    (hacc : acc = FKind.add.neutral φ hφ) (a : Fin A) (b : Fin B) :
    multiReduction .add [2, 3] ⟨2, ![A, B]⟩ src acc h hφ hacc (ix2 a b) = ∑ p : Fin H, ∑ q : Fin W, src (ix4 a b p q) := by
  exact sum_fibre_last2 _ a b (mem_filter_drop_last2 h a b) src

theorem hostReduceAdd_last2 {u : Shape} (x : FVec Ideal ⟨4, ![A, B, H, W]⟩ φ) (init : FVec Ideal u φ)
    (h : (⟨4, ![A, B, H, W]⟩ : Shape).ReducesTo [2, 3] ⟨2, ![A, B]⟩) (hu : 0 < u.numel) (a : Fin A) (b : Fin B) :
    Host.reduceAdd x init h hu (ix2 a b) = init (Shape.Idx.first hu) + ∑ p : Fin H, ∑ q : Fin W, x (ix4 a b p q) := by
  rw [hostReduceAdd_apply]
  unfold Ideal.hostReduceAdd
  rw [Shape.ReducesTo.drop_eq_drop h (reduces_of_reducesTo h)]
  exact congrArg (init (Shape.Idx.first hu) + ·) (sum_fibre_last2 _ a b (mem_filter_drop_last2 (reduces_of_reducesTo h) a b) x)

/-! ## Extrema over the last two axes -/

theorem multiReduction_maximumf_last2 (src : FVec Ideal ⟨4, ![A, B, H, W]⟩ φ) (acc : BitVec φ.bits)
    (h : (⟨4, ![A, B, H, W]⟩ : Shape).Reduces [2, 3] ⟨2, ![A, B]⟩) (hφ : FKind.Formats φ)
    (hacc : acc = FKind.maximumf.neutral φ hφ) (a : Fin A) (b : Fin B) :
    multiReduction .maximumf [2, 3] ⟨2, ![A, B]⟩ src acc h hφ hacc (ix2 a b)
      = (Finset.univ : Finset (Fin H × Fin W)).fold max (Ideal.ofBits φ acc) fun p => src (ix4 a b p.1 p.2) := by
  refine (multiReduction_maximumf_eq_fold src acc h hφ hacc (ix2 a b)).trans ?_
  exact fold_fibre_last2 _ _ a b (mem_filter_drop_last2 h a b) _ src

theorem multiReduction_minimumf_last2 (src : FVec Ideal ⟨4, ![A, B, H, W]⟩ φ) (acc : BitVec φ.bits)
    (h : (⟨4, ![A, B, H, W]⟩ : Shape).Reduces [2, 3] ⟨2, ![A, B]⟩) (hφ : FKind.Formats φ)
    (hacc : acc = FKind.minimumf.neutral φ hφ) (a : Fin A) (b : Fin B) :
    multiReduction .minimumf [2, 3] ⟨2, ![A, B]⟩ src acc h hφ hacc (ix2 a b)
      = (Finset.univ : Finset (Fin H × Fin W)).fold min (Ideal.ofBits φ acc) fun p => src (ix4 a b p.1 p.2) := by
  refine (multiReduction_minimumf_eq_fold src acc h hφ hacc (ix2 a b)).trans ?_
  exact fold_fibre_last2 _ _ a b (mem_filter_drop_last2 h a b) _ src

theorem hostReduce_maximumf_last2 {u : Shape} (x : FVec Ideal ⟨4, ![A, B, H, W]⟩ φ) (init : FVec Ideal u φ)
    (h : (⟨4, ![A, B, H, W]⟩ : Shape).ReducesTo [2, 3] ⟨2, ![A, B]⟩) (hu : 0 < u.numel) (a : Fin A) (b : Fin B) :
    Host.reduce (FloatOps.maximumf (F := Ideal) (φ := φ)) x init h hu (ix2 a b)
      = (Finset.univ : Finset (Fin H × Fin W)).fold max (init (Shape.Idx.first hu)) fun p => x (ix4 a b p.1 p.2) := by
  refine (Host.reduce_eq_fold _ x init h hu (ix2 a b)).trans ?_
  rw [Shape.ReducesTo.drop_eq_drop h (reduces_of_reducesTo h)]
  exact fold_fibre_last2 _ _ a b (mem_filter_drop_last2 (reduces_of_reducesTo h) a b) _ x

theorem hostReduce_minimumf_last2 {u : Shape} (x : FVec Ideal ⟨4, ![A, B, H, W]⟩ φ) (init : FVec Ideal u φ)
    (h : (⟨4, ![A, B, H, W]⟩ : Shape).ReducesTo [2, 3] ⟨2, ![A, B]⟩) (hu : 0 < u.numel) (a : Fin A) (b : Fin B) :
    Host.reduce (FloatOps.minimumf (F := Ideal) (φ := φ)) x init h hu (ix2 a b)
      = (Finset.univ : Finset (Fin H × Fin W)).fold min (init (Shape.Idx.first hu)) fun p => x (ix4 a b p.1 p.2) := by
  refine (Host.reduce_eq_fold _ x init h hu (ix2 a b)).trans ?_
  rw [Shape.ReducesTo.drop_eq_drop h (reduces_of_reducesTo h)]
  exact fold_fibre_last2 _ _ a b (mem_filter_drop_last2 (reduces_of_reducesTo h) a b) _ x

/-! ## 512 rows taken in eight bands of 64 -/

/-- Row 64 k + p of the 512, for a band k < 8 and a row p of the band. -/
def bandRow (k : Nat) (hk : k < 8) (p : Fin 64) : Fin 512 := ⟨64 * k + p.val, by have := p.isLt; omega⟩

/-- Distinct rows of a band are distinct rows of the 512. -/
theorem bandRow_injective (k : Nat) (hk : k < 8) : Function.Injective (bandRow k hk) := by
  intro p q e
  have h := congrArg Fin.val e
  change 64 * k + p.val = 64 * k + q.val at h
  exact Fin.ext (by omega)

/-- The rows r with 64 k ≤ r < 64 (k + 1) are exactly the rows of band k. -/
theorem filter_band_eq_image (k : Nat) (hk : k < 8) :
    (Finset.univ.filter fun r : Fin 512 => 64 * k ≤ r.val ∧ r.val < 64 * (k + 1)) = Finset.univ.image (bandRow k hk) := by
  ext r
  rw [Finset.mem_filter, Finset.mem_image]
  constructor
  · rintro ⟨_, h1, h2⟩
    refine ⟨⟨r.val - 64 * k, by omega⟩, Finset.mem_univ _, Fin.ext ?_⟩
    show 64 * k + (r.val - 64 * k) = r.val
    omega
  · rintro ⟨q, _, rfl⟩
    have := q.isLt
    refine ⟨Finset.mem_univ _, ?_, ?_⟩
    · show 64 * k ≤ 64 * k + q.val
      omega
    · show 64 * k + q.val < 64 * (k + 1)
      omega

/-- The same for pairs (row, column): the pairs whose row lies in band k are the pairs of band k. -/
theorem filter_bandPairs_eq_image (k : Nat) (hk : k < 8) :
    (Finset.univ.filter fun p : Fin 512 × Fin W => 64 * k ≤ p.1.val ∧ p.1.val < 64 * (k + 1))
      = Finset.univ.image (fun p : Fin 64 × Fin W => (bandRow k hk p.1, p.2)) := by
  ext p
  rw [Finset.mem_filter, Finset.mem_image]
  constructor
  · rintro ⟨_, h1, h2⟩
    refine ⟨(⟨p.1.val - 64 * k, by omega⟩, p.2), Finset.mem_univ _, Prod.ext (Fin.ext ?_) rfl⟩
    show 64 * k + (p.1.val - 64 * k) = p.1.val
    omega
  · rintro ⟨q, _, rfl⟩
    have := q.1.isLt
    refine ⟨Finset.mem_univ _, ?_, ?_⟩
    · show 64 * k ≤ 64 * k + q.1.val
      omega
    · show 64 * k + q.1.val < 64 * (k + 1)
      omega

/-- A fold from the operation's identity e of a function that is e off a set is the fold over the set. -/
theorem fold_ite_identity {M ι : Type} [DecidableEq ι] (op : M → M → M) [Std.Commutative op] [Std.Associative op] (e : M)
    (he : ∀ x, op e x = x) (s : Finset ι) (P : ι → Prop) [DecidablePred P] (f : ι → M) :
    s.fold op e (fun i => if P i then f i else e) = (s.filter P).fold op e f := by
  induction s using Finset.induction_on with
  | empty => rw [Finset.filter_empty, Finset.fold_empty, Finset.fold_empty]
  | insert a s ha ih =>
    rw [Finset.fold_insert ha, ih, Finset.filter_insert]
    by_cases hP : P a
    · rw [if_pos hP, if_pos hP, Finset.fold_insert (fun hm => ha (Finset.mem_filter.1 hm).1)]
    · rw [if_neg hP, if_neg hP, he]

/-- For a commutative, associative operation with identity e: the fold over the rows below 64 (k + 1) is the fold over
    the rows below 64 k combined with the fold over band k. -/
theorem fold_bands_succ {M : Type} (op : M → M → M) [Std.Commutative op] [Std.Associative op] (e : M) (he : ∀ x, op e x = x)
    (f : Fin 512 × Fin W → M) (k : Nat) (hk : k < 8) :
    ((Finset.univ : Finset (Fin 512 × Fin W)).fold op e fun p => if p.1.val < 64 * (k + 1) then f p else e)
      = op ((Finset.univ : Finset (Fin 512 × Fin W)).fold op e fun p => if p.1.val < 64 * k then f p else e)
          ((Finset.univ : Finset (Fin 64 × Fin W)).fold op e fun p => f (bandRow k hk p.1, p.2)) := by
  have he' : ∀ x, op x e = x := fun x => (Std.Commutative.comm x e).trans (he x)
  have hsplit : ∀ p : Fin 512 × Fin W, (if p.1.val < 64 * (k + 1) then f p else e)
      = op (if p.1.val < 64 * k then f p else e) (if 64 * k ≤ p.1.val ∧ p.1.val < 64 * (k + 1) then f p else e) := by
    intro p
    by_cases h1 : p.1.val < 64 * k
    · have h2 : p.1.val < 64 * (k + 1) := by omega
      have h3 : ¬ (64 * k ≤ p.1.val ∧ p.1.val < 64 * (k + 1)) := by omega
      rw [if_pos h1, if_pos h2, if_neg h3, he']
    · by_cases h2 : p.1.val < 64 * (k + 1)
      · have h3 : 64 * k ≤ p.1.val ∧ p.1.val < 64 * (k + 1) := ⟨by omega, h2⟩
        rw [if_neg h1, if_pos h2, if_pos h3, he]
      · have h3 : ¬ (64 * k ≤ p.1.val ∧ p.1.val < 64 * (k + 1)) := fun h => h2 h.2
        rw [if_neg h1, if_neg h2, if_neg h3, he]
  calc ((Finset.univ : Finset (Fin 512 × Fin W)).fold op e fun p => if p.1.val < 64 * (k + 1) then f p else e)
      = (Finset.univ : Finset (Fin 512 × Fin W)).fold op (op e e) (fun p =>
          op (if p.1.val < 64 * k then f p else e) (if 64 * k ≤ p.1.val ∧ p.1.val < 64 * (k + 1) then f p else e)) := by
        rw [he e]; exact Finset.fold_congr fun p _ => hsplit p
    _ = op ((Finset.univ : Finset (Fin 512 × Fin W)).fold op e fun p => if p.1.val < 64 * k then f p else e)
          ((Finset.univ : Finset (Fin 512 × Fin W)).fold op e fun p =>
            if 64 * k ≤ p.1.val ∧ p.1.val < 64 * (k + 1) then f p else e) := Finset.fold_op_distrib
    _ = _ := by
        congr 1
        rw [fold_ite_identity op e he, filter_bandPairs_eq_image k hk]
        refine (Finset.fold_image (g := fun p : Fin 64 × Fin W => (bandRow k hk p.1, p.2)) ?_).trans rfl
        intro p _ q _ h
        have h' : (bandRow k hk p.1, p.2) = (bandRow k hk q.1, q.2) := h
        exact Prod.ext (bandRow_injective k hk (Prod.mk.inj h').1) (Prod.mk.inj h').2

theorem sum_bands_succ {M : Type} [AddCommMonoid M] (f : Fin 512 → M) (k : Nat) (hk : k < 8) :
    (∑ r : Fin 512, if r.val < 64 * (k + 1) then f r else 0)
      = (∑ r : Fin 512, if r.val < 64 * k then f r else 0) + ∑ p : Fin 64, f (bandRow k hk p) := by
  have hsplit : ∀ r : Fin 512, (if r.val < 64 * (k + 1) then f r else 0)
      = (if r.val < 64 * k then f r else 0) + (if 64 * k ≤ r.val ∧ r.val < 64 * (k + 1) then f r else 0) := by
    intro r
    by_cases h1 : r.val < 64 * k
    · have h2 : r.val < 64 * (k + 1) := by omega
      have h3 : ¬ (64 * k ≤ r.val ∧ r.val < 64 * (k + 1)) := by omega
      rw [if_pos h1, if_pos h2, if_neg h3, add_zero]
    · by_cases h2 : r.val < 64 * (k + 1)
      · have h3 : 64 * k ≤ r.val ∧ r.val < 64 * (k + 1) := ⟨by omega, h2⟩
        rw [if_neg h1, if_pos h2, if_pos h3, zero_add]
      · have h3 : ¬ (64 * k ≤ r.val ∧ r.val < 64 * (k + 1)) := fun h => h2 h.2
        rw [if_neg h1, if_neg h2, if_neg h3, add_zero]
  rw [Finset.sum_congr rfl (fun r _ => hsplit r), Finset.sum_add_distrib]
  congr 1
  rw [← Finset.sum_filter, filter_band_eq_image k hk, Finset.sum_image (fun p _ q _ e => bandRow_injective k hk e)]

theorem foldMax_bands_succ (f : Fin 512 × Fin W → EReal) (k : Nat) (hk : k < 8) :
    ((Finset.univ : Finset (Fin 512 × Fin W)).fold max ⊥ fun p => if p.1.val < 64 * (k + 1) then f p else ⊥)
      = max ((Finset.univ : Finset (Fin 512 × Fin W)).fold max ⊥ fun p => if p.1.val < 64 * k then f p else ⊥)
          ((Finset.univ : Finset (Fin 64 × Fin W)).fold max ⊥ fun p => f (bandRow k hk p.1, p.2)) := by
  exact fold_bands_succ max ⊥ (fun x => max_bot_left x) f k hk

theorem foldMin_bands_succ (f : Fin 512 × Fin W → EReal) (k : Nat) (hk : k < 8) :
    ((Finset.univ : Finset (Fin 512 × Fin W)).fold min ⊤ fun p => if p.1.val < 64 * (k + 1) then f p else ⊤)
      = min ((Finset.univ : Finset (Fin 512 × Fin W)).fold min ⊤ fun p => if p.1.val < 64 * k then f p else ⊤)
          ((Finset.univ : Finset (Fin 64 × Fin W)).fold min ⊤ fun p => f (bandRow k hk p.1, p.2)) := by
  exact fold_bands_succ min ⊤ (fun x => min_top_left x) f k hk

end Cert.LibReduce2

end
-- ==== Proof.BlockMath.lean ====
/-
  The body's arithmetic over the eight spatial bands of one batch band, at the extended reals.

  Fix one batch band: X r c h w for r < 8, c < 16 and the 512 × 512 spatial positions.  Spatial band k is the block
  of rows 64 k … 64 k + 63.  The body's four accumulators start (at band 0) from the reset values 0, 0, −∞, +∞ and
  take each band in turn: sum += Σ block, sumsq += Σ block², max = max(max, max block), min = min(min, min block).
  After band 7 they hold the sums and extrema over all 512 rows, so the body's final expressions of them are the
  mean S / n, the deviation √((Q − S·S / n) / (n − 1)), the maximum and the minimum of the specification.
  Sums and extrema regroup freely at the extended reals (a commutative monoid; max and min with their identities),
  so nothing here needs the entries to be finite.
-/
import proofs.«163916_j23227183136952_1_alg».proof.Proof.Gen.KernelIdeal.Skeleton
import proofs.«163916_j23227183136952_1_alg».proof.Proof.Spec
import proofs.«163916_j23227183136952_1_alg».proof.Proof.LibReduce2
import Idealize.ShloMosaic.Lib.Pipeline.Value

noncomputable section

namespace Cert.KernelIdeal.BlockMath

open Idealize.ShloMosaic Idealize.ShloMosaic.ValueIdx Cert.KernelIdeal Cert.KernelIdeal.Gen Cert.LibReduce2

/-- The four accumulators (sum, sum of squares, maximum, minimum) after band k, as the body's arithmetic makes them:
    band 0 over the reset values, each later band over the band before. -/
def accs (blk : (k : ℕ) → k < 8 → Vec Ideal S8x16x64x512 .f32) :
    (k : ℕ) → k < 8 → Vec Ideal S8x16 .f32 × Vec Ideal S8x16 .f32 × Vec Ideal S8x16 .f32 × Vec Ideal S8x16 .f32
  | 0, h => (k0_pay8 (blk 0 h) (k0_pay4 (F := Ideal)), k0_pay9 (blk 0 h) (k0_pay5 (F := Ideal)),
      k0_pay10 (blk 0 h) (k0_pay6 (F := Ideal)), k0_pay1 (k0_pay11 (blk 0 h) (k0_pay7 (F := Ideal))))
  | k + 1, h =>
    (k0_pay8 (blk (k + 1) h) (accs blk k (Nat.lt_of_succ_lt h)).1, k0_pay9 (blk (k + 1) h) (accs blk k (Nat.lt_of_succ_lt h)).2.1,
      k0_pay10 (blk (k + 1) h) (accs blk k (Nat.lt_of_succ_lt h)).2.2.1, k0_pay1 (k0_pay11 (blk (k + 1) h) (accs blk k (Nat.lt_of_succ_lt h)).2.2.2))

variable (X : Fin 8 → Fin 16 → Fin 512 → Fin 512 → EReal)

/-- Spatial band k of X as the block the body loads. -/
def band (k : ℕ) (hk : k < 8) : Vec Ideal S8x16x64x512 .f32 := fun y => X (y 0) (y 1) (bandRow k hk (y 2)) (y 3)

/-! ## The payloads read at an index -/

/-- The sum accumulator's update at (r, c): the value before plus the block's sum. -/
theorem pay8_apply (v3 : Vec Ideal S8x16x64x512 .f32) (v9 : Vec Ideal S8x16 .f32) (r : Fin 8) (c : Fin 16) :
    k0_pay8 v3 v9 (ix2 r c) = v9 (ix2 r c) + ∑ p : Fin 64, ∑ q : Fin 512, v3 (ix4 r c p q) := by
  dsimp only [k0_pay8]
  rw [shapeCast_self, addf_apply]
  exact congrArg (v9 (ix2 r c) + ·) (multiReduction_add_last2 v3 _ _ _ _ r c)

/-- The sum-of-squares accumulator's update at (r, c): the value before plus the sum of the block's squares. -/
theorem pay9_apply (v3 : Vec Ideal S8x16x64x512 .f32) (v14 : Vec Ideal S8x16 .f32) (r : Fin 8) (c : Fin 16) :
    k0_pay9 v3 v14 (ix2 r c)
      = v14 (ix2 r c) + ∑ p : Fin 64, ∑ q : Fin 512, v3 (ix4 r c p q) * v3 (ix4 r c p q) := by
  dsimp only [k0_pay9]
  rw [shapeCast_self, addf_apply]
  exact congrArg (v14 (ix2 r c) + ·) (multiReduction_add_last2 (mulf v3 v3) _ _ _ _ r c)

/-- The maximum accumulator's update at (r, c): the larger of the value before and the block's maximum from −∞. -/
theorem pay10_apply (v3 : Vec Ideal S8x16x64x512 .f32) (v19 : Vec Ideal S8x16 .f32) (r : Fin 8) (c : Fin 16) :
    k0_pay10 v3 v19 (ix2 r c)
      = max (v19 (ix2 r c))
          ((Finset.univ : Finset (Fin 64 × Fin 512)).fold max (Ideal.ofBits .f32 0xFF800000#32) fun p => v3 (ix4 r c p.1 p.2)) := by
  dsimp only [k0_pay10]
  rw [shapeCast_self, maximumf_apply]
  exact congrArg (max (v19 (ix2 r c))) (multiReduction_maximumf_last2 v3 _ _ _ _ r c)

/-- The minimum accumulator's update at (r, c): the smaller of the value before and the block's minimum from +∞. -/
theorem pay11_apply (v3 : Vec Ideal S8x16x64x512 .f32) (v24 : Vec Ideal S8x16 .f32) (r : Fin 8) (c : Fin 16) :
    k0_pay1 (k0_pay11 v3 v24) (ix2 r c)
      = min (v24 (ix2 r c))
          ((Finset.univ : Finset (Fin 64 × Fin 512)).fold min (Ideal.ofBits .f32 0x7F800000#32) fun p => v3 (ix4 r c p.1 p.2)) := by
  dsimp only [k0_pay1, k0_pay11]
  rw [shapeCast_self, minimumf_apply]
  exact congrArg (min (v24 (ix2 r c))) (multiReduction_minimumf_last2 v3 _ _ _ _ r c)

/-- The reset values: 0 for the two sums, −∞ for the maximum, +∞ for the minimum. -/
theorem pay4_apply (j : S8x16.Idx) : k0_pay4 (F := Ideal) j = 0 := by
  dsimp only [k0_pay4]
  rw [shapeCast_self, broadcast_apply]
  exact Ideal.ofBits_zero_f32

theorem pay5_apply (j : S8x16.Idx) : k0_pay5 (F := Ideal) j = 0 := by
  dsimp only [k0_pay5]
  rw [shapeCast_self, broadcast_apply]
  exact Ideal.ofBits_zero_f32

/-- The word 0xFF800000 is −∞ and the word 0x7F800000 is +∞. -/
theorem negInf_eq : Ideal.ofBits .f32 0xFF800000#32 = ⊥ := by
  simp [Ideal.ofBits, Ideal.ieee]

theorem posInf_eq : Ideal.ofBits .f32 0x7F800000#32 = ⊤ := by
  simp [Ideal.ofBits, Ideal.ieee]

theorem pay6_apply (j : S8x16.Idx) : k0_pay6 (F := Ideal) j = ⊥ := by
  dsimp only [k0_pay6]
  rw [shapeCast_self, broadcast_apply]
  exact negInf_eq

theorem pay7_apply (j : S8x16.Idx) : k0_pay7 (F := Ideal) j = ⊤ := by
  dsimp only [k0_pay7]
  rw [shapeCast_self, broadcast_apply]
  exact posInf_eq

/-! ## Folds of the identity -/

/-- A maximum of −∞'s from −∞ is −∞; a minimum of +∞'s from +∞ is +∞. -/
theorem fold_max_bot {ι : Type} (s : Finset ι) : s.fold max (⊥ : EReal) (fun _ => ⊥) = ⊥ := by
  classical
  induction s using Finset.induction_on with
  | empty => rfl
  | insert a s ha ih => rw [Finset.fold_insert ha, ih, max_self]

theorem fold_min_top {ι : Type} (s : Finset ι) : s.fold min (⊤ : EReal) (fun _ => ⊤) = ⊤ := by
  classical
  induction s using Finset.induction_on with
  | empty => rfl
  | insert a s ha ih => rw [Finset.fold_insert ha, ih, min_self]

/-! ## Before band 0 nothing is counted -/

/-- Over the first 64 · 0 rows the sum is 0, the maximum −∞ and the minimum +∞. -/
theorem prefix_sum_zero (g : Fin 512 → EReal) : (∑ h : Fin 512, if h.val < 64 * 0 then g h else 0) = 0 :=
  Finset.sum_eq_zero fun h _ => if_neg (by omega)

theorem prefix_max_bot (f : Fin 512 × Fin 512 → EReal) :
    ((Finset.univ : Finset (Fin 512 × Fin 512)).fold max ⊥ fun p => if p.1.val < 64 * 0 then f p else ⊥) = ⊥ := by
  rw [show (fun p : Fin 512 × Fin 512 => if p.1.val < 64 * 0 then f p else ⊥) = fun _ => ⊥ from
    funext fun p => if_neg (by omega)]
  exact fold_max_bot _

theorem prefix_min_top (f : Fin 512 × Fin 512 → EReal) :
    ((Finset.univ : Finset (Fin 512 × Fin 512)).fold min ⊤ fun p => if p.1.val < 64 * 0 then f p else ⊤) = ⊤ := by
  rw [show (fun p : Fin 512 × Fin 512 => if p.1.val < 64 * 0 then f p else ⊤) = fun _ => ⊤ from
    funext fun p => if_neg (by omega)]
  exact fold_min_top _

/-! ## The accumulators after band k: the sums and extrema over the first 64 (k + 1) rows -/

/-- After band k the sum accumulator at (r, c) is the sum of X r c over the rows below 64 (k + 1). -/
theorem sum_inv (r : Fin 8) (c : Fin 16) : ∀ (k : ℕ) (hk : k < 8),
    (accs (band X) k hk).1 (ix2 r c)
      = ∑ h : Fin 512, if h.val < 64 * (k + 1) then ∑ w : Fin 512, X r c h w else 0
  | 0, hk => by
    show k0_pay8 (band X 0 hk) (k0_pay4 (F := Ideal)) (ix2 r c) = _
    rw [pay8_apply, pay4_apply]
    refine Eq.trans ?_ (sum_bands_succ (fun h => ∑ w : Fin 512, X r c h w) 0 hk).symm
    rw [prefix_sum_zero]
    rfl
  | k + 1, hk => by
    show k0_pay8 (band X (k + 1) hk) (accs (band X) k (Nat.lt_of_succ_lt hk)).1 (ix2 r c) = _
    rw [pay8_apply, sum_inv r c k (Nat.lt_of_succ_lt hk)]
    exact (sum_bands_succ (fun h => ∑ w : Fin 512, X r c h w) (k + 1) hk).symm

/-- After band k the sum-of-squares accumulator at (r, c) is the sum of the squares over the rows below 64 (k + 1). -/
theorem sumsq_inv (r : Fin 8) (c : Fin 16) : ∀ (k : ℕ) (hk : k < 8),
    (accs (band X) k hk).2.1 (ix2 r c)
      = ∑ h : Fin 512, if h.val < 64 * (k + 1) then ∑ w : Fin 512, X r c h w * X r c h w else 0
  | 0, hk => by
    show k0_pay9 (band X 0 hk) (k0_pay5 (F := Ideal)) (ix2 r c) = _
    rw [pay9_apply, pay5_apply]
    refine Eq.trans ?_ (sum_bands_succ (fun h => ∑ w : Fin 512, X r c h w * X r c h w) 0 hk).symm
    rw [prefix_sum_zero]
    rfl
  | k + 1, hk => by
    show k0_pay9 (band X (k + 1) hk) (accs (band X) k (Nat.lt_of_succ_lt hk)).2.1 (ix2 r c) = _
    rw [pay9_apply, sumsq_inv r c k (Nat.lt_of_succ_lt hk)]
    exact (sum_bands_succ (fun h => ∑ w : Fin 512, X r c h w * X r c h w) (k + 1) hk).symm

/-- After band k the maximum accumulator at (r, c) is the maximum of X r c over the rows below 64 (k + 1), from −∞. -/
theorem max_inv (r : Fin 8) (c : Fin 16) : ∀ (k : ℕ) (hk : k < 8),
    (accs (band X) k hk).2.2.1 (ix2 r c)
      = (Finset.univ : Finset (Fin 512 × Fin 512)).fold max ⊥
          fun p => if p.1.val < 64 * (k + 1) then X r c p.1 p.2 else ⊥
  | 0, hk => by
    show k0_pay10 (band X 0 hk) (k0_pay6 (F := Ideal)) (ix2 r c) = _
    rw [pay10_apply, pay6_apply, negInf_eq]
    refine Eq.trans ?_ (foldMax_bands_succ (fun p : Fin 512 × Fin 512 => X r c p.1 p.2) 0 hk).symm
    rw [prefix_max_bot]
    rfl
  | k + 1, hk => by
    show k0_pay10 (band X (k + 1) hk) (accs (band X) k (Nat.lt_of_succ_lt hk)).2.2.1 (ix2 r c) = _
    rw [pay10_apply, max_inv r c k (Nat.lt_of_succ_lt hk), negInf_eq]
    exact (foldMax_bands_succ (fun p : Fin 512 × Fin 512 => X r c p.1 p.2) (k + 1) hk).symm

/-- After band k the minimum accumulator at (r, c) is the minimum of X r c over the rows below 64 (k + 1), from +∞. -/
theorem min_inv (r : Fin 8) (c : Fin 16) : ∀ (k : ℕ) (hk : k < 8),
    (accs (band X) k hk).2.2.2 (ix2 r c)
      = (Finset.univ : Finset (Fin 512 × Fin 512)).fold min ⊤
          fun p => if p.1.val < 64 * (k + 1) then X r c p.1 p.2 else ⊤
  | 0, hk => by
    show k0_pay1 (k0_pay11 (band X 0 hk) (k0_pay7 (F := Ideal))) (ix2 r c) = _
    rw [pay11_apply, pay7_apply, posInf_eq]
    refine Eq.trans ?_ (foldMin_bands_succ (fun p : Fin 512 × Fin 512 => X r c p.1 p.2) 0 hk).symm
    rw [prefix_min_top]
    rfl
  | k + 1, hk => by
    show k0_pay1 (k0_pay11 (band X (k + 1) hk) (accs (band X) k (Nat.lt_of_succ_lt hk)).2.2.2) (ix2 r c) = _
    rw [pay11_apply, min_inv r c k (Nat.lt_of_succ_lt hk), posInf_eq]
    exact (foldMin_bands_succ (fun p : Fin 512 × Fin 512 => X r c p.1 p.2) (k + 1) hk).symm

/-! ## After the last band every row is counted -/

/-- Every row is below 64 · 8 = 512, so the sum over the rows below it is the whole sum. -/
theorem whole_sum (g : Fin 512 → EReal) : (∑ h : Fin 512, if h.val < 64 * (7 + 1) then g h else 0) = ∑ h : Fin 512, g h :=
  Finset.sum_congr rfl fun h _ => if_pos (by have := h.isLt; omega)

/-- The root of a table at an index is the root of its entry. -/
theorem sqrt_apply (v : FVec Ideal S8x16 .f32) (j : S8x16.Idx) :
    Idealize.ShloMosaic.sqrt (F := Ideal) v j = Ideal.sqrt (v j) := rfl

/-- The output blocks the body stores at the last band, read at (r, c). -/
theorem mean_final (r : Fin 8) (c : Fin 16) :
    k0_pay2 (accs (band X) 7 (by decide)).1 (ix2 r c)
      = Ideal.div (∑ h : Fin 512, ∑ w : Fin 512, X r c h w) Cert.Stats.cnt := by
  dsimp only [k0_pay2]
  rw [divf_apply, broadcast_apply, sum_inv X r c 7 (by decide)]
  exact congrArg (Ideal.div · Cert.Stats.cnt) (whole_sum _)

theorem dev_final (r : Fin 8) (c : Fin 16) :
    k0_pay3 (accs (band X) 7 (by decide)).2.1 (accs (band X) 7 (by decide)).1 (ix2 r c)
      = Ideal.sqrt (Ideal.div ((∑ h : Fin 512, ∑ w : Fin 512, X r c h w * X r c h w)
          - Ideal.div ((∑ h : Fin 512, ∑ w : Fin 512, X r c h w) * (∑ h : Fin 512, ∑ w : Fin 512, X r c h w)) Cert.Stats.cnt) Cert.Stats.cntPred) := by
  dsimp only [k0_pay3]
  rw [sqrt_apply, divf_apply, subf_apply, divf_apply, mulf_apply, broadcast_apply, broadcast_apply,
    sumsq_inv X r c 7 (by decide), sum_inv X r c 7 (by decide), whole_sum, whole_sum]
  rfl

theorem top_final (r : Fin 8) (c : Fin 16) :
    (accs (band X) 7 (by decide)).2.2.1 (ix2 r c)
      = (Finset.univ : Finset (Fin 512 × Fin 512)).fold max (Ideal.ofBits .f32 0xFF800000#32) fun p => X r c p.1 p.2 := by
  rw [max_inv X r c 7 (by decide), negInf_eq]
  exact Finset.fold_congr fun p _ => if_pos (by have := p.1.isLt; omega)

theorem bot_final (r : Fin 8) (c : Fin 16) :
    (accs (band X) 7 (by decide)).2.2.2 (ix2 r c)
      = (Finset.univ : Finset (Fin 512 × Fin 512)).fold min (Ideal.ofBits .f32 0x7F800000#32) fun p => X r c p.1 p.2 := by
  rw [min_inv X r c 7 (by decide), posInf_eq]
  exact Finset.fold_congr fun p _ => if_pos (by have := p.1.isLt; omega)

end Cert.KernelIdeal.BlockMath

end
-- ==== Proof.IdealState.lean ====
/-
  What the output buffers hold after a last-band point, as the specification's tables.

  Point t = 8 b + k loads band k (rows 64 k … 64 k + 63) of the rows 8 b … 8 b + 7 of the input, and by induction on k
  the four accumulators after it are the body's fold over bands 0 … k of those rows.  So after point 8 b + 7 the
  output blocks — the body's final expressions of the accumulators — are rows 8 b … 8 b + 7 of the tables of means,
  deviations, maxima and minima of the whole input.
-/
import proofs.«163916_j23227183136952_1_alg».proof.Proof.IdealFrame.Pieces
import proofs.«163916_j23227183136952_1_alg».proof.Proof.BlockMath
import proofs.«163916_j23227183136952_1_alg».proof.Proof.Spec
import Idealize.ShloMosaic.Lib.Pipeline.Value

set_option maxRecDepth 16384

noncomputable section

namespace Cert.KernelIdeal.PoolValue

open Cert.KernelIdeal Cert.KernelIdeal.Gen Cert.KernelIdeal.Pool
open Idealize.ShloMosaic Idealize.ShloMosaic.TcCoe Idealize.ShloMosaic.ValueIdx
open Idealize.SL Idealize.SL.Sem
open Idealize.ShloMosaic.Pipeline (Dat Cfg Window)

/-- Row r of the batch band that point t belongs to, as a row of the whole array: 8 ⌊t / 8⌋ + r. -/
def rowOf (t : Fin cfg0.N) (r : Fin 8) : Fin 32 :=
  ⟨8 * (t.val / 8) + r.val, by have := t.isLt; have hN : cfg0.N = 32 := N_0; have := r.isLt; omega⟩

variable (m : (ℓ : Loc nD τ sig) → Buf (Elt Ideal) ℓ)

/-! ## The input, one batch band at a time -/

/-- The input array as launched. -/
abbrev xin (c : Dev nD) : Cert.Stats.SX.Idx → EReal := m ((c.tc : Thread nD τ).loc main_arg0)

/-- Rows 8 b … 8 b + 7 of the input: batch band b. -/
def rows (c : Dev nD) (b : Fin 4) : Fin 8 → Fin 16 → Fin 512 → Fin 512 → EReal :=
  fun r c' h w => xin m c (ix4 (⟨8 * b.val + r.val, by have := b.isLt; have := r.isLt; omega⟩ : Fin 32) c' h w)

/-- The input window's block index at point t: batch band t / 8, spatial band t mod 8, whole channel and column axes. -/
theorem index_in : ∀ t : Fin cfg0.N, win0_0.index t (0 : Fin 4) = t.val / 8 ∧ win0_0.index t (1 : Fin 4) = 0
    ∧ win0_0.index t (2 : Fin 4) = t.val % 8 ∧ win0_0.index t (3 : Fin 4) = 0 :=
  (by decide +kernel : ∀ t : Fin grid0.N, win0_0.index t (0 : Fin 4) = t.val / 8 ∧ win0_0.index t (1 : Fin 4) = 0
    ∧ win0_0.index t (2 : Fin 4) = t.val % 8 ∧ win0_0.index t (3 : Fin 4) = 0)

/-- THE BLOCK READ: at point 8 b + k the input window's block is spatial band k of batch band b. -/
theorem iblk_band (c : Dev nD) (b : Fin 4) (k : ℕ) (hk : k < 8) (ht : 8 * b.val + k < cfg0.N) :
    (iblk m c 0 ⟨8 * b.val + k, ht⟩ : Vec Ideal S8x16x64x512 .f32) = BlockMath.band (rows m c b) k hk := by
  obtain ⟨e0, e1, e2, e3⟩ := index_in ⟨8 * b.val + k, ht⟩
  have hb := b.isLt
  funext y
  unfold iblk BlockMath.band rows
  rw [View.read_apply]
  show V m c main_arg0 _ = m (c.tc.loc main_arg0) _
  unfold V
  congr 1
  funext a
  apply Fin.ext
  match a with
  | ⟨0, _⟩ =>
    show win0_0.index ⟨8 * b.val + k, ht⟩ (0 : Fin 4) * 8 + 1 * (y 0).val = 8 * b.val + (y 0).val
    rw [e0]; show (8 * b.val + k) / 8 * 8 + 1 * (y 0).val = _; omega
  | ⟨1, _⟩ =>
    show win0_0.index ⟨8 * b.val + k, ht⟩ (1 : Fin 4) * 16 + 1 * (y 1).val = (y 1).val
    rw [e1]; omega
  | ⟨2, _⟩ =>
    show win0_0.index ⟨8 * b.val + k, ht⟩ (2 : Fin 4) * 64 + 1 * (y 2).val = 64 * k + (y 2).val
    rw [e2]; show (8 * b.val + k) % 8 * 64 + 1 * (y 2).val = _; omega
  | ⟨3, _⟩ =>
    show win0_0.index ⟨8 * b.val + k, ht⟩ (3 : Fin 4) * 512 + 1 * (y 3).val = (y 3).val
    rw [e3]; omega

/-! ## The accumulators point by point -/

/-- The point 8 b + k is one of the 32. -/
theorem pt_lt (b : Fin 4) (k : ℕ) (hk : k < 8) : 8 * b.val + k < cfg0.N := by
  have : cfg0.N = 32 := N_0
  have := b.isLt
  omega

/-- Away from a first band, each accumulator after a point is its fold of the point's block over what the point before
    left: a middle and a last band fold alike. -/
theorem step_s (c : Dev nD) (n : ℕ) (hn : n + 1 < cfg0.N) (h0 : ¬(n + 1) % 8 = 0) :
    (stateAt m c (n + 1) hn).s = k0_pay8 (iblk m c 0 ⟨n + 1, hn⟩) (stateAt m c n (Nat.lt_of_succ_lt hn)).s := by
  by_cases h7 : (n + 1) % 8 = 7
  · exact (congrArg After.s (stateAt_last m c ⟨n + 1, hn⟩ h0 h7)).trans (afterLast_s c _ _ _ _ _)
  · exact (congrArg After.s (stateAt_mid m c ⟨n + 1, hn⟩ h0 h7)).trans (afterMid_s c _ _ _ _ _)

theorem step_q (c : Dev nD) (n : ℕ) (hn : n + 1 < cfg0.N) (h0 : ¬(n + 1) % 8 = 0) :
    (stateAt m c (n + 1) hn).q = k0_pay9 (iblk m c 0 ⟨n + 1, hn⟩) (stateAt m c n (Nat.lt_of_succ_lt hn)).q := by
  by_cases h7 : (n + 1) % 8 = 7
  · exact (congrArg After.q (stateAt_last m c ⟨n + 1, hn⟩ h0 h7)).trans (afterLast_q c _ _ _ _ _)
  · exact (congrArg After.q (stateAt_mid m c ⟨n + 1, hn⟩ h0 h7)).trans (afterMid_q c _ _ _ _ _)

theorem step_mx (c : Dev nD) (n : ℕ) (hn : n + 1 < cfg0.N) (h0 : ¬(n + 1) % 8 = 0) :
    (stateAt m c (n + 1) hn).mx = k0_pay10 (iblk m c 0 ⟨n + 1, hn⟩) (stateAt m c n (Nat.lt_of_succ_lt hn)).mx := by
  by_cases h7 : (n + 1) % 8 = 7
  · exact (congrArg After.mx (stateAt_last m c ⟨n + 1, hn⟩ h0 h7)).trans (afterLast_mx c _ _ _ _ _)
  · exact (congrArg After.mx (stateAt_mid m c ⟨n + 1, hn⟩ h0 h7)).trans (afterMid_mx c _ _ _ _ _)

theorem step_mn (c : Dev nD) (n : ℕ) (hn : n + 1 < cfg0.N) (h0 : ¬(n + 1) % 8 = 0) :
    (stateAt m c (n + 1) hn).mn = k0_pay1 (k0_pay11 (iblk m c 0 ⟨n + 1, hn⟩) (stateAt m c n (Nat.lt_of_succ_lt hn)).mn) := by
  by_cases h7 : (n + 1) % 8 = 7
  · exact (congrArg After.mn (stateAt_last m c ⟨n + 1, hn⟩ h0 h7)).trans (afterLast_mn c _ _ _ _ _)
  · exact (congrArg After.mn (stateAt_mid m c ⟨n + 1, hn⟩ h0 h7)).trans (afterMid_mn c _ _ _ _ _)

/-- THE ACCUMULATORS at point 8 b + k: the body's fold over bands 0 … k of batch band b. -/
theorem acc_eq (c : Dev nD) (b : Fin 4) : ∀ (k : ℕ) (hk : k < 8),
    ((stateAt m c (8 * b.val + k) (pt_lt b k hk)).s, (stateAt m c (8 * b.val + k) (pt_lt b k hk)).q,
      (stateAt m c (8 * b.val + k) (pt_lt b k hk)).mx, (stateAt m c (8 * b.val + k) (pt_lt b k hk)).mn)
      = BlockMath.accs (BlockMath.band (rows m c b)) k hk
  | 0, hk => by
    have h0 : (⟨8 * b.val + 0, pt_lt b 0 hk⟩ : Fin cfg0.N).val % 8 = 0 := by show (8 * b.val + 0) % 8 = 0; omega
    have e := stateAt_first m c ⟨8 * b.val + 0, pt_lt b 0 hk⟩ h0
    show ((stateAt m c (8 * b.val + 0) _).s, (stateAt m c (8 * b.val + 0) _).q, (stateAt m c (8 * b.val + 0) _).mx, (stateAt m c (8 * b.val + 0) _).mn)
      = (k0_pay8 (BlockMath.band (rows m c b) 0 hk) (k0_pay4 (F := Ideal)), k0_pay9 (BlockMath.band (rows m c b) 0 hk) (k0_pay5 (F := Ideal)),
        k0_pay10 (BlockMath.band (rows m c b) 0 hk) (k0_pay6 (F := Ideal)), k0_pay1 (k0_pay11 (BlockMath.band (rows m c b) 0 hk) (k0_pay7 (F := Ideal))))
    rw [← iblk_band m c b 0 hk (pt_lt b 0 hk)]
    refine Prod.ext ?_ (Prod.ext ?_ (Prod.ext ?_ ?_))
    · exact (congrArg After.s e).trans (afterFirst_s c _ _ _ _)
    · exact (congrArg After.q e).trans (afterFirst_q c _ _ _ _)
    · exact (congrArg After.mx e).trans (afterFirst_mx c _ _ _ _)
    · exact (congrArg After.mn e).trans (afterFirst_mn c _ _ _ _)
  | k + 1, hk => by
    have ih := acc_eq c b k (Nat.lt_of_succ_lt hk)
    have h0 : ¬(8 * b.val + k + 1) % 8 = 0 := by omega
    show ((stateAt m c (8 * b.val + k + 1) _).s, (stateAt m c (8 * b.val + k + 1) _).q, (stateAt m c (8 * b.val + k + 1) _).mx, (stateAt m c (8 * b.val + k + 1) _).mn)
      = (k0_pay8 (BlockMath.band (rows m c b) (k + 1) hk) (BlockMath.accs (BlockMath.band (rows m c b)) k (Nat.lt_of_succ_lt hk)).1,
        k0_pay9 (BlockMath.band (rows m c b) (k + 1) hk) (BlockMath.accs (BlockMath.band (rows m c b)) k (Nat.lt_of_succ_lt hk)).2.1,
        k0_pay10 (BlockMath.band (rows m c b) (k + 1) hk) (BlockMath.accs (BlockMath.band (rows m c b)) k (Nat.lt_of_succ_lt hk)).2.2.1,
        k0_pay1 (k0_pay11 (BlockMath.band (rows m c b) (k + 1) hk) (BlockMath.accs (BlockMath.band (rows m c b)) k (Nat.lt_of_succ_lt hk)).2.2.2))
    rw [← ih, ← iblk_band m c b (k + 1) hk (pt_lt b (k + 1) hk)]
    refine Prod.ext ?_ (Prod.ext ?_ (Prod.ext ?_ ?_))
    · exact step_s m c (8 * b.val + k) _ h0
    · exact step_q m c (8 * b.val + k) _ h0
    · exact step_mx m c (8 * b.val + k) _ h0
    · exact step_mn m c (8 * b.val + k) _ h0

/-- After a last-band point the four output buffers hold that batch band's rows of the specification's tables. -/
theorem out_blocks (c : Dev nD) (t : Fin cfg0.N) (h7 : t.val % 8 = 7) (r : Fin 8) (c' : Fin 16) :
    (stateAt (F := Ideal) m c t.val t.isLt).o1 (ix2 r c') = Cert.Stats.meanT (m ((c.tc : Thread nD τ).loc main_arg0)) (ix2 (rowOf t r) c')
    ∧ (stateAt (F := Ideal) m c t.val t.isLt).o2 (ix2 r c') = Cert.Stats.stdT (m ((c.tc : Thread nD τ).loc main_arg0)) (ix2 (rowOf t r) c')
    ∧ (stateAt (F := Ideal) m c t.val t.isLt).o3 (ix2 r c') = Cert.Stats.topT (m ((c.tc : Thread nD τ).loc main_arg0)) (ix2 (rowOf t r) c')
    ∧ (stateAt (F := Ideal) m c t.val t.isLt).o4 (ix2 r c') = Cert.Stats.botT (m ((c.tc : Thread nD τ).loc main_arg0)) (ix2 (rowOf t r) c') := by
  have hN : cfg0.N = 32 := N_0
  have htlt := t.isLt
  have h0 : ¬t.val % 8 = 0 := by omega
  obtain ⟨b, hb⟩ : ∃ b : Fin 4, t.val = 8 * b.val + 7 := ⟨⟨t.val / 8, by omega⟩, by show t.val = 8 * (t.val / 8) + 7; omega⟩
  have hst : ∀ (n : ℕ) (hn : n < cfg0.N), n = 8 * b.val + 7 →
      stateAt m c n hn = stateAt m c (8 * b.val + 7) (pt_lt b 7 (by decide)) := by
    intro n hn e; subst e; rfl
  have hacc := acc_eq m c b 7 (by decide)
  rw [← hst t.val t.isLt hb] at hacc
  have hs : (stateAt m c t.val t.isLt).s = (BlockMath.accs (BlockMath.band (rows m c b)) 7 (by decide)).1 :=
    congrArg (fun p => p.1) hacc
  have hq : (stateAt m c t.val t.isLt).q = (BlockMath.accs (BlockMath.band (rows m c b)) 7 (by decide)).2.1 :=
    congrArg (fun p => p.2.1) hacc
  have hmx : (stateAt m c t.val t.isLt).mx = (BlockMath.accs (BlockMath.band (rows m c b)) 7 (by decide)).2.2.1 :=
    congrArg (fun p => p.2.2.1) hacc
  have hmn : (stateAt m c t.val t.isLt).mn = (BlockMath.accs (BlockMath.band (rows m c b)) 7 (by decide)).2.2.2 :=
    congrArg (fun p => p.2.2.2) hacc
  have e := stateAt_last m c t h0 h7
  have o1 : (stateAt m c t.val t.isLt).o1 = k0_pay2 (stateAt m c t.val t.isLt).s := by
    rw [e, afterLast_o1, afterLast_s]
  have o2 : (stateAt m c t.val t.isLt).o2 = k0_pay3 (stateAt m c t.val t.isLt).q (stateAt m c t.val t.isLt).s := by
    rw [e, afterLast_o2, afterLast_q, afterLast_s]
  have o3 : (stateAt m c t.val t.isLt).o3 = (stateAt m c t.val t.isLt).mx := by
    rw [e, afterLast_o3, afterLast_mx]
  have o4 : (stateAt m c t.val t.isLt).o4 = (stateAt m c t.val t.isLt).mn := by
    rw [e, afterLast_o4, afterLast_mn]
  have hrow : rowOf t r = (⟨8 * b.val + r.val, by have := b.isLt; have := r.isLt; omega⟩ : Fin 32) :=
    Fin.ext (by show 8 * (t.val / 8) + r.val = 8 * b.val + r.val; omega)
  rw [hrow, o1, o2, o3, o4, hs, hq, hmx, hmn]
  exact ⟨BlockMath.mean_final (rows m c b) r c', BlockMath.dev_final (rows m c b) r c',
    BlockMath.top_final (rows m c b) r c', BlockMath.bot_final (rows m c b) r c'⟩

end Cert.KernelIdeal.PoolValue

end
-- ==== Proof.IdealValue.lean ====
/-
  The idealized kernel's value: after its run the result buffer holds the specification of the input.

  The region's four arrays after the run are read off the proof data: the block of rows 8 b … 8 b + 7 of each was
  written back once, at point 8 b + 7, with what the last band's run left in the output buffer, and those blocks tile
  the [32, 16] array.  At point 8 b + k the accumulators hold the body's fold over bands 0 … k of the rows
  8 b … 8 b + 7 of the input (the input window's block at that point is band k of those rows), so the blocks written
  back are the mean, deviation, maximum and minimum tables of the specification restricted to those rows.
  The host line then lays the four arrays side by side, which is how the specification is built.
-/
import proofs.«163916_j23227183136952_1_alg».proof.Proof.IdealFrame.Pieces
import proofs.«163916_j23227183136952_1_alg».proof.Proof.IdealState
import proofs.«163916_j23227183136952_1_alg».proof.Proof.BlockMath
import proofs.«163916_j23227183136952_1_alg».proof.Proof.Spec
import Idealize.ShloMosaic.Lib.Pipeline.Value
import Idealize.ShloMosaic.Lib.StableHlo.Run

set_option maxRecDepth 16384

noncomputable section

namespace Cert.KernelIdeal.PoolValue

open Cert.KernelIdeal Cert.KernelIdeal.Gen Cert.KernelIdeal.Pool
open Idealize.ShloMosaic Idealize.ShloMosaic.TcCoe Idealize.ShloMosaic.ValueIdx
open Idealize.SL Idealize.SL.Sem
open Idealize.ShloMosaic.Pipeline (Dat Cfg Window)

variable (m : (ℓ : Loc nD τ sig) → Buf (Elt Ideal) ℓ) (ρ : Dev nD → PrngReg)

/-- The input array as launched. -/
abbrev inp (c : Dev nD) : Cert.Stats.SX.Idx → EReal := m ((c.tc : Thread nD τ).loc main_arg0)

/-! ## What each output window writes back, and where -/

/-- Each output window's block index at point t: batch band t / 8 on the row axis, the whole channel axis. -/
theorem index_out : ∀ t : Fin cfg0.N,
    (win0_1.index t (0 : Fin 2) = t.val / 8 ∧ win0_1.index t (1 : Fin 2) = 0)
    ∧ (win0_2.index t (0 : Fin 2) = t.val / 8 ∧ win0_2.index t (1 : Fin 2) = 0)
    ∧ (win0_3.index t (0 : Fin 2) = t.val / 8 ∧ win0_3.index t (1 : Fin 2) = 0)
    ∧ (win0_4.index t (0 : Fin 2) = t.val / 8 ∧ win0_4.index t (1 : Fin 2) = 0) :=
  (by decide +kernel : ∀ t : Fin grid0.N,
    (win0_1.index t (0 : Fin 2) = t.val / 8 ∧ win0_1.index t (1 : Fin 2) = 0)
    ∧ (win0_2.index t (0 : Fin 2) = t.val / 8 ∧ win0_2.index t (1 : Fin 2) = 0)
    ∧ (win0_3.index t (0 : Fin 2) = t.val / 8 ∧ win0_3.index t (1 : Fin 2) = 0)
    ∧ (win0_4.index t (0 : Fin 2) = t.val / 8 ∧ win0_4.index t (1 : Fin 2) = 0))

/-- A table read through an output window's block at point t: row r of the block is row rowOf t r of the table. -/
theorem read_blk1 (t : Fin cfg0.N) (G : Cert.Stats.ST.Idx → EReal) (r : Fin 8) (c' : Fin 16) :
    (((cfg0.win 1).blk t).view.read (Elt Ideal) G : S8x16.Idx → EReal) (ix2 r c') = G (ix2 (rowOf t r) c') := by
  obtain ⟨⟨e0, e1⟩, -⟩ := index_out t
  rw [View.read_apply]
  show G _ = G _
  congr 1
  funext a
  apply Fin.ext
  match a with
  | ⟨0, _⟩ => show win0_1.index t (0 : Fin 2) * 8 + 1 * r.val = 8 * (t.val / 8) + r.val; rw [e0]; omega
  | ⟨1, _⟩ => show win0_1.index t (1 : Fin 2) * 16 + 1 * c'.val = c'.val; rw [e1]; omega

/-- WHAT A LAST-BAND POINT WRITES BACK to the first output array is its block of the table of means. -/
theorem flushed1_eq (c : Dev nD) (t : Fin cfg0.N) (hf : (cfg0.win 1).flush t = true) :
    (dats m 0 c).flushed 1 t = ((cfg0.win 1).blk t).view.read (Elt Ideal) (Cert.Stats.meanT (inp m c)) := by
  have h7 : t.val % 8 = 7 := (flush0_1 t).mp hf
  show (cfg0.win 1).cut (grid0.coords t) ((dats m 0 c).after 1 t) = _
  rw [after_o1]
  funext y
  obtain ⟨r, c', rfl⟩ : ∃ (r : Fin 8) (c' : Fin 16), (y : S8x16.Idx) = ix2 r c' := ⟨y 0, y 1, eq_ix2 (n0 := 8) (n1 := 16) y⟩
  exact ((out_blocks m c t h7 r c').1).trans (read_blk1 t _ r c').symm

/-- An index of the first output array lies in the block of point t when each coordinate is in the block's range. -/
theorem mem_blk1 (t : Fin cfg0.N) (i : Cert.Stats.ST.Idx) :
    i ∈ ((cfg0.win 1).blk t).view.set ↔ ∀ a : Fin 2, win0_1.index t a * S8x16.size a ≤ (i a).val ∧ (i a).val < win0_1.index t a * S8x16.size a + S8x16.size a := by
  show i ∈ ((View.whole main_v0_0).slice (win0_1.rect t)).set ↔ _
  rw [View.set_slice_whole, Rect.mem_set_unit]
  exact Iff.rfl

/-- THE COVER: row R of the first output array is in the block written back at point 8 ⌊R / 8⌋ + 7. -/
theorem cover1 (i : Cert.Stats.ST.Idx) : ∃ t : Fin cfg0.N, (cfg0.win 1).flush t = true ∧ i ∈ ((cfg0.win 1).blk t).view.set := by
  have hN : cfg0.N = 32 := N_0
  have hi0 : (i 0).val < 32 := (i 0).isLt
  have hi1 : (i 1).val < 16 := (i 1).isLt
  have ht : 8 * ((i 0).val / 8) + 7 < cfg0.N := by omega
  obtain ⟨⟨e0, e1⟩, -⟩ := index_out ⟨8 * ((i 0).val / 8) + 7, ht⟩
  refine ⟨⟨8 * ((i 0).val / 8) + 7, ht⟩, (flush0_1 _).mpr (by show (8 * ((i 0).val / 8) + 7) % 8 = 7; omega), ?_⟩
  rw [mem_blk1]
  intro a
  match a with
  | ⟨0, _⟩ =>
    show win0_1.index ⟨8 * ((i 0).val / 8) + 7, ht⟩ (0 : Fin 2) * 8 ≤ (i 0).val ∧ (i 0).val < win0_1.index ⟨8 * ((i 0).val / 8) + 7, ht⟩ (0 : Fin 2) * 8 + 8
    rw [e0]; show (8 * ((i 0).val / 8) + 7) / 8 * 8 ≤ (i 0).val ∧ (i 0).val < (8 * ((i 0).val / 8) + 7) / 8 * 8 + 8; omega
  | ⟨1, _⟩ =>
    show win0_1.index ⟨8 * ((i 0).val / 8) + 7, ht⟩ (1 : Fin 2) * 16 ≤ (i 1).val ∧ (i 1).val < win0_1.index ⟨8 * ((i 0).val / 8) + 7, ht⟩ (1 : Fin 2) * 16 + 16
    rw [e1]; omega

/-- THE FIRST OUTPUT ARRAY after the run: the table of means. -/
theorem final1 (c : Dev nD) : (dats m 0 c).arrAt 1 cfg0.N = Cert.Stats.meanT (inp m c) :=
  (dats m 0 c).arrAt_eq_of_cover 1 (Cert.Stats.meanT (inp m c)) (flushed1_eq m c) cover1
/-- A table read through an output window's block at point t: row r of the block is row rowOf t r of the table. -/
theorem read_blk2 (t : Fin cfg0.N) (G : Cert.Stats.ST.Idx → EReal) (r : Fin 8) (c' : Fin 16) :
    (((cfg0.win 2).blk t).view.read (Elt Ideal) G : S8x16.Idx → EReal) (ix2 r c') = G (ix2 (rowOf t r) c') := by
  obtain ⟨-, ⟨e0, e1⟩, -⟩ := index_out t
  rw [View.read_apply]
  show G _ = G _
  congr 1
  funext a
  apply Fin.ext
  match a with
  | ⟨0, _⟩ => show win0_2.index t (0 : Fin 2) * 8 + 1 * r.val = 8 * (t.val / 8) + r.val; rw [e0]; omega
  | ⟨1, _⟩ => show win0_2.index t (1 : Fin 2) * 16 + 1 * c'.val = c'.val; rw [e1]; omega

/-- WHAT A LAST-BAND POINT WRITES BACK to the second output array is its block of the table of deviations. -/
theorem flushed2_eq (c : Dev nD) (t : Fin cfg0.N) (hf : (cfg0.win 2).flush t = true) :
    (dats m 0 c).flushed 2 t = ((cfg0.win 2).blk t).view.read (Elt Ideal) (Cert.Stats.stdT (inp m c)) := by
  have h7 : t.val % 8 = 7 := (flush0_2 t).mp hf
  show (cfg0.win 2).cut (grid0.coords t) ((dats m 0 c).after 2 t) = _
  rw [after_o2]
  funext y
  obtain ⟨r, c', rfl⟩ : ∃ (r : Fin 8) (c' : Fin 16), (y : S8x16.Idx) = ix2 r c' := ⟨y 0, y 1, eq_ix2 (n0 := 8) (n1 := 16) y⟩
  exact ((out_blocks m c t h7 r c').2.1).trans (read_blk2 t _ r c').symm

/-- An index of the second output array lies in the block of point t when each coordinate is in the block's range. -/
theorem mem_blk2 (t : Fin cfg0.N) (i : Cert.Stats.ST.Idx) :
    i ∈ ((cfg0.win 2).blk t).view.set ↔ ∀ a : Fin 2, win0_2.index t a * S8x16.size a ≤ (i a).val ∧ (i a).val < win0_2.index t a * S8x16.size a + S8x16.size a := by
  show i ∈ ((View.whole main_v0_1).slice (win0_2.rect t)).set ↔ _
  rw [View.set_slice_whole, Rect.mem_set_unit]
  exact Iff.rfl

/-- THE COVER: row R of the second output array is in the block written back at point 8 ⌊R / 8⌋ + 7. -/
theorem cover2 (i : Cert.Stats.ST.Idx) : ∃ t : Fin cfg0.N, (cfg0.win 2).flush t = true ∧ i ∈ ((cfg0.win 2).blk t).view.set := by
  have hN : cfg0.N = 32 := N_0
  have hi0 : (i 0).val < 32 := (i 0).isLt
  have hi1 : (i 1).val < 16 := (i 1).isLt
  have ht : 8 * ((i 0).val / 8) + 7 < cfg0.N := by omega
  obtain ⟨-, ⟨e0, e1⟩, -⟩ := index_out ⟨8 * ((i 0).val / 8) + 7, ht⟩
  refine ⟨⟨8 * ((i 0).val / 8) + 7, ht⟩, (flush0_2 _).mpr (by show (8 * ((i 0).val / 8) + 7) % 8 = 7; omega), ?_⟩
  rw [mem_blk2]
  intro a
  match a with
  | ⟨0, _⟩ =>
    show win0_2.index ⟨8 * ((i 0).val / 8) + 7, ht⟩ (0 : Fin 2) * 8 ≤ (i 0).val ∧ (i 0).val < win0_2.index ⟨8 * ((i 0).val / 8) + 7, ht⟩ (0 : Fin 2) * 8 + 8
    rw [e0]; show (8 * ((i 0).val / 8) + 7) / 8 * 8 ≤ (i 0).val ∧ (i 0).val < (8 * ((i 0).val / 8) + 7) / 8 * 8 + 8; omega
  | ⟨1, _⟩ =>
    show win0_2.index ⟨8 * ((i 0).val / 8) + 7, ht⟩ (1 : Fin 2) * 16 ≤ (i 1).val ∧ (i 1).val < win0_2.index ⟨8 * ((i 0).val / 8) + 7, ht⟩ (1 : Fin 2) * 16 + 16
    rw [e1]; omega

/-- THE SECOND OUTPUT ARRAY after the run: the table of deviations. -/
theorem final2 (c : Dev nD) : (dats m 0 c).arrAt 2 cfg0.N = Cert.Stats.stdT (inp m c) :=
  (dats m 0 c).arrAt_eq_of_cover 2 (Cert.Stats.stdT (inp m c)) (flushed2_eq m c) cover2
/-- A table read through an output window's block at point t: row r of the block is row rowOf t r of the table. -/
theorem read_blk3 (t : Fin cfg0.N) (G : Cert.Stats.ST.Idx → EReal) (r : Fin 8) (c' : Fin 16) :
    (((cfg0.win 3).blk t).view.read (Elt Ideal) G : S8x16.Idx → EReal) (ix2 r c') = G (ix2 (rowOf t r) c') := by
  obtain ⟨-, -, ⟨e0, e1⟩, -⟩ := index_out t
  rw [View.read_apply]
  show G _ = G _
  congr 1
  funext a
  apply Fin.ext
  match a with
  | ⟨0, _⟩ => show win0_3.index t (0 : Fin 2) * 8 + 1 * r.val = 8 * (t.val / 8) + r.val; rw [e0]; omega
  | ⟨1, _⟩ => show win0_3.index t (1 : Fin 2) * 16 + 1 * c'.val = c'.val; rw [e1]; omega

/-- WHAT A LAST-BAND POINT WRITES BACK to the third output array is its block of the table of maxima. -/
theorem flushed3_eq (c : Dev nD) (t : Fin cfg0.N) (hf : (cfg0.win 3).flush t = true) :
    (dats m 0 c).flushed 3 t = ((cfg0.win 3).blk t).view.read (Elt Ideal) (Cert.Stats.topT (inp m c)) := by
  have h7 : t.val % 8 = 7 := (flush0_3 t).mp hf
  show (cfg0.win 3).cut (grid0.coords t) ((dats m 0 c).after 3 t) = _
  rw [after_o3]
  funext y
  obtain ⟨r, c', rfl⟩ : ∃ (r : Fin 8) (c' : Fin 16), (y : S8x16.Idx) = ix2 r c' := ⟨y 0, y 1, eq_ix2 (n0 := 8) (n1 := 16) y⟩
  exact ((out_blocks m c t h7 r c').2.2.1).trans (read_blk3 t _ r c').symm

/-- An index of the third output array lies in the block of point t when each coordinate is in the block's range. -/
theorem mem_blk3 (t : Fin cfg0.N) (i : Cert.Stats.ST.Idx) :
    i ∈ ((cfg0.win 3).blk t).view.set ↔ ∀ a : Fin 2, win0_3.index t a * S8x16.size a ≤ (i a).val ∧ (i a).val < win0_3.index t a * S8x16.size a + S8x16.size a := by
  show i ∈ ((View.whole main_v0_2).slice (win0_3.rect t)).set ↔ _
  rw [View.set_slice_whole, Rect.mem_set_unit]
  exact Iff.rfl

/-- THE COVER: row R of the third output array is in the block written back at point 8 ⌊R / 8⌋ + 7. -/
theorem cover3 (i : Cert.Stats.ST.Idx) : ∃ t : Fin cfg0.N, (cfg0.win 3).flush t = true ∧ i ∈ ((cfg0.win 3).blk t).view.set := by
  have hN : cfg0.N = 32 := N_0
  have hi0 : (i 0).val < 32 := (i 0).isLt
  have hi1 : (i 1).val < 16 := (i 1).isLt
  have ht : 8 * ((i 0).val / 8) + 7 < cfg0.N := by omega
  obtain ⟨-, -, ⟨e0, e1⟩, -⟩ := index_out ⟨8 * ((i 0).val / 8) + 7, ht⟩
  refine ⟨⟨8 * ((i 0).val / 8) + 7, ht⟩, (flush0_3 _).mpr (by show (8 * ((i 0).val / 8) + 7) % 8 = 7; omega), ?_⟩
  rw [mem_blk3]
  intro a
  match a with
  | ⟨0, _⟩ =>
    show win0_3.index ⟨8 * ((i 0).val / 8) + 7, ht⟩ (0 : Fin 2) * 8 ≤ (i 0).val ∧ (i 0).val < win0_3.index ⟨8 * ((i 0).val / 8) + 7, ht⟩ (0 : Fin 2) * 8 + 8
    rw [e0]; show (8 * ((i 0).val / 8) + 7) / 8 * 8 ≤ (i 0).val ∧ (i 0).val < (8 * ((i 0).val / 8) + 7) / 8 * 8 + 8; omega
  | ⟨1, _⟩ =>
    show win0_3.index ⟨8 * ((i 0).val / 8) + 7, ht⟩ (1 : Fin 2) * 16 ≤ (i 1).val ∧ (i 1).val < win0_3.index ⟨8 * ((i 0).val / 8) + 7, ht⟩ (1 : Fin 2) * 16 + 16
    rw [e1]; omega

/-- THE THIRD OUTPUT ARRAY after the run: the table of maxima. -/
theorem final3 (c : Dev nD) : (dats m 0 c).arrAt 3 cfg0.N = Cert.Stats.topT (inp m c) :=
  (dats m 0 c).arrAt_eq_of_cover 3 (Cert.Stats.topT (inp m c)) (flushed3_eq m c) cover3
/-- A table read through an output window's block at point t: row r of the block is row rowOf t r of the table. -/
theorem read_blk4 (t : Fin cfg0.N) (G : Cert.Stats.ST.Idx → EReal) (r : Fin 8) (c' : Fin 16) :
    (((cfg0.win 4).blk t).view.read (Elt Ideal) G : S8x16.Idx → EReal) (ix2 r c') = G (ix2 (rowOf t r) c') := by
  obtain ⟨-, -, -, e0, e1⟩ := index_out t
  rw [View.read_apply]
  show G _ = G _
  congr 1
  funext a
  apply Fin.ext
  match a with
  | ⟨0, _⟩ => show win0_4.index t (0 : Fin 2) * 8 + 1 * r.val = 8 * (t.val / 8) + r.val; rw [e0]; omega
  | ⟨1, _⟩ => show win0_4.index t (1 : Fin 2) * 16 + 1 * c'.val = c'.val; rw [e1]; omega

/-- WHAT A LAST-BAND POINT WRITES BACK to the fourth output array is its block of the table of minima. -/
theorem flushed4_eq (c : Dev nD) (t : Fin cfg0.N) (hf : (cfg0.win 4).flush t = true) :
    (dats m 0 c).flushed 4 t = ((cfg0.win 4).blk t).view.read (Elt Ideal) (Cert.Stats.botT (inp m c)) := by
  have h7 : t.val % 8 = 7 := (flush0_4 t).mp hf
  show (cfg0.win 4).cut (grid0.coords t) ((dats m 0 c).after 4 t) = _
  rw [after_o4]
  funext y
  obtain ⟨r, c', rfl⟩ : ∃ (r : Fin 8) (c' : Fin 16), (y : S8x16.Idx) = ix2 r c' := ⟨y 0, y 1, eq_ix2 (n0 := 8) (n1 := 16) y⟩
  exact ((out_blocks m c t h7 r c').2.2.2).trans (read_blk4 t _ r c').symm

/-- An index of the fourth output array lies in the block of point t when each coordinate is in the block's range. -/
theorem mem_blk4 (t : Fin cfg0.N) (i : Cert.Stats.ST.Idx) :
    i ∈ ((cfg0.win 4).blk t).view.set ↔ ∀ a : Fin 2, win0_4.index t a * S8x16.size a ≤ (i a).val ∧ (i a).val < win0_4.index t a * S8x16.size a + S8x16.size a := by
  show i ∈ ((View.whole main_v0_3).slice (win0_4.rect t)).set ↔ _
  rw [View.set_slice_whole, Rect.mem_set_unit]
  exact Iff.rfl

/-- THE COVER: row R of the fourth output array is in the block written back at point 8 ⌊R / 8⌋ + 7. -/
theorem cover4 (i : Cert.Stats.ST.Idx) : ∃ t : Fin cfg0.N, (cfg0.win 4).flush t = true ∧ i ∈ ((cfg0.win 4).blk t).view.set := by
  have hN : cfg0.N = 32 := N_0
  have hi0 : (i 0).val < 32 := (i 0).isLt
  have hi1 : (i 1).val < 16 := (i 1).isLt
  have ht : 8 * ((i 0).val / 8) + 7 < cfg0.N := by omega
  obtain ⟨-, -, -, e0, e1⟩ := index_out ⟨8 * ((i 0).val / 8) + 7, ht⟩
  refine ⟨⟨8 * ((i 0).val / 8) + 7, ht⟩, (flush0_4 _).mpr (by show (8 * ((i 0).val / 8) + 7) % 8 = 7; omega), ?_⟩
  rw [mem_blk4]
  intro a
  match a with
  | ⟨0, _⟩ =>
    show win0_4.index ⟨8 * ((i 0).val / 8) + 7, ht⟩ (0 : Fin 2) * 8 ≤ (i 0).val ∧ (i 0).val < win0_4.index ⟨8 * ((i 0).val / 8) + 7, ht⟩ (0 : Fin 2) * 8 + 8
    rw [e0]; show (8 * ((i 0).val / 8) + 7) / 8 * 8 ≤ (i 0).val ∧ (i 0).val < (8 * ((i 0).val / 8) + 7) / 8 * 8 + 8; omega
  | ⟨1, _⟩ =>
    show win0_4.index ⟨8 * ((i 0).val / 8) + 7, ht⟩ (1 : Fin 2) * 16 ≤ (i 1).val ∧ (i 1).val < win0_4.index ⟨8 * ((i 0).val / 8) + 7, ht⟩ (1 : Fin 2) * 16 + 16
    rw [e1]; omega

/-- THE FOURTH OUTPUT ARRAY after the run: the table of minima. -/
theorem final4 (c : Dev nD) : (dats m 0 c).arrAt 4 cfg0.N = Cert.Stats.botT (inp m c) :=
  (dats m 0 c).arrAt_eq_of_cover 4 (Cert.Stats.botT (inp m c)) (flushed4_eq m c) cover4

/-! ## The host line: the four arrays side by side -/

/-- The result buffer is no window's array: it passes through the region. -/
theorem v1_rest : main_v1 ∈ Pipeline.restRefs sig (cfgs 0).spec :=
  Pipeline.mem_restRefs_of main_v1 rfl (by decide)

/-- The host line's result, from any contents: the four output arrays' contents side by side. -/
theorem tail_result (W : Valuation τ sig (Elt Ideal)) :
    StableHlo.after (hostOps1 (F := Ideal)) W (Proc.devRef .tc main_v1)
      = concatenate S32x64 1 [⟨S32x16, W (Proc.devRef .tc main_v0_0)⟩, ⟨S32x16, W (Proc.devRef .tc main_v0_1)⟩,
          ⟨S32x16, W (Proc.devRef .tc main_v0_2)⟩, ⟨S32x16, W (Proc.devRef .tc main_v0_3)⟩]
          Facts₀.concatenates_S32x16_S32x16_S32x16_S32x16_S32x64_d1 := by
  rw [StableHlo.after_cons, StableHlo.after_nil, StableHlo.nary4_result]
  rfl

/-- Four tables that are the specification's, side by side, are the specification. -/
theorem stats_of_tables (x : Cert.Stats.SX.Idx → EReal) (a0 a1 a2 a3 : S32x16.Idx → EReal)
    (e0 : a0 = Cert.Stats.meanT x) (e1 : a1 = Cert.Stats.stdT x) (e2 : a2 = Cert.Stats.topT x) (e3 : a3 = Cert.Stats.botT x) :
    concatenate S32x64 1 [⟨S32x16, a0⟩, ⟨S32x16, a1⟩, ⟨S32x16, a2⟩, ⟨S32x16, a3⟩] Facts₀.concatenates_S32x16_S32x16_S32x16_S32x16_S32x64_d1
      = Cert.Stats.stats Facts₀.concatenates_S32x16_S32x16_S32x16_S32x16_S32x64_d1 x := by
  subst e0 e1 e2 e3
  rfl

/-- THE RESULT BUFFER after the host line: the specification of the input. -/
theorem result_eq (c : Dev nD) :
    Pipeline.afterTail₀ cfgs (dats m) 0 (V0 m) [hostOps1] c main_v1
      = Cert.Stats.stats Facts₀.concatenates_S32x16_S32x16_S32x16_S32x16_S32x64_d1 (inp m c) := by
  unfold Pipeline.afterTail₀
  show StableHlo.after hostOps1 _ (Proc.devRef .tc main_v1) = _
  rw [tail_result]
  exact stats_of_tables (inp m c) _ _ _ _
    ((Pipeline.withArrays_arr spec0 launch0.win.arr_inj c _ _ 1).trans (final1 m c))
    ((Pipeline.withArrays_arr spec0 launch0.win.arr_inj c _ _ 2).trans (final2 m c))
    ((Pipeline.withArrays_arr spec0 launch0.win.arr_inj c _ _ 3).trans (final3 m c))
    ((Pipeline.withArrays_arr spec0 launch0.win.arr_inj c _ _ 4).trans (final4 m c))

/-- From any memory with zero counters every weakly fair execution of the idealized kernel terminates, with the result
    buffer at the specification of the input array and the input array as launched. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v1)
        = Cert.Stats.stats Cert.KernelIdeal.Facts₀.concatenates_S32x16_S32x16_S32x16_S32x16_S32x64_d1 (m ((c.tc : Thread nD τ).loc main_arg0))
      ∧ r.2.mem ((c.tc : Thread nD τ).loc main_arg0) = m ((c.tc : Thread nD τ).loc main_arg0) :=
  (θ_run defs _ _).mono (fun r h c => ⟨((h c).2 main_v1 v1_rest).trans (result_eq m c),
      ((h c).1 0).trans (((dats m 0 c).arrAt_in 0 rfl _).trans ((A_eq m c 0).trans (V_main_arg0 m c)))⟩)
    (run_main (F := Ideal) m ρ)

end Cert.KernelIdeal.PoolValue

end
-- ==== Proof.RefTerm.lean ====
/-
  The reference's result as one term of its input: the operations of its main function composed in order,
  the outlined variance and deviation functions inlined.

  mean    = (0 + Σ x) / n
  var     = select (n − 1 > 0) ((0 + Σ (x − (0 + Σ x) / n)²) / (n − 1)) fill      (n − 1 computed as n − float 1)
  std     = √ var
  max,min = the folds of max and min from −∞ and +∞
  result  = the four [32, 16] tables side by side
-/
import proofs.«163916_j23227183136952_1_alg».proof.ReferenceIdeal

noncomputable section

namespace Cert.ReferenceIdeal.Composed

open Idealize.ShloMosaic Cert.ReferenceIdeal Cert.ReferenceIdeal.Facts₀

variable {F : FTy → Type} [FloatOps F] [Cert.ReferenceIdeal.Facts]

/-- The sum over the spatial axes, from 0. -/
def sumT (x : FVec F S32x16x512x512 .f32) : FVec F S32x16 .f32 :=
  Host.reduceAdd x (constant S_ .f32 0x00000000#32) reducesTo_S32x16x512x512_S32x16_d2_3 h_S_

/-- The table of means: the sum divided by n. -/
def meanT (x : FVec F S32x16x512x512 .f32) : FVec F S32x16 .f32 :=
  Host.divf (sumT x) (broadcastInDim S32x16 ![] bcast_S_S32x16 (constant S_ .f32 0x48800000#32))

/-- The input with its mean (kept as a [32, 16, 1, 1] array and spread over the spatial axes) taken off. -/
def centred (x : FVec F S32x16x512x512 .f32) : FVec F S32x16x512x512 .f32 :=
  subf x (broadcastInDim S32x16x512x512 ![0, 1, 2, 3] bcast_S32x16x1x1_S32x16x512x512_0_1_2_3
    (Host.divf (broadcastInDim S32x16x1x1 ![0, 1] bcast_S32x16_S32x16x1x1_0_1 (sumT x))
      (broadcastInDim S32x16x1x1 ![] bcast_S_S32x16x1x1 (constant S_ .f32 0x48800000#32))))

/-- The divisor n − 1, computed as n less the float of the integer 1. -/
def divisor : FVec F S_ .f32 :=
  subf (constant S_ .f32 0x48800000#32) (sitofp .f32 (constantI S_ 32 1#32))

/-- The table of unbiased variances: the centred sum of squares over n − 1, guarded by n − 1 > 0. -/
def varT (x : FVec F S32x16x512x512 .f32) : FVec F S32x16 .f32 :=
  select (broadcastInDim S32x16 ![] bcast_S_S32x16 (cmpf .ogt (divisor (F := F)) (constant S_ .f32 0x00000000#32)))
    (Host.divf
      (Host.reduceAdd (mulf (centred x) (centred x)) (constant S_ .f32 0x00000000#32) reducesTo_S32x16x512x512_S32x16_d2_3 h_S_)
      (broadcastInDim S32x16 ![] bcast_S_S32x16 (divisor (F := F))))
    (broadcastInDim S32x16 ![] bcast_S_S32x16 (id (constant S_ .f32 0x7FC00000#32)))

/-- The table of deviations. -/
def stdT (x : FVec F S32x16x512x512 .f32) : FVec F S32x16 .f32 := Host.sqrt (varT x)

/-- The tables of maxima and of minima. -/
def topT (x : FVec F S32x16x512x512 .f32) : FVec F S32x16 .f32 :=
  Host.reduce FloatOps.maximumf x (constant S_ .f32 0xFF800000#32) reducesTo_S32x16x512x512_S32x16_d2_3 h_S_
def botT (x : FVec F S32x16x512x512 .f32) : FVec F S32x16 .f32 :=
  Host.reduce FloatOps.minimumf x (constant S_ .f32 0x7F800000#32) reducesTo_S32x16x512x512_S32x16_d2_3 h_S_

/-- The reference's result. -/
def out (x : FVec F S32x16x512x512 .f32) : FVec F S32x64 .f32 :=
  concatenate S32x64 1 [⟨S32x16, meanT x⟩, ⟨S32x16, stdT x⟩, ⟨S32x16, topT x⟩, ⟨S32x16, botT x⟩]
    concatenates_S32x16_S32x16_S32x16_S32x16_S32x64_d1

end Cert.ReferenceIdeal.Composed

end
-- ==== Proof.RefRun.lean ====
/-
  The reference program's run: its main function is a straight line of host operations (the outlined deviation,
  variance and selection functions are run in place, on buffers of their own), so every execution ends with the
  result buffer at the operations' composed term of the input, and the input unchanged.
-/
import proofs.«163916_j23227183136952_1_alg».proof.Proof.Gen.ReferenceIdeal
import proofs.«163916_j23227183136952_1_alg».proof.Proof.RefTerm
import Idealize.ShloMosaic.Lib.StableHlo.Run

noncomputable section

namespace Cert.ReferenceIdeal.HostRun

open Cert.ReferenceIdeal Cert.ReferenceIdeal.Gen Idealize.ShloMosaic Idealize.ShloMosaic.TcCoe Idealize.SL.Sem Idealize.ShloMosaic.StableHlo

variable {F : FTy → Type} [FloatOps F]

/-- The thirty-three operations that compute the four tables, in order, each outlined function's operations in
    place of its call: the mean's five and the integer one; the variance's nineteen (the centred squares summed,
    the divisor n − 1 and its test, the fill), the selection's three and the square root, over the call's own
    buffers; the two folds with their initial values. -/
abbrev tables : List (HloOp τ sig (Elt F)) :=
  [ nullary main_cst (constant S_ .f32 0x00000000#32),
    binary main_arg0 main_cst main_v0 ((fun x v => Host.reduceAdd x v reducesTo_S32x16x512x512_S32x16_d2_3 h_S_) : (⟨S32x16x512x512, .f32⟩ : BufTy).Contents (Elt F) → (⟨S_, .f32⟩ : BufTy).Contents (Elt F) → (⟨S32x16, .f32⟩ : BufTy).Contents (Elt F)),
    nullary main_cst_0 (constant S_ .f32 0x48800000#32),
    unary main_cst_0 main_v1 (broadcastInDim S32x16 ![] bcast_S_S32x16 : (⟨S_, .f32⟩ : BufTy).Contents (Elt F) → (⟨S32x16, .f32⟩ : BufTy).Contents (Elt F)),
    binary main_v0 main_v1 main_v2 (Host.divf : (⟨S32x16, .f32⟩ : BufTy).Contents (Elt F) → (⟨S32x16, .f32⟩ : BufTy).Contents (Elt F) → (⟨S32x16, .f32⟩ : BufTy).Contents (Elt F)),
    nullary main_c (constantI S_ 32 1#32),
    TRef.nullary main_call0_call0.cst (constant S_ .f32 0x00000000#32),
    TRef.binary (.of main_arg0) main_call0_call0.cst main_call0_call0.v0 (fun x v => Host.reduceAdd x v reducesTo_S32x16x512x512_S32x16_d2_3 h_S_),
    TRef.unary main_call0_call0.v0 main_call0_call0.v1 (broadcastInDim S32x16x1x1 ![0, 1] bcast_S32x16_S32x16x1x1_0_1),
    TRef.nullary main_call0_call0.cst_0 (constant S_ .f32 0x48800000#32),
    TRef.unary main_call0_call0.cst_0 main_call0_call0.v2 (broadcastInDim S32x16x1x1 ![] bcast_S_S32x16x1x1),
    TRef.binary main_call0_call0.v1 main_call0_call0.v2 main_call0_call0.v3 Host.divf,
    TRef.unary main_call0_call0.v3 main_call0_call0.v4 (broadcastInDim S32x16x512x512 ![0, 1, 2, 3] bcast_S32x16x1x1_S32x16x512x512_0_1_2_3),
    TRef.binary (.of main_arg0) main_call0_call0.v4 main_call0_call0.v5 subf,
    TRef.binary main_call0_call0.v5 main_call0_call0.v5 main_call0_call0.v6 mulf,
    TRef.unary (.of main_c) main_call0_call0.v7 (sitofp .f32),
    TRef.nullary main_call0_call0.cst_1 (constant S_ .f32 0x48800000#32),
    TRef.binary main_call0_call0.cst_1 main_call0_call0.v7 main_call0_call0.v8 subf,
    TRef.nullary main_call0_call0.cst_2 (constant S_ .f32 0x00000000#32),
    TRef.binary main_call0_call0.v6 main_call0_call0.cst_2 main_call0_call0.v9 (fun x v => Host.reduceAdd x v reducesTo_S32x16x512x512_S32x16_d2_3 h_S_),
    TRef.unary main_call0_call0.v8 main_call0_call0.v10 (broadcastInDim S32x16 ![] bcast_S_S32x16),
    TRef.binary main_call0_call0.v9 main_call0_call0.v10 main_call0_call0.v11 Host.divf,
    TRef.nullary main_call0_call0.cst_3 (constant S_ .f32 0x00000000#32),
    TRef.binary main_call0_call0.v8 main_call0_call0.cst_3 main_call0_call0.v12 (cmpf .ogt),
    TRef.nullary main_call0_call0.cst_4 (constant S_ .f32 0x7FC00000#32),
    TRef.unary main_call0_call0.cst_4 main_call0_call0_call0.v0 id,
    TRef.unary main_call0_call0_call0.v0 main_call0_call0_call0.v1 (broadcastInDim S32x16 ![] bcast_S_S32x16),
    TRef.ternary main_call0_call0.v12 main_call0_call0.v11 main_call0_call0_call0.v1 main_call0_call0_call0.v2 (fun p a b => select (broadcastInDim S32x16 ![] bcast_S_S32x16 p) a b),
    TRef.unary main_call0_call0_call0.v2 main_call0.v1 Host.sqrt,
    nullary main_cst_1 (constant S_ .f32 0xFF800000#32),
    binary main_arg0 main_cst_1 main_v4 ((fun x v => Host.reduce FloatOps.maximumf x v reducesTo_S32x16x512x512_S32x16_d2_3 h_S_) : (⟨S32x16x512x512, .f32⟩ : BufTy).Contents (Elt F) → (⟨S_, .f32⟩ : BufTy).Contents (Elt F) → (⟨S32x16, .f32⟩ : BufTy).Contents (Elt F)),
    nullary main_cst_2 (constant S_ .f32 0x7F800000#32),
    binary main_arg0 main_cst_2 main_v5 ((fun x v => Host.reduce FloatOps.minimumf x v reducesTo_S32x16x512x512_S32x16_d2_3 h_S_) : (⟨S32x16x512x512, .f32⟩ : BufTy).Contents (Elt F) → (⟨S_, .f32⟩ : BufTy).Contents (Elt F) → (⟨S32x16, .f32⟩ : BufTy).Contents (Elt F)) ]

/-- The last operation: the four tables side by side. -/
abbrev sideBySide : HloOp τ sig (Elt F) :=
  nary ![main_v2, main_v3, main_v4, main_v5] main_v6 (fun u => concatenate S32x64 1 [⟨S32x16, u 0⟩, ⟨S32x16, u 1⟩, ⟨S32x16, u 2⟩, ⟨S32x16, u 3⟩] concatenates_S32x16_S32x16_S32x16_S32x16_S32x64_d1)

/-- The main function's thirty-four operations. -/
abbrev ops : List (HloOp τ sig (Elt F)) := tables ++ [sideBySide]

-- the chain of thirty-four steps is deeper than the default recursion bound
set_option maxRecDepth 1024 in
/-- The main function is that straight line: the outlined functions' bodies in place of their calls and the
    calls' buffer records at their fields, sequencing re-associated. -/
theorem main_eq (c : Dev nD) : main (F := F) c = seq ops := by
  simp only [main, fn_std.body, fn_var.body, fn_where.body, ops, tables, sideBySide, seq_append, seq, bind_assoc, pure_bind]

/-- No buffer of the signature is scoped, and no semaphore. -/
theorem scopedRefs_eq : (Finset.univ.filter fun b : Ref sig .tc => b.isScoped) = ∅ := by decide
theorem scopedSems_eq : (Finset.univ.filter fun sm : SemLoc sig => sm.isScoped .tc) = ∅ := by decide

/-- Every operation touches the core's own buffers only. -/
theorem ops_sub : (ops : List (HloOp τ sig (Elt F))).Forall fun op => op.bufs ⊆ tcRefs τ sig :=
  ⟨nullary_bufs_sub .., binary_bufs_sub .., nullary_bufs_sub .., unary_bufs_sub .., binary_bufs_sub .., nullary_bufs_sub ..,
    nullary_bufs_sub .., binary_bufs_sub .., unary_bufs_sub .., nullary_bufs_sub .., unary_bufs_sub .., binary_bufs_sub ..,
    unary_bufs_sub .., binary_bufs_sub .., binary_bufs_sub .., unary_bufs_sub .., nullary_bufs_sub .., binary_bufs_sub ..,
    nullary_bufs_sub .., binary_bufs_sub .., unary_bufs_sub .., binary_bufs_sub .., nullary_bufs_sub .., binary_bufs_sub ..,
    nullary_bufs_sub .., unary_bufs_sub .., unary_bufs_sub .., ternary_bufs_sub .., unary_bufs_sub ..,
    nullary_bufs_sub .., binary_bufs_sub .., nullary_bufs_sub .., binary_bufs_sub .., nary_bufs_sub ..⟩

/-- The contents after two lines run one after the other: the second's, from the first's. -/
theorem after_append (l₁ l₂ : List (HloOp τ sig (Elt F))) (V : Valuation τ sig (Elt F)) :
    after (l₁ ++ l₂) V = after l₂ (after l₁ V) := by
  induction l₁ generalizing V with
  | nil => rfl
  | cons op l ih => exact ih _

/-! The four tables, and the input, after the thirty-three operations, each read back through the line: an
    operation's result at its own buffer is its function of what its operands held, any other buffer holds what it
    held before. A value passes into and out of an outlined function's buffer unchanged, so what is left is the
    composed term itself. -/

theorem mean_eq (V : Valuation τ sig (Elt F)) :
    after tables V (Proc.devRef .tc main_v2) = Composed.meanT (F := F) (V (Proc.devRef .tc main_arg0)) := by
  after_results_simp
  rfl

theorem std_eq (V : Valuation τ sig (Elt F)) :
    after tables V (Proc.devRef .tc main_v3) = Composed.stdT (F := F) (V (Proc.devRef .tc main_arg0)) := by
  after_results_simp
  rfl

theorem top_eq (V : Valuation τ sig (Elt F)) :
    after tables V (Proc.devRef .tc main_v4) = Composed.topT (F := F) (V (Proc.devRef .tc main_arg0)) := by
  after_results_simp
  rfl

theorem bot_eq (V : Valuation τ sig (Elt F)) :
    after tables V (Proc.devRef .tc main_v5) = Composed.botT (F := F) (V (Proc.devRef .tc main_arg0)) := by
  after_results_simp
  rfl

theorem arg0_tables (V : Valuation τ sig (Elt F)) :
    after tables V (Proc.devRef .tc main_arg0) = V (Proc.devRef .tc main_arg0) := by
  after_results_simp

/-- The last operation's result, from any contents: the four tables' contents side by side. -/
theorem sideBySide_result (W : Valuation τ sig (Elt F)) :
    (sideBySide (F := F)).result W (Proc.devRef .tc main_v6)
      = concatenate S32x64 1 [⟨S32x16, W (Proc.devRef .tc main_v2)⟩, ⟨S32x16, W (Proc.devRef .tc main_v3)⟩,
          ⟨S32x16, W (Proc.devRef .tc main_v4)⟩, ⟨S32x16, W (Proc.devRef .tc main_v5)⟩]
          concatenates_S32x16_S32x16_S32x16_S32x16_S32x64_d1 := by
  rw [nary4_result]
  rfl

/-- The result buffer after the whole line: the four tables side by side. -/
theorem out_eq (V : Valuation τ sig (Elt F)) :
    after ops V (Proc.devRef .tc main_v6) = Composed.out (F := F) (V (Proc.devRef .tc main_arg0)) := by
  rw [after_append, after_cons, after_nil, sideBySide_result, mean_eq, std_eq, top_eq, bot_eq]
  rfl

/-- The input buffer after the whole line: no operation writes it. -/
theorem arg0_eq (V : Valuation τ sig (Elt F)) :
    after ops V (Proc.devRef .tc main_arg0) = V (Proc.devRef .tc main_arg0) := by
  rw [after_append, after_cons, after_nil, nary_result_ne _ _ _ _ _ _ (by decide), arg0_tables]

/-- From any memory with zero counters every weakly fair execution of the reference terminates, with its result
    at the composed term of the input and the input unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v6) = Composed.out (F := F) (m ((c.tc : Thread nD τ).loc main_arg0))
      ∧ r.2.mem ((c.tc : Thread nD τ).loc main_arg0) = m ((c.tc : Thread nD τ).loc main_arg0) :=
  (θ_run defs _ _).mono (fun _ h c => ⟨(h c main_v6).trans (out_eq _), (h c main_arg0).trans (arg0_eq _)⟩)
    (run_seq scopedRefs_eq scopedSems_eq defs main (fun _ => ops) main_eq (fun _ => ops_sub) m ρ)

end Cert.ReferenceIdeal.HostRun

end
-- ==== Proof.RefMath.lean ====
/-
  The reference's composed term is the specification, on an input whose entries are all real.

  Means, maxima and minima agree as they stand (a sum or an extremum over the two spatial axes read at (b, c)).
  For the deviation: the reference takes the centred sum of squares Σ (x − S / n)² over n − 1, the specification
  (Q − S·S / n) / (n − 1); over the reals, with n the number of terms, Σ (x − S / n)² = Q − 2 (S / n) S + n (S / n)²
  = Q − S·S / n.  The divisor n − 1 is computed by the reference as n − float 1 = 262143, the word the
  specification carries, and it is positive, so the guard selects the quotient.
-/
import proofs.«163916_j23227183136952_1_alg».proof.Proof.Gen.ReferenceIdeal
import proofs.«163916_j23227183136952_1_alg».proof.Proof.RefTerm
import proofs.«163916_j23227183136952_1_alg».proof.Proof.Spec
import proofs.«163916_j23227183136952_1_alg».proof.Proof.LibReduce2
import Idealize.ShloMosaic.Lib.Pipeline.Value

noncomputable section

namespace Cert.ReferenceIdeal.Math

open Idealize.ShloMosaic Idealize.ShloMosaic.ValueIdx Cert.ReferenceIdeal

/-! ## The two divisors' words as reals -/

/-- The word 0x48800000 is 2^18 = 262144. -/
theorem cnt_eq : Ideal.ofBits .f32 0x48800000#32 = ((262144 : ℝ) : EReal) := by
  simp [Ideal.ofBits, Ideal.ieee, -EReal.coe_mul]; norm_num

/-- The word 0x487FFFC0 is 2^18 − 1 = 262143. -/
theorem cntPred_eq : Ideal.ofBits .f32 0x487FFFC0#32 = ((262143 : ℝ) : EReal) := by
  simp [Ideal.ofBits, Ideal.ieee, -EReal.coe_mul]; norm_num

/-! ## Sums of reals inside the extended reals -/

/-- The inclusion of the reals in the extended reals carries a finite sum to the sum of the images. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The same for a double sum. -/
theorem coe_sum2 {ι κ : Type} [Fintype ι] [Fintype κ] (f : ι → κ → ℝ) :
    ((∑ i, ∑ j, f i j : ℝ) : EReal) = ∑ i, ∑ j, (f i j : EReal) := by
  rw [coe_sum]; exact Finset.sum_congr rfl fun i _ => coe_sum _ _

/-! ## The centred sum of squares -/

/-- Over the reals, with n the number of terms and S their sum, Σ (f − S / n)² = Σ f² − S · S / n. -/
theorem centred_sq_sum {ι κ : Type} [Fintype ι] [Fintype κ] (f : ι → κ → ℝ) (n : ℝ) (hn : n ≠ 0)
    (hcard : (Fintype.card ι : ℝ) * (Fintype.card κ : ℝ) = n) :
    ∑ i, ∑ j, (f i j - (∑ i, ∑ j, f i j) * (1 / n)) * (f i j - (∑ i, ∑ j, f i j) * (1 / n))
      = (∑ i, ∑ j, f i j * f i j) - (∑ i, ∑ j, f i j) * (∑ i, ∑ j, f i j) * (1 / n) := by
  generalize hS : (∑ i, ∑ j, f i j) = S
  have h1 : ∀ i j, (f i j - S * (1 / n)) * (f i j - S * (1 / n))
      = f i j * f i j - (2 * (S * (1 / n))) * f i j + (S * (1 / n)) * (S * (1 / n)) := fun i j => by ring
  simp only [h1, Finset.sum_add_distrib, Finset.sum_sub_distrib, ← Finset.mul_sum, Finset.sum_const,
    Finset.card_univ, nsmul_eq_mul, hS]
  have hc : (Fintype.card ι : ℝ) * (Fintype.card κ : ℝ) * (1 / n) = 1 := by rw [hcard]; field_simp
  linear_combination (S * (1 / n) * S) * hc

/-! ## The sum over the two spatial axes, and the tables that need no arithmetic -/

/-- The reference's sum table at (b, c) is the double sum of x[b, c]. -/
theorem sumT_apply (x : FVec Ideal S32x16x512x512 .f32) (b : Fin 32) (c : Fin 16) :
    Composed.sumT (F := Ideal) x (ix2 b c) = ∑ h : Fin 512, ∑ w : Fin 512, x (ix4 b c h w) := by
  unfold Composed.sumT
  refine (Cert.LibReduce2.hostReduceAdd_last2 x _ _ _ b c).trans ?_
  rw [constant_apply, Ideal.ofBits_zero_f32, zero_add]

/-- The tables of means agree. -/
theorem meanT_eq (x : FVec Ideal S32x16x512x512 .f32) : Composed.meanT (F := Ideal) x = Cert.Stats.meanT x := by
  funext j
  obtain ⟨b, c, rfl⟩ : ∃ (b : Fin 32) (c : Fin 16), j = ix2 b c := ⟨j 0, j 1, eq_ix2 j⟩
  unfold Composed.meanT Cert.Stats.meanT
  rw [hostDivf_apply, sumT_apply, broadcastInDim_scalar_apply, constant_apply]
  rfl

/-- The tables of maxima agree. -/
theorem topT_eq (x : FVec Ideal S32x16x512x512 .f32) : Composed.topT (F := Ideal) x = Cert.Stats.topT x := by
  funext j
  obtain ⟨b, c, rfl⟩ : ∃ (b : Fin 32) (c : Fin 16), j = ix2 b c := ⟨j 0, j 1, eq_ix2 j⟩
  unfold Composed.topT Cert.Stats.topT Cert.Stats.top
  refine (Cert.LibReduce2.hostReduce_maximumf_last2 x _ _ _ b c).trans ?_
  rw [constant_apply]

/-- The tables of minima agree. -/
theorem botT_eq (x : FVec Ideal S32x16x512x512 .f32) : Composed.botT (F := Ideal) x = Cert.Stats.botT x := by
  funext j
  obtain ⟨b, c, rfl⟩ : ∃ (b : Fin 32) (c : Fin 16), j = ix2 b c := ⟨j 0, j 1, eq_ix2 j⟩
  unfold Composed.botT Cert.Stats.botT Cert.Stats.bot
  refine (Cert.LibReduce2.hostReduce_minimumf_last2 x _ _ _ b c).trans ?_
  rw [constant_apply]

/-! ## The divisor n − 1 and its guard -/

/-- The reference's n − float 1 is 262143. -/
theorem divisor_apply (i : S_.Idx) : Composed.divisor (F := Ideal) i = ((262143 : ℝ) : EReal) := by
  have h : Composed.divisor (F := Ideal) i
      = Ideal.ofBits .f32 0x48800000#32 - (((1#32 : BitVec 32).toInt : ℝ) : EReal) := rfl
  rw [h, cnt_eq, show (1#32 : BitVec 32).toInt = 1 by decide, ← EReal.coe_sub]
  norm_num

/-- 262143 is positive, so the guard n − 1 > 0 holds. -/
theorem guard_eq : Ideal.cmp .ogt ((262143 : ℝ) : EReal) 0 = 1#1 := by
  have h : (0 : EReal) < ((262143 : ℝ) : EReal) := by exact_mod_cast (by norm_num : (0 : ℝ) < 262143)
  simp [Ideal.cmp, h]

/-! ## The centred input and the variance, read at an index -/

/-- The centred input at (b, c, h, w): the entry less the mean of x[b, c]. -/
theorem centred_apply (x : FVec Ideal S32x16x512x512 .f32) (b : Fin 32) (c : Fin 16) (h w : Fin 512) :
    Composed.centred (F := Ideal) x (ix4 b c h w)
      = x (ix4 b c h w)
        - Ideal.div (∑ p : Fin 512, ∑ q : Fin 512, x (ix4 b c p q)) (Ideal.ofBits .f32 0x48800000#32) := by
  unfold Composed.centred
  rw [subf_apply]
  congr 1
  refine (broadcastInDim_apply _ _ _ (ix4 b c h w) (ix4 b c (0 : Fin 1) (0 : Fin 1)) ?_).trans ?_
  · intro a; match a with
    | ⟨0, _⟩ => rfl
    | ⟨1, _⟩ => rfl
    | ⟨2, _⟩ => rfl
    | ⟨3, _⟩ => rfl
  rw [hostDivf_apply, broadcastInDim_scalar_apply, constant_apply]
  congr 1
  refine (broadcastInDim_apply _ _ _ (ix4 b c (0 : Fin 1) (0 : Fin 1)) (ix2 b c) ?_).trans ?_
  · intro a; match a with
    | ⟨0, _⟩ => rfl
    | ⟨1, _⟩ => rfl
  exact sumT_apply x b c

/-- The variance table at (b, c): the guard holds, so it is the centred sum of squares over 262143. -/
theorem varT_apply (x : FVec Ideal S32x16x512x512 .f32) (b : Fin 32) (c : Fin 16) :
    Composed.varT (F := Ideal) x (ix2 b c)
      = Ideal.div (∑ h : Fin 512, ∑ w : Fin 512,
          (x (ix4 b c h w)
            - Ideal.div (∑ p : Fin 512, ∑ q : Fin 512, x (ix4 b c p q)) (Ideal.ofBits .f32 0x48800000#32))
          * (x (ix4 b c h w)
            - Ideal.div (∑ p : Fin 512, ∑ q : Fin 512, x (ix4 b c p q)) (Ideal.ofBits .f32 0x48800000#32)))
          ((262143 : ℝ) : EReal) := by
  unfold Composed.varT
  rw [select_apply, broadcastInDim_scalar_apply, cmpf_apply, divisor_apply, constant_apply, Ideal.ofBits_zero_f32,
    Ideal.cmpf_def, guard_eq, select_one, hostDivf_apply, broadcastInDim_scalar_apply, divisor_apply]
  congr 1
  refine (Cert.LibReduce2.hostReduceAdd_last2 _ _ _ _ b c).trans ?_
  rw [constant_apply, Ideal.ofBits_zero_f32, zero_add]
  refine Finset.sum_congr rfl fun h _ => Finset.sum_congr rfl fun w _ => ?_
  rw [mulf_apply, centred_apply]

/-! ## The deviation -/

/-- The tables of deviations agree on an input of real entries: both are the root of the centred sum of squares
    over 262143, by the identity Σ (x − S / n)² = Q − S · S / n with n = 512 · 512 the number of terms. -/
theorem stdT_eq (x : FVec Ideal S32x16x512x512 .f32) (hfin : ∀ i, ∃ r : ℝ, x i = (r : EReal)) :
    Composed.stdT (F := Ideal) x = Cert.Stats.stdT x := by
  funext j
  obtain ⟨b, c, rfl⟩ : ∃ (b : Fin 32) (c : Fin 16), j = ix2 b c := ⟨j 0, j 1, eq_ix2 j⟩
  choose r hr using hfin
  have hn : (262144 : ℝ) ≠ 0 := by norm_num
  have key := centred_sq_sum (fun h w : Fin 512 => r (ix4 b c h w)) 262144 hn (by simp; norm_num)
  show Ideal.sqrt (Composed.varT (F := Ideal) x (ix2 b c))
    = Ideal.sqrt (Ideal.div (Cert.Stats.totalSq x b c
        - Ideal.div (Cert.Stats.total x b c * Cert.Stats.total x b c) Cert.Stats.cnt) Cert.Stats.cntPred)
  rw [varT_apply]
  unfold Cert.Stats.totalSq Cert.Stats.total Cert.Stats.cnt Cert.Stats.cntPred
  rw [cntPred_eq]
  congr 2
  simp only [cnt_eq, hr, Ideal.div_coe hn, ← coe_sum2, ← EReal.coe_mul, ← EReal.coe_sub]
  exact congrArg _ key

/-! ## The result -/

/-- On an input of real entries the reference's term is the specification. -/
theorem out_eq_stats (x : FVec Ideal S32x16x512x512 .f32) (hfin : ∀ i, ∃ r : ℝ, x i = (r : EReal)) :
    Composed.out (F := Ideal) x
      = Cert.Stats.stats Cert.ReferenceIdeal.Facts₀.concatenates_S32x16_S32x16_S32x16_S32x16_S32x64_d1 x := by
  unfold Composed.out Cert.Stats.stats Cert.Stats.sideBySide
  rw [meanT_eq, stdT_eq x hfin, topT_eq, botT_eq]

end Cert.ReferenceIdeal.Math

end
-- ==== Proof.Finite.lean ====
/-
  The precondition says every entry of the input is finite: |x| < +∞ entry by entry, all of them at once.
  So at the extended reals every entry of the input is a real number.
-/
import proofs.«163916_j23227183136952_1_alg».proof.Defs
import proofs.«163916_j23227183136952_1_alg».proof.Proof.Gen.KernelIdeal
import proofs.«163916_j23227183136952_1_alg».proof.Proof.Gen.Pre_finite_inputs
import Idealize.ShloMosaic.Lib.ReduceAll

noncomputable section

namespace Cert.Proof.Finite

open Idealize.ShloMosaic Idealize.ShloMosaic.TcCoe Idealize.SL.Sem

/-- The scalar shape has one index. -/
instance : Subsingleton Cert.Pre_finite_inputs.S_.Idx := ⟨fun a b => funext fun d => d.elim0⟩

/-- The bit pattern of +∞ is the top of the extended reals. -/
theorem inf_eq_top : Ideal.ofBits .f32 0x7F800000#32 = (⊤ : EReal) := by simp [Ideal.ofBits, Ideal.ieee]

/-- An extended real whose absolute value max x (−x) is below +∞ is a real number: −∞ and +∞ both have
    absolute value +∞. -/
theorem real_of_abs_lt_top (x : EReal) (hx : max x (-x) < ⊤) : ∃ r : ℝ, x = (r : EReal) := by
  induction x using EReal.rec with
  | bot => simp at hx
  | top => simp at hx
  | coe r => exact ⟨r, rfl⟩

/-- An array on which the finiteness predicate is all ones has a real number at every entry: the predicate is
    the conjunction over all entries of |x| < +∞, so each conjunct holds. -/
theorem entry_real (x : FVec Ideal Cert.Pre_finite_inputs.S32x16x512x512 .f32)
    (h : Cert.Pre_finite_inputs.fn (F := Ideal) x = fun _ => 1#1) (i : Cert.Pre_finite_inputs.S32x16x512x512.Idx) :
    ∃ r : ℝ, x i = (r : EReal) := by
  have h0 := congrFun h (fun d => d.elim0)
  dsimp only [Cert.Pre_finite_inputs.fn] at h0
  have hi := Host.reduce_andi_all _ _ _ _ _ h0 i
  have hi' : BitVec.ofBool (decide (max (x i : EReal) (-(x i : EReal)) < Ideal.ofBits .f32 0x7F800000#32)) = 1#1 := hi
  rw [inf_eq_top] at hi'
  refine real_of_abs_lt_top (x i) ?_
  by_contra hn
  rw [decide_eq_false hn] at hi'
  exact absurd hi' (by decide)

/-- Under the precondition every entry of the kernel's input array is a real number. -/
theorem real_of_pre (m : (ℓ : Loc Cert.KernelIdeal.nD Cert.KernelIdeal.τ Cert.KernelIdeal.sig) → Buf (Elt Ideal) ℓ)
    (h : Cert.Pre_KernelIdeal m) (c : Dev Cert.KernelIdeal.nD) (i : Cert.KernelIdeal.S32x16x512x512.Idx) :
    ∃ r : ℝ, m ((c.tc : Thread Cert.KernelIdeal.nD Cert.KernelIdeal.τ).loc Cert.KernelIdeal.main_arg0) i = (r : EReal) :=
  entry_real _ (h c) i

end Cert.Proof.Finite

end
-- ==== Proof.lean ====
/-
  Per-channel spatial statistics of x : [32, 16, 512, 512] — mean, unbiased standard deviation, maximum and minimum
  over the 512 × 512 positions of each (batch, channel) pair, the four [32, 16] tables side by side in a [32, 64]
  result — computed by a pipelined kernel and by a plain reference.

  The kernel walks a 4 × 8 grid: batch band b (8 rows) and spatial band h (64 of the 512 rows).  It keeps, per
  (row, channel) of the batch band, a running sum S, sum of squares Q, maximum and minimum across the eight
  spatial bands, and at the last one writes  S / n,  √((Q − S·S / n) / (n − 1)),  the maximum and the minimum,
  n = 512·512.  The reference computes the mean as Σx / n and the deviation from the centred sum of squares,
  √(Σ (x − Σx / n)² / (n − 1)).

  Sums and extrema regroup freely over the extended reals, so the kernel's banded accumulation gives the whole
  sums and extrema whatever the entries are.  The two forms of the variance agree where the entries are finite:
  Σ (x − S / n)² = Q − 2 (S / n) S + n (S / n)² = Q − S·S / n, an identity of real numbers that uses n = the number
  of terms; this is the one place the precondition (every entry finite) is used.  The divisors are exact in f32
  (2^18 and 2^18 − 1), and the reference's n − 1, computed as n − float 1, is the kernel's literal.

  The frames: both kernel programs are one pipelined region followed by the host line that concatenates the four
  tables; the region's invariant carries the four accumulators from point to point, and the input array is never
  written.  The reference is a straight line of host operations.
-/
import proofs.«163916_j23227183136952_1_alg».proof.Defs
import proofs.«163916_j23227183136952_1_alg».proof.Proof.Gen.Kernel
import proofs.«163916_j23227183136952_1_alg».proof.Proof.Gen.KernelIdeal
import proofs.«163916_j23227183136952_1_alg».proof.Proof.Gen.ReferenceIdeal
import proofs.«163916_j23227183136952_1_alg».proof.Proof.Gen.Pre_finite_inputs
import proofs.«163916_j23227183136952_1_alg».proof.Proof.BitsFrame.Frame
import proofs.«163916_j23227183136952_1_alg».proof.Proof.IdealFrame.Frame
import proofs.«163916_j23227183136952_1_alg».proof.Proof.IdealValue
import proofs.«163916_j23227183136952_1_alg».proof.Proof.RefRun
import proofs.«163916_j23227183136952_1_alg».proof.Proof.RefMath
import proofs.«163916_j23227183136952_1_alg».proof.Proof.Finite
import Idealize.ShloMosaic.Adequacy
import Idealize.ShloMosaic.Init

noncomputable section

namespace Cert.Proof

open Idealize.ShloMosaic Idealize.SL.Sem

/-- The word-level kernel runs to the end, faults nowhere and leaves its input as launched. -/
theorem frame_kernel : Cert.frame_Kernel := fun m ρ _ => Cert.Kernel.Pool.frame (F := Bits) m ρ

/-- So does the idealized kernel. -/
theorem frame_kernelIdeal : Cert.frame_KernelIdeal := fun m ρ _ => Cert.KernelIdeal.Pool.frame (F := Ideal) m ρ

/-- So does the reference: its run with the result dropped. -/
theorem frame_referenceIdeal : Cert.frame_ReferenceIdeal := fun m ρ _ =>
  (θ_run Cert.ReferenceIdeal.defs _ _).mono (fun _ h c => (h c).2) (Cert.ReferenceIdeal.HostRun.run (F := Ideal) m ρ)

/-- The ideal pass rewrote nothing: the idealization is the program's own text. -/
theorem preserves : Cert.preserves_Kernel_KernelIdeal := trivial

/-- Both idealized programs end with the specification of the input: the kernel whatever the entries are, the
    reference because under the precondition every entry is real. -/
theorem algebraic : Cert.algebraic_KernelIdeal_ReferenceIdeal := by
  intro m ρ m' ρ' hpre hagree
  refine ⟨fun c => Cert.Stats.stats Cert.KernelIdeal.Facts₀.concatenates_S32x16_S32x16_S32x16_S32x16_S32x64_d1
      (m ((c.tc : Thread Cert.KernelIdeal.nD Cert.KernelIdeal.τ).loc Cert.KernelIdeal.main_arg0)),
    Cert.KernelIdeal.PoolValue.run m ρ, ?_⟩
  refine (θ_run Cert.ReferenceIdeal.defs _ _).mono (fun _ h c => ⟨(h c).1.trans ?_, (h c).2⟩)
    (Cert.ReferenceIdeal.HostRun.run (F := Ideal) m' ρ')
  rw [hagree c]
  exact Cert.ReferenceIdeal.Math.out_eq_stats _ (Cert.Proof.Finite.real_of_pre m hpre c)

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
